-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S1x500 : Shape := ⟨2, ![1, 500]⟩
abbrev S2x128 : Shape := ⟨2, ![2, 128]⟩
abbrev S128 : Shape := ⟨1, ![128]⟩
abbrev S628x128 : Shape := ⟨2, ![628, 128]⟩
abbrev S128x16 : Shape := ⟨2, ![128, 16]⟩
abbrev S16 : Shape := ⟨1, ![16]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S1x500 : S_.BroadcastsInDim S1x500 (![] : Fin 0 → Fin S1x500.rank)
  reducesTo_S1x500_S_d0_1 : S1x500.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S628x128 : S_.BroadcastsInDim S628x128 (![] : Fin 0 → Fin S628x128.rank)
  reducesTo_S628x128_S_d0_1 : S628x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S128 .f32) (main_arg9 : FVec F S128x16 .f32) (main_arg10 : FVec F S16 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x16 .f32 := Host.absf main_arg9
  let main_cst_14 : FVec F S_ .f32 := constant S_ .f32 0x7F800000#32
  let main_v40 : FVec F S128x16 .f32 := broadcastInDim S128x16 ![] bcast_S_S128x16 main_cst_14
  let main_v41 : IVec S128x16 1 := cmpf .olt main_v39 main_v40
  let main_c_15 : IVec S_ 1 := constantI S_ 1 1#1
  let main_v42 : IVec S_ 1 := (fun x v => Host.reduce IntOp.andi x v reducesTo_S128x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S128 .f32) (main_arg6 : FVec F S128 .f32) (main_arg7 : FVec F S628x128 .f32) (main_arg8 : FVec F S128 .f32) (main_arg9 : FVec F S128x16 .f32) (main_arg10 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S628x128 .f32 := Host.absf main_arg7
  let main_cst_10 : FVec F S_ .f32 := constant S_ .f32 0x7F800000#32
  let main_v30 : FVec F S628x128 .f32 := broadcastInDim S628x128 ![] bcast_S_S628x128 main_cst_10
  let main_v31 : IVec S628x128 1 := cmpf .olt main_v29 main_v30
  let main_c_11 : IVec S_ 1 := constantI S_ 1 1#1
  let main_v32 : IVec S_ 1 := (fun x v => Host.reduce IntOp.andi x v reducesTo_S628x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x2 .f32) (main_arg1 : IVec S2x1600000 32) (main_arg2 : FVec F S1x500 .f32) (main_arg3 : FVec F S2x128 .f32) (main_arg4 : FVec F S128 .f32) (main_arg5 : FVec F S128 .f32) (main_arg6 : FVec F S128 .f32) (main_arg7 : FVec F S628x128 .f32) (main_arg8 : FVec F S128 .f32) (main_arg9 : FVec F S128x16 .f32) (main_arg10 : FVec F S16 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S1x500 .f32 := Host.absf main_arg2
  let main_cst_0 : FVec F S_ .f32 := constant S_ .f32 0x7F800000#32
  let main_v5 : FVec F S1x500 .f32 := broadcastInDim S1x500 ![] bcast_S_S1x500 main_cst_0
  let main_v6 : IVec S1x500 1 := cmpf .olt main_v4 main_v5
  let main_c_1 : IVec S_ 1 := constantI S_ 1 1#1
  let main_v7 : IVec S_ 1 := (fun x v => Host.reduce IntOp.andi x v reducesTo_S1x500_S_d0_1 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x2 : Shape := ⟨2, ![100000, 2]⟩
abbrev S2x1600000 : Shape := ⟨2, ![2, 1600000]⟩
abbrev S1x500 : Shape := ⟨2, ![1, 500]⟩
abbrev S2x128 : Shape := ⟨2, ![2, 128]⟩
abbrev S128 : Shape := ⟨1, ![128]⟩
abbrev S628x128 : Shape := ⟨2, ![628, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S4000x2 : Shape := ⟨2, ![4000, 2]⟩
abbrev S4000x128 : Shape := ⟨2, ![4000, 128]⟩
abbrev S4000x1 : Shape := ⟨2, ![4000, 1]⟩
abbrev S1x128 : Shape := ⟨2, ![1, 128]⟩
abbrev S1600000x128 : Shape := ⟨2, ![1600000, 128]⟩
abbrev S1x1 : Shape := ⟨2, ![1, 1]⟩
abbrev S4000 : Shape := ⟨1, ![4000]⟩
abbrev S1 : Shape := ⟨1, ![1]⟩
abbrev S1x628 : Shape := ⟨2, ![1, 628]⟩
abbrev S1x16 : Shape := ⟨2, ![1, 16]⟩

abbrev nBuf : Space → Nat
  | .hbm => 110
  | .vmem => 23
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S1x500, .f32⟩
  | .hbm, ⟨3, _⟩ => ⟨S2x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S628x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S1x1, .f32⟩
  | .hbm, ⟨66, _⟩ => ⟨S1x1, .f32⟩
  | .hbm, ⟨67, _⟩ => ⟨S_, .f32⟩
  | .hbm, ⟨68, _⟩ => ⟨S1x1, .f32⟩
  | .hbm, ⟨69, _⟩ => ⟨S1x1, .f32⟩
  | .hbm, ⟨70, _⟩ => ⟨S_, .f32⟩
  | .hbm, ⟨71, _⟩ => ⟨S1x1, .f32⟩
  | .hbm, ⟨72, _⟩ => ⟨S1x1, .f32⟩
  | .hbm, ⟨73, _⟩ => ⟨S1x1, .f32⟩
  | .hbm, ⟨74, _⟩ => ⟨S1x1, .f32⟩
  | .hbm, ⟨75, _⟩ => ⟨S1x1, .f32⟩
  | .hbm, ⟨76, _⟩ => ⟨S_, .f32⟩
  | .hbm, ⟨77, _⟩ => ⟨S1x1, .f32⟩
  | .hbm, ⟨78, _⟩ => ⟨S1x1, .f32⟩
  | .hbm, ⟨79, _⟩ => ⟨S_, .f32⟩
  | .hbm, ⟨80, _⟩ => ⟨S1x1, .f32⟩
  | .hbm, ⟨81, _⟩ => ⟨S1x1, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x628, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S1x16, .f32⟩
  | .hbm, ⟨93, _⟩ => ⟨S1x16, .f32⟩
  | .hbm, ⟨94, _⟩ => ⟨S1x16, .f32⟩
  | .hbm, ⟨95, _⟩ => ⟨S_, .f32⟩
  | .hbm, ⟨96, _⟩ => ⟨S1, .f32⟩
  | .hbm, ⟨97, _⟩ => ⟨S_, .f32⟩
  | .hbm, ⟨98, _⟩ => ⟨S1, .f32⟩
  | .hbm, ⟨99, _⟩ => ⟨S1, .f32⟩
  | .hbm, ⟨100, _⟩ => ⟨S1x1, .f32⟩
  | .hbm, ⟨101, _⟩ => ⟨S1x16, .f32⟩
  | .hbm, ⟨102, _⟩ => ⟨S1x16, .f32⟩
  | .hbm, ⟨103, _⟩ => ⟨S1x16, .f32⟩
  | .hbm, ⟨104, _⟩ => ⟨S_, .f32⟩
  | .hbm, ⟨105, _⟩ => ⟨S1, .f32⟩
  | .hbm, ⟨106, _⟩ => ⟨S1x1, .f32⟩
  | .hbm, ⟨107, _⟩ => ⟨S1x1, .f32⟩
  | .hbm, ⟨108, _⟩ => ⟨S1x16, .f32⟩
  | .hbm, ⟨109, _⟩ => ⟨S1x16, .f32⟩
  | .local _ .vmem, ⟨0, _⟩ => ⟨S4000x2, .f32⟩
  | .local _ .vmem, ⟨1, _⟩ => ⟨S4000x2, .f32⟩
  | .local _ .vmem, ⟨2, _⟩ => ⟨S2x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S1x1, .f32⟩
  | .local _ .vmem, ⟨15, _⟩ => ⟨S1x1, .f32⟩
  | .local _ .vmem, ⟨16, _⟩ => ⟨S4000x128, .f32⟩
  | .local _ .vmem, ⟨17, _⟩ => ⟨S4000x128, .f32⟩
  | .local _ .vmem, ⟨18, _⟩ => ⟨S1x1, .f32⟩
  | .local _ .vmem, ⟨19, _⟩ => ⟨S1x1, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43_0 : Ref sig .tc := ⟨.hbm, 64, rfl⟩
abbrev main_v43_1 : Ref sig .tc := ⟨.hbm, 65, rfl⟩
abbrev main_v43_2 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call0_cst : Ref sig .tc := ⟨.hbm, 89, rfl⟩
abbrev main_call0_v0 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call1_cst : Ref sig .tc := ⟨.hbm, 95, rfl⟩
abbrev main_call1_v0 : Ref sig .tc := ⟨.hbm, 96, rfl⟩
abbrev main_call1_cst_0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_cst_1 : Ref sig .tc := ⟨.hbm, 104, rfl⟩
abbrev main_call1_v7 : Ref sig .tc := ⟨.hbm, 105, rfl⟩
abbrev main_call1_v8 : Ref sig .tc := ⟨.hbm, 106, rfl⟩
abbrev main_call1_v9 : Ref sig .tc := ⟨.hbm, 107, rfl⟩
abbrev main_call1_v10 : Ref sig .tc := ⟨.hbm, 108, rfl⟩
abbrev main_v66 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x2_S4000x2_0_0 : ∀ a, (![0, 0] : Fin 2 → Nat) a + S4000x2.size a ≤ S4000x2.size a
  h_S4000x2 : 0 < S4000x2.numel
  inb_S2x128_S2x128_0_0 : ∀ a, (![0, 0] : Fin 2 → Nat) a + S2x128.size a ≤ S2x128.size a
  h_S2x128 : 0 < S2x128.numel
  slices_S4000x2_o0_0_S4000x1 : S4000x2.Slices ![0, 0] S4000x1
  slices_S4000x2_o0_1_S4000x1 : S4000x2.Slices ![0, 1] S4000x1
  slices_S2x128_o0_0_S1x128 : S2x128.Slices ![0, 0] S1x128
  slices_S2x128_o1_0_S1x128 : S2x128.Slices ![1, 0] S1x128
  broadcasts_S4000x1_S4000x128 : S4000x1.Broadcasts S4000x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x1_S1x1_0_0 : ∀ a, (![0, 0] : Fin 2 → Nat) a + S1x1.size a ≤ S1x1.size a
  h_S1x1 : 0 < S1x1.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S4000x128_S4000 : S4000x128.Reduces [1] S4000
  shapeCasts_S4000_S4000x1 : S4000.ShapeCasts S4000x1
  reduces_S4000x1_S1 : S4000x1.Reduces [0] S1
  shapeCasts_S1_S1x1 : S1.ShapeCasts S1x1
  shapeCasts_S1x1_S1x1 : S1x1.ShapeCasts S1x1
  bcast_S_S1x1 : S_.BroadcastsInDim S1x1 (![] : Fin 0 → Fin S1x1.rank)
  broadcasts_S1x1_S4000x128 : S1x1.Broadcasts S4000x128
  reduces_S4000x128_S128 : S4000x128.Reduces [0] S128
  concatenates_S1x128_S1x500_S1x628_d1 : Shape.Concatenates [S1x128, S1x500] S1x628 1
  bcast_S128_S1x128_1 : S128.BroadcastsInDim S1x128 (![1] : Fin 1 → Fin S1x128.rank)
  bcast_S_S1x128 : S_.BroadcastsInDim S1x128 (![] : Fin 0 → Fin S1x128.rank)
  bcast_S16_S1x16_1 : S16.BroadcastsInDim S1x16 (![1] : Fin 1 → Fin S1x16.rank)
  reducesTo_S1x16_S1_d1 : S1x16.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x16_0_1 : S1x1.BroadcastsInDim S1x16 (![0, 1] : Fin 2 → Fin S1x16.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1x628_S628x128_S1x128_1_0_0_1_n_n_wf : DotDims.WF S1x628 S628x128 S1x128 [1] [0] [0] [1] [] []
  dot_S1x128_S128x16_S1x16_1_0_0_1_n_n_wf : DotDims.WF S1x128 S128x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S100000x2.size a
  hwx0_0 : ∀ i : grid0.Coords, EltTy.bits .f32 = 32 ∨ (Rect.block (s := S100000x2) S4000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1x628_S628x128_S1x128_1_0_0_1_n_n : DotDims S1x628 S628x128 S1x128 where
  lhsContracting := [1]
  rhsContracting := [0]
  lhsNonContracting := [0]
  rhsNonContracting := [1]
  lhsBatch := []
  rhsBatch := []
  wf := dot_S1x628_S628x128_S1x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

abbrev win0_0 : Pipeline.Window sig grid0 :=
  Pipeline.Window.ofSpec (Memref.whole main_arg0) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S4000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43_2) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S1x500 : Shape := ⟨2, ![1, 500]⟩
abbrev S2x128 : Shape := ⟨2, ![2, 128]⟩
abbrev S128 : Shape := ⟨1, ![128]⟩
abbrev S628x128 : Shape := ⟨2, ![628, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x1 : Shape := ⟨2, ![1, 1]⟩
abbrev S1x628 : Shape := ⟨2, ![1, 628]⟩
abbrev S1x16 : Shape := ⟨2, ![1, 16]⟩
abbrev S1 : Shape := ⟨1, ![1]⟩

abbrev nBuf : Space → Nat
  | .hbm => 138
  | .vmem => 0
  | .smem => 0
  | _ => 0

abbrev hbmTy0_0 (i : Nat) : BufTy := match i % 128 with
  | 0 => ⟨S100000x2, .f32⟩
  | 1 => ⟨S2x1600000, .i32⟩
  | 2 => ⟨S1x500, .f32⟩
  | 3 => ⟨S2x128, .f32⟩
  | 4 => ⟨S128, .f32⟩
  | 5 => ⟨S128, .f32⟩
  | 6 => ⟨S128, .f32⟩
  | 7 => ⟨S628x128, .f32⟩
  | 8 => ⟨S128, .f32⟩
  | 9 => ⟨S128x16, .f32⟩
  | 10 => ⟨S16, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .f32⟩
  | 73 => ⟨S_, .f32⟩
  | 74 => ⟨S_, .f32⟩
  | 75 => ⟨S_, .f32⟩
  | 76 => ⟨S100000x128, .f32⟩
  | 77 => ⟨S100000x128, .f32⟩
  | 78 => ⟨S_, .i32⟩
  | 79 => ⟨S_, .f32⟩
  | 80 => ⟨S_, .f32⟩
  | 81 => ⟨S1x1, .f32⟩
  | 82 => ⟨S_, .f32⟩
  | 83 => ⟨S1x1, .f32⟩
  | 84 => ⟨S1x1, .f32⟩
  | 85 => ⟨S100000x128, .f32⟩
  | 86 => ⟨S100000x128, .f32⟩
  | 87 => ⟨S100000x128, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S1x128, .f32⟩
  | 113 => ⟨S1x628, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x16, .f32⟩
  | 121 => ⟨S1x16, .f32⟩
  | 122 => ⟨S1x16, .f32⟩
  | 123 => ⟨S_, .f32⟩
  | 124 => ⟨S1, .f32⟩
  | 125 => ⟨S_, .f32⟩
  | 126 => ⟨S1, .f32⟩
  | 127 => ⟨S1, .f32⟩
  | _ => ⟨S100000x2, .f32⟩

abbrev hbmTy0_1 (i : Nat) : BufTy := match i % 128 with
  | 0 => ⟨S1x1, .f32⟩
  | 1 => ⟨S1x16, .f32⟩
  | 2 => ⟨S1x16, .f32⟩
  | 3 => ⟨S1x16, .f32⟩
  | 4 => ⟨S_, .f32⟩
  | 5 => ⟨S1, .f32⟩
  | 6 => ⟨S1x1, .f32⟩
  | 7 => ⟨S1x1, .f32⟩
  | 8 => ⟨S1x16, .f32⟩
  | 9 => ⟨S1x16, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_cst_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_cst_1 : Ref sig .tc := ⟨.hbm, 89, rfl⟩
abbrev main_call1_v8 : Ref sig .tc := ⟨.hbm, 90, rfl⟩
abbrev main_call1_cst_2 : Ref sig .tc := ⟨.hbm, 91, rfl⟩
abbrev main_call1_v9 : Ref sig .tc := ⟨.hbm, 92, rfl⟩
abbrev main_call1_v10 : Ref sig .tc := ⟨.hbm, 93, rfl⟩
abbrev main_call1_cst_3 : Ref sig .tc := ⟨.hbm, 94, rfl⟩
abbrev main_call1_v11 : Ref sig .tc := ⟨.hbm, 95, rfl⟩
abbrev main_call1_cst_4 : Ref sig .tc := ⟨.hbm, 96, rfl⟩
abbrev main_call1_call0_v0 : Ref sig .tc := ⟨.hbm, 97, rfl⟩
abbrev main_v53 : Ref sig .tc := ⟨.hbm, 98, rfl⟩
abbrev main_v54 : Ref sig .tc := ⟨.hbm, 99, rfl⟩
abbrev main_cst_11 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_12 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_call2_cst : Ref sig .tc := ⟨.hbm, 117, rfl⟩
abbrev main_call2_v0 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_call3_cst : Ref sig .tc := ⟨.hbm, 123, rfl⟩
abbrev main_call3_v0 : Ref sig .tc := ⟨.hbm, 124, rfl⟩
abbrev main_call3_cst_0 : Ref sig .tc := ⟨.hbm, 125, rfl⟩
abbrev main_call3_v1 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_v6 : Ref sig .tc := ⟨.hbm, 131, rfl⟩
abbrev main_call3_cst_1 : Ref sig .tc := ⟨.hbm, 132, rfl⟩
abbrev main_call3_v7 : Ref sig .tc := ⟨.hbm, 133, rfl⟩
abbrev main_call3_v8 : Ref sig .tc := ⟨.hbm, 134, rfl⟩
abbrev main_call3_v9 : Ref sig .tc := ⟨.hbm, 135, rfl⟩
abbrev main_call3_v10 : Ref sig .tc := ⟨.hbm, 136, rfl⟩
abbrev main_v74 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S_d0_1 : S100000x128.ReducesTo [0, 1] S_
  h_S_ : 0 < S_.numel
  bcast_S_S1x1 : S_.BroadcastsInDim S1x1 (![] : Fin 0 → Fin S1x1.rank)
  bcast_S1x1_S100000x128_0_1 : S1x1.BroadcastsInDim S100000x128 (![0, 1] : Fin 2 → Fin S100000x128.rank)
  reducesTo_S100000x128_S128_d0 : S100000x128.ReducesTo [0] S128
  concatenates_S1x128_S1x500_S1x628_d1 : Shape.Concatenates [S1x128, S1x500] S1x628 1
  bcast_S_S1x128 : S_.BroadcastsInDim S1x128 (![] : Fin 0 → Fin S1x128.rank)
  bcast_S16_S1x16_1 : S16.BroadcastsInDim S1x16 (![1] : Fin 1 → Fin S1x16.rank)
  reducesTo_S1x16_S1_d1 : S1x16.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x16_0_1 : S1x1.BroadcastsInDim S1x16 (![0, 1] : Fin 2 → Fin S1x16.rank)
  dot_S100000x2_S2x128_S100000x128_1_0_0_1_n_n_wf : DotDims.WF S100000x2 S2x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1x628_S628x128_S1x128_1_0_0_1_n_n_wf : DotDims.WF S1x628 S628x128 S1x128 [1] [0] [0] [1] [] []
  dot_S1x128_S128x16_S1x16_1_0_0_1_n_n_wf : DotDims.WF S1x128 S128x16 S1x16 [1] [0] [0] [1] [] []

variable [Facts₀]

def dot_S100000x2_S2x128_S100000x128_1_0_0_1_n_n : DotDims S100000x2 S2x128 S100000x128 where
  lhsContracting := [1]
  rhsContracting := [0]
  lhsNonContracting := [0]
  rhsNonContracting := [1]
  lhsBatch := []
  rhsBatch := []
  wf := dot_S100000x2_S2x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1x628_S628x128_S1x128_1_0_0_1_n_n : DotDims S1x628 S628x128 S1x128 where
  lhsContracting := [1]
  rhsContracting := [0]
  lhsNonContracting := [0]
  rhsNonContracting := [1]
  lhsBatch := []
  rhsBatch := []
  wf := dot_S1x628_S628x128_S1x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

class Facts : Prop extends Facts₀ where

variable [Facts]
-- ==== Proof.KTerms.lean ====
/-
  The host operations the program applies around its dense layers, named as functions.

  From the edge list (two rows of node numbers: sources and destinations) the program computes, in this order: the
  two rows as vectors; each node number made non-negative by adding the node count to a negative one; a node's
  degree, the count of edges that end at it plus one for its own loop; the reciprocal square root of the degree; an
  edge's weight, the product of that root at its two ends; and, from an array h of node rows, the sum over the
  edges that end at a node of the source's row times the edge's weight.  After the pooling the program applies a
  small head to the pooled row joined with the state row: a dense layer, the rectifier, a second dense layer, and
  the logarithm of the normalised exponentials.  Each is a definition over arrays at any float instance; nothing
  is proved about them here.
-/
import proofs.«170314_j33887291965745_1_alg».proof.Proof.Gen.KernelIdeal

noncomputable section

namespace Cert.KernelIdeal.Terms

open Cert.KernelIdeal Cert.KernelIdeal.Gen Idealize.ShloMosaic

variable {F : FTy → Type} [FloatOps F]

/-- The edges' source nodes: row 0 of the edge list, as a vector. -/
def srcOf (ei : IVec S2x1600000 32) : IVec S1600000 32 :=
  shapeCast S1600000 (extractStridedSlice S1x1600000 ![0, 0] ei slices_S2x1600000_S1x1600000_0_0) shapeCasts_S1x1600000_S1600000

/-- The edges' destination nodes: row 1 of the edge list, as a vector. -/
def dstOf (ei : IVec S2x1600000 32) : IVec S1600000 32 :=
  shapeCast S1600000 (extractStridedSlice S1x1600000 ![1, 0] ei slices_S2x1600000_S1x1600000_1_0) shapeCasts_S1x1600000_S1600000

/-- A node number below zero counts from the end: the node count is added to it. -/
def fixIdx (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

/-- A vector of node numbers as a one-column index array. -/
def colOf (x : IVec S1600000 32) : IVec S1600000x1 32 :=
  broadcastInDim S1600000x1 ![0] bcast_S1600000_S1600000x1_0 x

/-- The reciprocal square root of each node's degree (the edges ending at it, plus one). -/
def disOf (dst : IVec S1600000 32) : FVec F S100000 .f32 :=
  Host.rsqrt (addf
    (Host.scatterAdd scatter_S100000_S1600000x1_S1600000_n_0_0_1
      (broadcastInDim S100000 ![] bcast_S_S100000 (constant S_ .f32 0x00000000#32))
      (colOf dst)
      (broadcastInDim S1600000 ![] bcast_S_S1600000 (constant S_ .f32 0x3F800000#32)))
    (broadcastInDim S100000 ![] bcast_S_S100000 (constant S_ .f32 0x3F800000#32)))

/-- Each edge's weight: the degree roots at its source and at its destination, multiplied. -/
def normOf (src dst : IVec S1600000 32) : FVec F S1600000 .f32 :=
  mulf (Host.gather gather_S100000_S1600000x1_S1600000_n_0_n_n_0_1_1 (disOf (F := F) dst) (colOf (fixIdx src)))
    (Host.gather gather_S100000_S1600000x1_S1600000_n_0_n_n_0_1_1 (disOf (F := F) dst) (colOf (fixIdx dst)))

/-- The neighbours' sum: at each node, over the edges ending there, the source's row of `h` times the edge's weight. -/
def aggOf (src dst : IVec S1600000 32) (norm : FVec F S1600000 .f32) (h : FVec F S100000x128 .f32) : FVec F S100000x128 .f32 :=
  Host.scatterAdd scatter_S100000x128_S1600000x1_S1600000x128_1_0_0_1
    (broadcastInDim S100000x128 ![] bcast_S_S100000x128 (constant S_ .f32 0x00000000#32))
    (colOf dst)
    (mulf (Host.gather gather_S100000x128_S1600000x1_S1600000x128_1_0_n_n_0_1_1128 h (colOf (fixIdx src)))
      (broadcastInDim S1600000x128 ![0, 1] bcast_S1600000x1_S1600000x128_0_1
        (broadcastInDim S1600000x1 ![0] bcast_S1600000_S1600000x1_0 norm)))

/-- The first dense layer of the head on the pooled row joined with the state row, rectified. -/
def hiddenOf (p : FVec F S1x128 .f32) (esn : FVec F S1x500 .f32) (w1 : FVec F S628x128 .f32) (b1 : FVec F S128 .f32) :
    FVec F S1x128 .f32 :=
  maximumf
    (addf (Host.dotGeneral dot_S1x628_S628x128_S1x128_1_0_0_1_n_n none
        (concatenate S1x628 1 [⟨S1x128, p⟩, ⟨S1x500, esn⟩] concatenates_S1x128_S1x500_S1x628_d1) w1)
      (broadcastInDim S1x128 ![1] bcast_S128_S1x128_1 b1))
    (broadcastInDim S1x128 ![] bcast_S_S1x128 (constant S_ .f32 0x00000000#32))

/-- The second dense layer of the head. -/
def logitsOf (z : FVec F S1x128 .f32) (w2 : FVec F S128x16 .f32) (b2 : FVec F S16 .f32) : FVec F S1x16 .f32 :=
  addf (Host.dotGeneral dot_S1x128_S128x16_S1x16_1_0_0_1_n_n none z w2) (broadcastInDim S1x16 ![1] bcast_S16_S1x16_1 b2)

/-- The logits less their maximum. -/
def shiftedOf (l : FVec F S1x16 .f32) : FVec F S1x16 .f32 :=
  subf l (broadcastInDim S1x16 ![0, 1] bcast_S1x1_S1x16_0_1 (broadcastInDim S1x1 ![0] bcast_S1_S1x1_0
    (maximumf (broadcastInDim S1 ![] bcast_S_S1 (constant S_ .f32 0xFF800000#32))
      (Host.reduce FloatOps.maximumf l (constant S_ .f32 0xFF800000#32) reducesTo_S1x16_S1_d1 h_S_))))

/-- The logarithm of the normalised exponentials of the logits. -/
def logSoftmaxOf (l : FVec F S1x16 .f32) : FVec F S1x16 .f32 :=
  subf (shiftedOf l) (broadcastInDim S1x16 ![0, 1] bcast_S1x1_S1x16_0_1 (Host.log (broadcastInDim S1x1 ![0] bcast_S1_S1x1_0
    (Host.reduceAdd (Host.exp (shiftedOf l)) (constant S_ .f32 0x00000000#32) reducesTo_S1x16_S1_d1 h_S_))))

/-- The head: from the pooled row to the result. -/
def headOf (p : FVec F S1x128 .f32) (esn : FVec F S1x500 .f32) (w1 : FVec F S628x128 .f32) (b1 : FVec F S128 .f32)
    (w2 : FVec F S128x16 .f32) (b2 : FVec F S16 .f32) : FVec F S1x16 .f32 :=
  logSoftmaxOf (logitsOf (hiddenOf p esn w1 b1) w2 b2)

/-- Each node's own-loop weight, the square of its degree root, as a column. -/
def slOf (dst : IVec S1600000 32) : FVec F S100000x1 .f32 :=
  shapeCast S100000x1 (mulf (disOf (F := F) dst) (disOf (F := F) dst)) shapeCasts_S100000_S100000x1

/-- A length-128 vector as a row. -/
def rowOf (v : FVec F S128 .f32) : FVec F S1x128 .f32 := shapeCast S1x128 v shapeCasts_S128_S1x128

/-- The mean: the total over the number of entries. -/
def meanOf (s : FVec F S1x1 .f32) : FVec F S1x1 .f32 :=
  Host.divf s (broadcastInDim S1x1 ![] bcast_S_S1x1 (constant S_ .f32 0x4B435000#32))

/-- The variance as the mean of the squares less the square of the mean. -/
def varOf (s q : FVec F S1x1 .f32) : FVec F S1x1 .f32 :=
  subf (Host.divf q (broadcastInDim S1x1 ![] bcast_S_S1x1 (constant S_ .f32 0x4B435000#32))) (mulf (meanOf s) (meanOf s))

/-- The reciprocal of the deviation plus the small constant. -/
def invOf (s q : FVec F S1x1 .f32) : FVec F S1x1 .f32 :=
  Host.divf (broadcastInDim S1x1 ![] bcast_S_S1x1 (constant S_ .f32 0x3F800000#32))
    (addf (Host.sqrt (varOf s q)) (broadcastInDim S1x1 ![] bcast_S_S1x1 (constant S_ .f32 0x3727C5AC#32)))

end Cert.KernelIdeal.Terms

end
-- ==== Proof.KHostOps.lean ====
import proofs.«170314_j33887291965745_1_alg».proof.Proof.Gen.KernelIdeal.Frame
import proofs.«170314_j33887291965745_1_alg».proof.Proof.KTerms
import Idealize.ShloMosaic.Lib.StableHlo.Run
set_option maxRecDepth 16384

noncomputable section

namespace Cert.KernelIdeal.HostOps

open Cert.KernelIdeal Cert.KernelIdeal.Gen Cert.KernelIdeal.Terms
open Idealize.ShloMosaic Idealize.ShloMosaic.TcCoe Idealize.SL.Sem Idealize.ShloMosaic.StableHlo

variable {F : FTy → Type} [FloatOps F]

/-! ## The last four stretches: the head -/

attribute [local irreducible] Host.reduce Host.reduceAdd in
set_option maxHeartbeats 1000000 in
theorem tail_v66 (V : Valuation τ sig (Elt F)) :
    after hostOps3_3 (after hostOps3_2 (after hostOps3_1 (after hostOps3 V))) (Proc.devRef .tc main_v66)
      = headOf (F := F) (V (Proc.devRef .tc main_v57)) (V (Proc.devRef .tc main_arg2)) (V (Proc.devRef .tc main_arg7))
          (V (Proc.devRef .tc main_arg8)) (V (Proc.devRef .tc main_arg9)) (V (Proc.devRef .tc main_arg10)) := by
  simp only [after_cons, after_nil]
  rfl

/-! ## The third stretch: the mean, the reciprocal deviation, the scale and shift rows -/

theorem h2_v45 (V : Valuation τ sig (Elt F)) :
    after hostOps2 V (Proc.devRef .tc main_v45) = meanOf (F := F) (V (Proc.devRef .tc main_v43_1)) := by
  after_results; rfl

theorem h2_v54 (V : Valuation τ sig (Elt F)) :
    after hostOps2 V (Proc.devRef .tc main_v54) = invOf (F := F) (V (Proc.devRef .tc main_v43_1)) (V (Proc.devRef .tc main_v43_2)) := by
  after_results; rfl

theorem h2_v55 (V : Valuation τ sig (Elt F)) :
    after hostOps2 V (Proc.devRef .tc main_v55) = rowOf (F := F) (V (Proc.devRef .tc main_arg5)) := by
  after_results; rfl

theorem h2_v56 (V : Valuation τ sig (Elt F)) :
    after hostOps2 V (Proc.devRef .tc main_v56) = rowOf (F := F) (V (Proc.devRef .tc main_arg6)) := by
  after_results; rfl

theorem h2_v43_0 (V : Valuation τ sig (Elt F)) :
    after hostOps2 V (Proc.devRef .tc main_v43_0) = V (Proc.devRef .tc main_v43_0) := by
  after_results

/-! ## The second stretch: the neighbours' sum and the bias row -/

set_option maxHeartbeats 2000000 in
theorem h1_v41 (V : Valuation τ sig (Elt F)) :
    after hostOps1 V (Proc.devRef .tc main_v41)
      = aggOf (F := F) (V (Proc.devRef .tc main_v1)) (V (Proc.devRef .tc main_v3)) (V (Proc.devRef .tc main_v27))
          (V (Proc.devRef .tc main_v28)) := by
  after_results_simp; rfl

set_option maxHeartbeats 2000000 in
theorem h1_v42 (V : Valuation τ sig (Elt F)) :
    after hostOps1 V (Proc.devRef .tc main_v42) = rowOf (F := F) (V (Proc.devRef .tc main_arg4)) := by
  after_results_simp; rfl

/-! ## The first stretch: the edge rows, the loop weights, the edge weights -/

set_option maxHeartbeats 4000000 in
theorem h0_v1 (V : Valuation τ sig (Elt F)) :
    after hostOps0 V (Proc.devRef .tc main_v1) = srcOf (V (Proc.devRef .tc main_arg1)) := by
  after_results_simp; rfl

set_option maxHeartbeats 4000000 in
theorem h0_v3 (V : Valuation τ sig (Elt F)) :
    after hostOps0 V (Proc.devRef .tc main_v3) = dstOf (V (Proc.devRef .tc main_arg1)) := by
  after_results_simp; rfl

set_option maxHeartbeats 4000000 in
theorem h0_v12 (V : Valuation τ sig (Elt F)) :
    after hostOps0 V (Proc.devRef .tc main_v12) = slOf (F := F) (dstOf (V (Proc.devRef .tc main_arg1))) := by
  after_results_simp; rfl

set_option maxHeartbeats 4000000 in
theorem h0_v27 (V : Valuation τ sig (Elt F)) :
    after hostOps0 V (Proc.devRef .tc main_v27)
      = normOf (F := F) (srcOf (V (Proc.devRef .tc main_arg1))) (dstOf (V (Proc.devRef .tc main_arg1))) := by
  after_results_simp; rfl

end Cert.KernelIdeal.HostOps

end
-- ==== Proof.Spec.lean ====
/-
  The layer this certificate is about, written out entry by entry over the extended reals.

  A graph of N = 100000 nodes with two input channels and H = 128 hidden channels.  Four arrays are built from the
  inputs, each given here as a function of a row r and a channel j:

    • the linear layer            h[r, j]  = f[r, 0] · w[0, j] + f[r, 1] · w[1, j];
    • the combined, rectified row x[r, j]  = max (a[r, j] + h[r, j] · s[r] + b[j]) 0,
      where a is the sum of the neighbours' messages and s the weight of the node's own loop;
    • two totals over every entry of x: Σ x and Σ x²;
    • the pooled, normalised row  p[j]     = Σ_r ((x[r, j] − μ) · ι · g[j] + β[j]),
      μ the mean of x, ι the reciprocal of its deviation plus a small constant, g and β the scale and shift rows.

  Nothing finite is assumed here: these are definitions, over arrays of extended reals.
-/
import Idealize.ShloMosaic.PureOps.Ideal
import Idealize.ShloMosaic.Lib.ValueIdx

noncomputable section

namespace Cert.Spec

open Idealize.ShloMosaic Idealize.ShloMosaic.ValueIdx
open scoped BigOperators

/-- The node features: 100000 rows of 2 channels. -/
abbrev SNx2 : Shape := ⟨2, ![100000, 2]⟩
/-- The weights of the linear layer: 2 rows of 128 channels. -/
abbrev S2xH : Shape := ⟨2, ![2, 128]⟩
/-- A node array: 100000 rows of 128 channels. -/
abbrev SNxH : Shape := ⟨2, ![100000, 128]⟩
/-- One number per node, as a column. -/
abbrev SNx1 : Shape := ⟨2, ![100000, 1]⟩
/-- One number per channel, as a row. -/
abbrev S1xH : Shape := ⟨2, ![1, 128]⟩
/-- One number, as a 1 × 1 array. -/
abbrev S1x1 : Shape := ⟨2, ![1, 1]⟩

/-- The linear layer at row `r`, channel `j`: the two input channels times their weight rows, added. -/
def linAt (f : SNx2.Idx → EReal) (w : S2xH.Idx → EReal) (r : Fin 100000) (j : Fin 128) : EReal :=
  f (ix2 r (0 : Fin 2)) * w (ix2 (0 : Fin 2) j) + f (ix2 r (1 : Fin 2)) * w (ix2 (1 : Fin 2) j)

/-- The linear layer as an array. -/
def lin (f : SNx2.Idx → EReal) (w : S2xH.Idx → EReal) : SNxH.Idx → EReal :=
  fun i => linAt f w (i 0) (i 1)

/-- The combined row before the rectifier's floor `z` is applied, at row `r`, channel `j`:
    neighbours' sum plus the node's own row times its loop weight plus the bias. -/
def combAt (a h : SNxH.Idx → EReal) (s : SNx1.Idx → EReal) (b : S1xH.Idx → EReal) (z : EReal)
    (r : Fin 100000) (j : Fin 128) : EReal :=
  max (a (ix2 r j) + h (ix2 r j) * s (ix2 r (0 : Fin 1)) + b (ix2 (0 : Fin 1) j)) z

/-- The combined, rectified array (`z` is the floor of the rectifier: zero). -/
def comb (a h : SNxH.Idx → EReal) (s : SNx1.Idx → EReal) (b : S1xH.Idx → EReal) (z : EReal) : SNxH.Idx → EReal :=
  fun i => combAt a h s b z (i 0) (i 1)

/-- The sum of every entry of a node array. -/
def total (x : SNxH.Idx → EReal) : EReal := ∑ r : Fin 100000, ∑ j : Fin 128, x (ix2 r j)

/-- The sum of every entry's square. -/
def totalSq (x : SNxH.Idx → EReal) : EReal := ∑ r : Fin 100000, ∑ j : Fin 128, x (ix2 r j) * x (ix2 r j)

/-- One normalised, scaled and shifted entry: `(x − μ) · ι · g + β`. -/
def normAt (x : SNxH.Idx → EReal) (μ ι : EReal) (g β : S1xH.Idx → EReal) (r : Fin 100000) (j : Fin 128) : EReal :=
  (x (ix2 r j) - μ) * ι * g (ix2 (0 : Fin 1) j) + β (ix2 (0 : Fin 1) j)

/-- The pooled row at channel `j`: the normalised entries of column `j` summed over the nodes. -/
def poolAt (x : SNxH.Idx → EReal) (μ ι : EReal) (g β : S1xH.Idx → EReal) (j : Fin 128) : EReal :=
  ∑ r : Fin 100000, normAt x μ ι g β r j

/-- The pooled row as a 1 × 128 array. -/
def pool (x : SNxH.Idx → EReal) (μ ι : EReal) (g β : S1xH.Idx → EReal) : S1xH.Idx → EReal :=
  fun i => poolAt x μ ι g β (i 1)

end Cert.Spec

end
-- ==== Proof.KReg0.lean ====
import proofs.«170314_j33887291965745_1_alg».proof.Proof.Gen.KernelIdeal.Frame
import proofs.«170314_j33887291965745_1_alg».proof.Proof.Spec
import Idealize.ShloMosaic.Lib.Pipeline.Value
import Idealize.ShloMosaic.Lib.ValueIdx
import Idealize.ShloMosaic.Lib.ValueLayout
import Idealize.ShloMosaic.PureOps.Ideal.Laws

/-
  The first region: the linear layer, 4000 rows at a time.

  The grid has 25 points. Point t reads rows 4000·t … 4000·t + 3999 of the node features (two channels), the whole
  2 × 128 weight array, and writes rows 4000·t … 4000·t + 3999 of the output. Inside a block, entry (p, q) of what is
  written is

      f[p, 0] · w[0, q] + f[p, 1] · w[1, q],

  the two feature columns each spread along the 128 channels, the two weight rows each spread along the 4000 rows,
  multiplied entry by entry and added. No law of arithmetic is used: the entry is the specification's term as it
  stands, once each block entry is read at the row of the array it came from. Row r of the output is written by
  point r / 4000, so the 25 blocks cover the array and the array ends holding the linear layer everywhere.
-/

set_option maxRecDepth 16384

noncomputable section

namespace Cert.KernelIdeal.Reg0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body reads and writes each staging buffer whole: every access starts at offset zero on both axes. -/
theorem zero_offsets : (![0, 0] : Fin 2 → Nat) = fun _ => 0 := funext fun a => by fin_cases a <;> rfl

/-- Column `k` of a 4000 × 2 block, spread along the 128 channels: entry (p, q) is the block's entry (p, k).
    The column slice at (p, 0) is the block at (p, k); the spread forgets q. -/
theorem column_spread (x0 : Vec Ideal S4000x2 .f32) (k : Fin 2) (p : Fin 4000) (q : Fin 128)
    (hs : S4000x2.Slices ![0, k.val] S4000x1) (hb : S4000x1.Broadcasts S4000x128) :
    broadcastTo S4000x128 (extractStridedSlice S4000x1 ![0, k.val] x0 hs) hb (ix2 p q) = x0 (ix2 p k) := by
  refine (broadcastTo_apply _ hb (ix2 p q) (ix2 p (0 : Fin 1)) fun a => ?_).trans
    (extractStridedSlice_apply _ x0 hs (ix2 p (0 : Fin 1)) (ix2 p k) fun a => ?_)
  · match a with
    | ⟨0, _⟩ => rfl
    | ⟨1, _⟩ => rfl
  · match a with
    | ⟨0, _⟩ => exact (Nat.zero_add _).symm
    | ⟨1, _⟩ => exact (Nat.add_zero _).symm

/-- Row `k` of the 2 × 128 weights, spread along the 4000 rows: entry (p, q) is the weights' entry (k, q).
    The row slice at (0, q) is the weights at (k, q); the spread forgets p. -/
theorem weight_row_spread (x1 : Vec Ideal S2x128 .f32) (k : Fin 2) (p : Fin 4000) (q : Fin 128)
    (hs : S2x128.Slices ![k.val, 0] S1x128) (hb : S1x128.Broadcasts S4000x128) :
    broadcastTo S4000x128 (extractStridedSlice S1x128 ![k.val, 0] x1 hs) hb (ix2 p q) = x1 (ix2 k q) := by
  refine (broadcastTo_apply _ hb (ix2 p q) (ix2 (0 : Fin 1) q) fun a => ?_).trans
    (extractStridedSlice_apply _ x1 hs (ix2 (0 : Fin 1) q) (ix2 k q) fun a => ?_)
  · match a with
    | ⟨0, _⟩ => rfl
    | ⟨1, _⟩ => rfl
  · match a with
    | ⟨0, _⟩ => exact (Nat.add_zero _).symm
    | ⟨1, _⟩ => exact (Nat.zero_add _).symm

/-- What the body stores, at entry (p, q) of the block: the two products added,
    `x0[p, 0] · x1[0, q] + x0[p, 1] · x1[1, q]`. Products and the sum are taken entry by entry, so the entry of the
    whole term is the term of the entries. -/
theorem stored_entry (x0 : Vec Ideal S4000x2 .f32) (x1 : Vec Ideal S2x128 .f32) (p : Fin 4000) (q : Fin 128) :
    k0_pay1 x0 x1 (ix2 p q) = x0 (ix2 p 0) * x1 (ix2 0 q) + x0 (ix2 p 1) * x1 (ix2 1 q) := by
  unfold k0_pay1
  exact congrArg₂ (· + ·)
    (congrArg₂ (· * ·) (column_spread x0 0 p q _ _) (weight_row_spread x1 0 p q _ _))
    (congrArg₂ (· * ·) (column_spread x0 1 p q _ _) (weight_row_spread x1 1 p q _ _))

/-- If row `p` of the feature block is row `r` of an array `f`, and column `q` of the weight block is column `j` of an
    array `w`, then what the body stores at (p, q) is the linear layer of `f` and `w` at (r, j). -/
theorem stored_entry_is_lin (x0 : Vec Ideal S4000x2 .f32) (x1 : Vec Ideal S2x128 .f32)
    (f : Cert.Spec.SNx2.Idx → EReal) (w : Cert.Spec.S2xH.Idx → EReal)
    (p : Fin 4000) (q : Fin 128) (r : Fin 100000) (j : Fin 128)
    (h0 : ∀ k : Fin 2, x0 (ix2 p k) = f (ix2 r k)) (h1 : ∀ k : Fin 2, x1 (ix2 k q) = w (ix2 k j)) :
    k0_pay1 x0 x1 (ix2 p q) = Cert.Spec.linAt f w r j := by
  rw [stored_entry, h0 0, h0 1, h1 0, h1 1]
  rfl

/-- Where the blocks sit, decided once over the 25 points: at point `t` the feature block and the output block are
    row block `t` (column block 0), and the weight block is always block (0, 0), the whole array. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the linear layer of the two arrays the region was entered with.
    Entry (p, q) of the block sits at row 4000·t + p, column q of the output; the feature block's row p is row
    4000·t + p of the features (same row block, coordinate = block index × block size + coordinate inside), and the
    weight block is the weights themselves (block index 0 on both axes). -/
theorem written_block (c : Dev nD) (t : Fin cfg0.N) :
    (dat0 (F := Ideal) V c).flushed 2 t
      = ((cfg0.win 2).blk t).view.read (Elt Ideal) (Cert.Spec.lin (V c main_arg0) (V c main_arg3)) := by
  show (cfg0.win 2).cut (grid0.coords t) ((dat0 (F := Ideal) V c).after 2 t) = _
  rw [after0_2]
  unfold out0_2
  rw [View.canon_unit_zero zero_offsets]
  simp only [View.ld_unit_zero (S := S4000x2) zero_offsets, View.ld_unit_zero (S := S2x128) zero_offsets]
  funext j
  have hp : (j 0).val < 4000 := (j 0).isLt
  have hq : (j 1).val < 128 := (j 1).isLt
  obtain ⟨e00, e01, e10, e11, e20, e21⟩ := block_indices t
  -- the entry's two coordinates inside the block
  have hy : (cfg0.win 2).xinj (grid0.coords t) j = ix2 (⟨(j 0).val, hp⟩ : Fin 4000) (⟨(j 1).val, hq⟩ : Fin 128) := by
    funext a
    match a with
    | ⟨0, _⟩ => rfl
    | ⟨1, _⟩ => rfl
  show k0_pay1 (iblk0 V c 0 t) (iblk0 V c 1 t) ((cfg0.win 2).xinj (grid0.coords t) j) = _
  rw [hy]
  refine stored_entry_is_lin (iblk0 V c 0 t) (iblk0 V c 1 t) (V c main_arg0) (V c main_arg3) ⟨(j 0).val, hp⟩ ⟨(j 1).val, hq⟩
    (((cfg0.win 2).blk t).view.emb j 0) (((cfg0.win 2).blk t).view.emb j 1) (fun k => ?_) (fun k => ?_)
  · -- the feature block's row is the output entry's row of the feature array
    show V c main_arg0 (((cfg0.win 0).blk t).view.emb (ix2 (⟨(j 0).val, hp⟩ : Fin 4000) k)) = _
    refine congrArg (V c main_arg0) (funext fun a => Fin.ext ?_)
    match a with
    | ⟨0, _⟩ =>
      show win0_0.index t (0 : Fin 2) * 4000 + 1 * (j 0).val = win0_2.index t (0 : Fin 2) * 4000 + 1 * (j 0).val
      omega
    | ⟨1, _⟩ =>
      show win0_0.index t (1 : Fin 2) * 2 + 1 * k.val = k.val
      omega
  · -- the weight block's column is the output entry's column of the weight array
    show V c main_arg3 (((cfg0.win 1).blk t).view.emb (ix2 k (⟨(j 1).val, hq⟩ : Fin 128))) = _
    refine congrArg (V c main_arg3) (funext fun a => Fin.ext ?_)
    match a with
    | ⟨0, _⟩ =>
      show win0_1.index t (0 : Fin 2) * 2 + 1 * k.val = k.val
      omega
    | ⟨1, _⟩ =>
      show win0_1.index t (1 : Fin 2) * 128 + 1 * (j 1).val = win0_2.index t (1 : Fin 2) * 128 + 1 * (j 1).val
      omega

/-- An entry of the output array lies in point `t`'s block exactly when, on each axis, its coordinate is in the
    block's range: from block index × block size, for block size many. -/
theorem mem_row_block (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v28).slice (win0_2.rect t)).set ↔ _
  rw [View.set_slice_whole, Rect.mem_set_unit]
  exact Iff.rfl

/-- Every entry of the output array is written: row `r` lies in the block of point `r / 4000`, which is below 25
    because `r` is below 100000, and every point writes its block back. -/
theorem rows_covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 25 := N_0
  have ht : (i 0).val / 4000 < cfg0.N := by
    show (i 0).val / 4000 < grid0.N
    rw [hN]; omega
  obtain ⟨-, -, -, -, e20, e21⟩ := block_indices ⟨(i 0).val / 4000, ht⟩
  have e20' : win0_2.index ⟨(i 0).val / 4000, ht⟩ (0 : Fin 2) = (i 0).val / 4000 := e20
  refine ⟨⟨(i 0).val / 4000, ht⟩, flush0_2 _, ?_⟩
  rw [mem_row_block]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    omega
  | ⟨1, _⟩ =>
    show win0_2.index ⟨(i 0).val / 4000, ht⟩ (1 : Fin 2) * 128 ≤ (i 1).val
      ∧ (i 1).val < win0_2.index ⟨(i 0).val / 4000, ht⟩ (1 : Fin 2) * 128 + 128
    omega

/-- After the first region the output array holds the linear layer of the two arrays the region was entered with. -/
theorem value (c : Dev nD) :
    (dat0 (F := Ideal) V c).arrAt 2 cfg0.N = Cert.Spec.lin (V c main_arg0) (V c main_arg3) := by
  exact (dat0 (F := Ideal) V c).arrAt_eq_of_cover 2 (Cert.Spec.lin (V c main_arg0) (V c main_arg3))
    (fun t _ => written_block V c t) rows_covered

end Cert.KernelIdeal.Reg0

end
-- ==== Proof.LibBlockSum.lean ====
/-
  A sum over n · b rows, taken block by block.

  Let `N = n · b` and let `f` assign to each of the rows `0, …, N − 1` an element of a commutative additive monoid
  (the extended reals are one; nothing finite is asked of the values).  Cut the rows into `n` consecutive blocks of
  `b`: block `t` holds the rows `b·t, …, b·t + b − 1`.  Then

    • the sum over all rows is the sum over the blocks of each block's sum;
    • the partial sums `P m = Σ_{k < m} f k` satisfy `P 0 = 0`, `P (b·(t+1)) = P (b·t) + (block t's sum)` and
      `P (b·n) = Σ_k f k`;
    • so a running total that starts at zero and adds one block's sum at each of the steps `t = 0, …, n − 1` holds
      `P (b·t)` before step `t` and the whole sum after the last step.

  Everything is stated over `Fin N` with the equation `n · b = N` as a hypothesis, so that the rows may be counted by a
  literal (`N = 50000` with `n = 25`, `b = 2000`) without a change of index type.
-/
import Mathlib.Algebra.BigOperators.Fin
import Mathlib.Algebra.BigOperators.Group.Finset.Basic
import Mathlib.Data.Fintype.Basic
import Mathlib.Data.EReal.Basic
import Mathlib.Tactic.Ring
import Mathlib.Tactic.NormNum

namespace Cert.LibBlockSum

open scoped BigOperators

variable {M : Type*} [AddCommMonoid M] {N : ℕ}

/-! ## Partial sums over the rows below a bound -/

/-- The sum of `f` over the rows whose number is below `m`. -/
def partialSum (f : Fin N → M) (m : ℕ) : M :=
  ∑ k ∈ Finset.univ.filter (fun k : Fin N => k.val < m), f k

/-- No row lies below `0`: the empty partial sum is zero. -/
theorem partialSum_zero (f : Fin N → M) : partialSum f 0 = 0 := by
  unfold partialSum
  rw [Finset.filter_false_of_mem (fun k _ => Nat.not_lt_zero k.val), Finset.sum_empty]

/-- Raising the bound from `m` to `m + 1` adds row `m`. -/
theorem partialSum_succ (f : Fin N → M) {m : ℕ} (h : m < N) :
    partialSum f (m + 1) = partialSum f m + f ⟨m, h⟩ := by
  unfold partialSum
  have hins : Finset.univ.filter (fun k : Fin N => k.val < m + 1)
      = insert (⟨m, h⟩ : Fin N) (Finset.univ.filter (fun k : Fin N => k.val < m)) := by
    ext k
    simp only [Finset.mem_filter, Finset.mem_univ, true_and, Finset.mem_insert, Fin.ext_iff]
    omega
  have hnot : (⟨m, h⟩ : Fin N) ∉ Finset.univ.filter (fun k : Fin N => k.val < m) := by
    simp only [Finset.mem_filter, Finset.mem_univ, true_and]
    omega
  rw [hins, Finset.sum_insert hnot, add_comm]

/-- Raising the bound from `m` to `m + b` adds the `b` rows `m, …, m + b − 1`. -/
theorem partialSum_add (f : Fin N → M) (m b : ℕ) (h : m + b ≤ N) :
    partialSum f (m + b) = partialSum f m + ∑ r : Fin b, f ⟨m + r.val, lt_of_lt_of_le (by omega) h⟩ := by
  induction b with
  | zero => simp
  | succ b ih =>
    have hb : m + b ≤ N := by omega
    have hlt : m + b < N := by omega
    show partialSum f (m + b + 1) = _
    rw [partialSum_succ f hlt, ih hb, Fin.sum_univ_castSucc, add_assoc]
    rfl

/-- Once the bound has passed the last row, the partial sum is the whole sum. -/
theorem partialSum_of_le (f : Fin N → M) {m : ℕ} (h : N ≤ m) : partialSum f m = ∑ k, f k := by
  unfold partialSum
  rw [Finset.filter_true_of_mem (fun k _ => lt_of_lt_of_le k.isLt h)]

/-- The partial sum below `N` is the whole sum. -/
theorem partialSum_self (f : Fin N → M) : partialSum f N = ∑ k, f k := partialSum_of_le f le_rfl

/-! ## Blocks -/

variable {n b : ℕ}

/-- Row `r` of block `t` is a row: `b·t + r < b·(t+1) ≤ b·n = N`. -/
theorem block_lt (hN : n * b = N) {t r : ℕ} (ht : t < n) (hr : r < b) : b * t + r < N := by
  calc b * t + r < b * t + b := by omega
    _ = b * (t + 1) := by ring
    _ ≤ b * n := Nat.mul_le_mul_left b ht
    _ = N := by rw [Nat.mul_comm, hN]

/-- The first `t` blocks are rows: `b·t ≤ N` for `t ≤ n`. -/
theorem blocks_le (hN : n * b = N) {t : ℕ} (ht : t ≤ n) : b * t ≤ N := by
  calc b * t ≤ b * n := Nat.mul_le_mul_left b ht
    _ = N := by rw [Nat.mul_comm, hN]

/-- The sum of `f` over block `t`: the rows `b·t, …, b·t + b − 1`. -/
def blockSum (hN : n * b = N) (f : Fin N → M) (t : Fin n) : M :=
  ∑ r : Fin b, f ⟨b * t.val + r.val, block_lt hN t.isLt r.isLt⟩

/-- `blockSum` written out. -/
theorem blockSum_eq (hN : n * b = N) (f : Fin N → M) (t : Fin n) :
    blockSum hN f t = ∑ r : Fin b, f ⟨b * t.val + r.val, block_lt hN t.isLt r.isLt⟩ := rfl

/-- Passing from the first `t` blocks to the first `t + 1` adds block `t`'s sum. -/
theorem partialSum_block_succ (hN : n * b = N) (f : Fin N → M) (t : Fin n) :
    partialSum f (b * (t.val + 1)) = partialSum f (b * t.val) + blockSum hN f t := by
  have h : b * t.val + b ≤ N := by
    have := blocks_le hN (t := t.val + 1) t.isLt
    rwa [Nat.mul_succ] at this
  rw [show b * (t.val + 1) = b * t.val + b from Nat.mul_succ b t.val, partialSum_add f (b * t.val) b h]
  rfl

/-- The partial sum below the first `t` blocks is the sum of those blocks' sums. -/
theorem partialSum_blocks (hN : n * b = N) (f : Fin N → M) {t : ℕ} (ht : t ≤ n) :
    partialSum f (b * t) = ∑ s : Fin t, blockSum hN f ⟨s.val, lt_of_lt_of_le s.isLt ht⟩ := by
  induction t with
  | zero => rw [Nat.mul_zero, partialSum_zero, Fin.sum_univ_zero]
  | succ t ih =>
    have htn : t < n := ht
    rw [partialSum_block_succ hN f ⟨t, htn⟩, ih (Nat.le_of_lt htn), Fin.sum_univ_castSucc]
    rfl

/-- **The sum over all rows is the sum over the blocks of each block's sum.** -/
theorem sum_blocks (hN : n * b = N) (f : Fin N → M) : ∑ k, f k = ∑ t : Fin n, blockSum hN f t := by
  rw [← partialSum_of_le f (le_of_eq (by rw [Nat.mul_comm, hN] : N = b * n)), partialSum_blocks hN f le_rfl]

/-- The same with each block's sum written out:
    `Σ_k f k = Σ_{t < n} Σ_{r < b} f (b·t + r)`. -/
theorem sum_blocks' (hN : n * b = N) (f : Fin N → M) :
    ∑ k, f k = ∑ t : Fin n, ∑ r : Fin b, f ⟨b * t.val + r.val, block_lt hN t.isLt r.isLt⟩ :=
  sum_blocks hN f

/-! ## The running total, step by step -/

/-- The running total after `t` steps: zero at the start, and step `t` adds block `t`'s sum (a step past the last block
    adds nothing). -/
def blockAcc (hN : n * b = N) (f : Fin N → M) : ℕ → M
  | 0 => 0
  | t + 1 => blockAcc hN f t + (if h : t < n then blockSum hN f ⟨t, h⟩ else 0)

/-- Before the first step the running total is zero. -/
@[simp] theorem blockAcc_zero (hN : n * b = N) (f : Fin N → M) : blockAcc hN f 0 = 0 := rfl

/-- Step `t` adds block `t`'s sum. -/
theorem blockAcc_succ (hN : n * b = N) (f : Fin N → M) {t : ℕ} (h : t < n) :
    blockAcc hN f (t + 1) = blockAcc hN f t + blockSum hN f ⟨t, h⟩ := by
  show blockAcc hN f t + (if h : t < n then blockSum hN f ⟨t, h⟩ else 0) = _
  rw [dif_pos h]

/-- Step `t`, with the block's sum written out. -/
theorem blockAcc_succ' (hN : n * b = N) (f : Fin N → M) {t : ℕ} (h : t < n) :
    blockAcc hN f (t + 1)
      = blockAcc hN f t + ∑ r : Fin b, f ⟨b * t + r.val, block_lt hN h r.isLt⟩ :=
  blockAcc_succ hN f h

/-- After `t ≤ n` steps the running total is the partial sum over the rows below `b·t`. -/
theorem blockAcc_eq_partialSum (hN : n * b = N) (f : Fin N → M) {t : ℕ} (ht : t ≤ n) :
    blockAcc hN f t = partialSum f (b * t) := by
  induction t with
  | zero => rw [Nat.mul_zero, partialSum_zero, blockAcc_zero]
  | succ t ih =>
    have htn : t < n := ht
    rw [blockAcc_succ hN f htn, ih (Nat.le_of_lt htn), partialSum_block_succ hN f ⟨t, htn⟩]

/-- After `t ≤ n` steps the running total is the sum over the rows `k` with `k < b·t`, as a filtered sum. -/
theorem blockAcc_eq_filter (hN : n * b = N) (f : Fin N → M) {t : ℕ} (ht : t ≤ n) :
    blockAcc hN f t = ∑ k ∈ Finset.univ.filter (fun k : Fin N => k.val < b * t), f k :=
  blockAcc_eq_partialSum hN f ht

/-- **After the last step the running total is the sum over all rows.** -/
theorem blockAcc_last (hN : n * b = N) (f : Fin N → M) : blockAcc hN f n = ∑ k, f k := by
  rw [blockAcc_eq_partialSum hN f le_rfl]
  exact partialSum_of_le f (le_of_eq (by rw [Nat.mul_comm, hN]))

/-! ## 50000 rows in 25 blocks of 2000 -/

/-- `25 · 2000 = 50000`. -/
theorem rows_50000 : 25 * 2000 = 50000 := by norm_num

/-- Row `r` of block `t` among 50000 rows in 25 blocks of 2000. -/
theorem block_lt_50000 {t r : ℕ} (ht : t < 25) (hr : r < 2000) : 2000 * t + r < 50000 := by omega

/-- The sum over 50000 rows is the sum over the 25 blocks of the sums over each block's 2000 rows. -/
theorem sum_blocks_50000 (f : Fin 50000 → M) :
    ∑ k, f k = ∑ t : Fin 25, ∑ r : Fin 2000, f ⟨2000 * t.val + r.val, block_lt_50000 t.isLt r.isLt⟩ :=
  sum_blocks' rows_50000 f

/-- The running total over 50000 rows in 25 blocks of 2000. -/
def acc50000 (f : Fin 50000 → M) (t : ℕ) : M := blockAcc rows_50000 f t

/-- It starts at zero. -/
@[simp] theorem acc50000_zero (f : Fin 50000 → M) : acc50000 f 0 = 0 := rfl

/-- Step `t < 25` adds the sum over the rows `2000·t, …, 2000·t + 1999`. -/
theorem acc50000_succ (f : Fin 50000 → M) {t : ℕ} (h : t < 25) :
    acc50000 f (t + 1) = acc50000 f t + ∑ r : Fin 2000, f ⟨2000 * t + r.val, block_lt_50000 h r.isLt⟩ :=
  blockAcc_succ' rows_50000 f h

/-- After `t ≤ 25` steps it is the sum over the rows below `2000·t`. -/
theorem acc50000_eq_filter (f : Fin 50000 → M) {t : ℕ} (ht : t ≤ 25) :
    acc50000 f t = ∑ k ∈ Finset.univ.filter (fun k : Fin 50000 => k.val < 2000 * t), f k :=
  blockAcc_eq_filter rows_50000 f ht

/-- After the 25th step it is the sum over all 50000 rows. -/
theorem acc50000_last (f : Fin 50000 → M) : acc50000 f 25 = ∑ k, f k :=
  blockAcc_last rows_50000 f

/-- The extended reals are such a monoid: the statements above hold of sums of extended reals as they stand. -/
example (f : Fin 50000 → EReal) : acc50000 f 25 = ∑ k, f k := acc50000_last f

end Cert.LibBlockSum
-- ==== Proof.KReg1.lean ====
import proofs.«170314_j33887291965745_1_alg».proof.Proof.Gen.KernelIdeal.Frame
import proofs.«170314_j33887291965745_1_alg».proof.Proof.Spec
import proofs.«170314_j33887291965745_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.ShloMosaic.ValueIdx Idealize.SL.Sem
open Idealize.ShloMosaic.Pipeline (Dat Cfg Window)

variable {F : FTy → Type} [FloatOps F]

/-- Both offsets of a whole-buffer access are zero. -/
theorem hz : (![0, 0] : Fin 2 → Nat) = fun _ => 0 := funext fun a => by fin_cases a <;> rfl

/-! ## What one grid point leaves in each output's buffer

At the first point the two running totals are set to zero, read back, and the block's sums added; at every later
point they are read as the point before left them. The rectified block itself is stored once, whole. -/

/-- First point, the rectified block: the one whole store of the combined block of the four input blocks. -/
theorem piece_A_4 (c : Dev nD) (i : grid1.Coords) (a1 : Memref sig .tc .vmem S4000x128 .f32) (h1 : a1.IsWhole) (a2 : Memref sig .tc .vmem S4000x128 .f32) (h2 : a2.IsWhole) (a3 : Memref sig .tc .vmem S4000x1 .f32) (h3 : a3.IsWhole) (a4 : Memref sig .tc .vmem S1x128 .f32) (h4 : a4.IsWhole) (a5 : Memref sig .tc .vmem S4000x128 .f32) (h5 : a5.IsWhole) (a6 : Memref sig .tc .vmem S1x1 .f32) (h6 : a6.IsWhole) (a7 : Memref sig .tc .vmem S1x1 .f32) (h7 : a7.IsWhole) (hc : cond1_0 i) (x0 x1 : Vec F S4000x128 .f32) (x2 : Vec F S4000x1 .f32) (x3 : Vec F S1x128 .f32) :
    out1_A_4 c i a1 h1 a2 h2 a3 h3 a4 h4 a5 h5 a6 h6 a7 h7 hc x0 x1 x2 x3 = k1_pay4 x0 x1 x2 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  sl_unfold_words
  rw [View.canon_unit_zero hz]
  simp only [View.readAt_eq_ld, h1.read_unread, h2.read_unread, h3.read_unread, h4.read_unread, View.ld_unit_zero (S := S4000x128) hz, View.ld_unit_zero (S := S4000x1) hz, View.ld_unit_zero (S := S1x128) hz]

/-- First point, the running sum: zero stored, read back, and the block's sum added to it. -/
theorem piece_A_5 (c : Dev nD) (i : grid1.Coords) (a1 : Memref sig .tc .vmem S4000x128 .f32) (h1 : a1.IsWhole) (a2 : Memref sig .tc .vmem S4000x128 .f32) (h2 : a2.IsWhole) (a3 : Memref sig .tc .vmem S4000x1 .f32) (h3 : a3.IsWhole) (a4 : Memref sig .tc .vmem S1x128 .f32) (h4 : a4.IsWhole) (a5 : Memref sig .tc .vmem S4000x128 .f32) (h5 : a5.IsWhole) (a6 : Memref sig .tc .vmem S1x1 .f32) (h6 : a6.IsWhole) (a7 : Memref sig .tc .vmem S1x1 .f32) (h7 : a7.IsWhole) (hc : cond1_0 i) (x0 x1 : Vec F S4000x128 .f32) (x2 : Vec F S4000x1 .f32) (x3 : Vec F S1x128 .f32) :
    out1_A_5 c i a1 h1 a2 h2 a3 h3 a4 h4 a5 h5 a6 h6 a7 h7 hc x0 x1 x2 x3 = k1_pay6 x0 x1 x2 x3 (k1_pay2 (F := F)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x1) hz]
  simp only [View.readAt_eq_ld, h1.read_unread, h2.read_unread, h3.read_unread, h4.read_unread, View.ld_unit_zero (S := S4000x128) hz, View.ld_unit_zero (S := S4000x1) hz, View.ld_unit_zero (S := S1x128) hz, View.readCov_unit_zero (S := S1x1) _ hz]

/-- First point, the running sum of squares: zero stored, read back, and the block's sum of squares added to it. -/
theorem piece_A_6 (c : Dev nD) (i : grid1.Coords) (a1 : Memref sig .tc .vmem S4000x128 .f32) (h1 : a1.IsWhole) (a2 : Memref sig .tc .vmem S4000x128 .f32) (h2 : a2.IsWhole) (a3 : Memref sig .tc .vmem S4000x1 .f32) (h3 : a3.IsWhole) (a4 : Memref sig .tc .vmem S1x128 .f32) (h4 : a4.IsWhole) (a5 : Memref sig .tc .vmem S4000x128 .f32) (h5 : a5.IsWhole) (a6 : Memref sig .tc .vmem S1x1 .f32) (h6 : a6.IsWhole) (a7 : Memref sig .tc .vmem S1x1 .f32) (h7 : a7.IsWhole) (hc : cond1_0 i) (x0 x1 : Vec F S4000x128 .f32) (x2 : Vec F S4000x1 .f32) (x3 : Vec F S1x128 .f32) :
    out1_A_6 c i a1 h1 a2 h2 a3 h3 a4 h4 a5 h5 a6 h6 a7 h7 hc x0 x1 x2 x3 = k1_pay1 (k1_pay5 x0 x1 x2 x3) (k1_pay3 (F := F)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x1) hz]
  simp only [View.readAt_eq_ld, h1.read_unread, h2.read_unread, h3.read_unread, h4.read_unread, View.ld_unit_zero (S := S4000x128) hz, View.ld_unit_zero (S := S4000x1) hz, View.ld_unit_zero (S := S1x128) hz, View.readCov_unit_zero (S := S1x1) _ hz]

/-- A later point, the rectified block: the same one whole store. -/
theorem piece_B_4 (c : Dev nD) (i : grid1.Coords) (a1 : Memref sig .tc .vmem S4000x128 .f32) (h1 : a1.IsWhole) (a2 : Memref sig .tc .vmem S4000x128 .f32) (h2 : a2.IsWhole) (a3 : Memref sig .tc .vmem S4000x1 .f32) (h3 : a3.IsWhole) (a4 : Memref sig .tc .vmem S1x128 .f32) (h4 : a4.IsWhole) (a5 : Memref sig .tc .vmem S4000x128 .f32) (h5 : a5.IsWhole) (a6 : Memref sig .tc .vmem S1x1 .f32) (h6 : a6.IsWhole) (a7 : Memref sig .tc .vmem S1x1 .f32) (h7 : a7.IsWhole) (hc : ¬cond1_0 i) (x0 x1 : Vec F S4000x128 .f32) (x2 : Vec F S4000x1 .f32) (x3 : Vec F S1x128 .f32) (xo5 xo6 : Vec F S1x1 .f32) :
    out1_B_4 c i a1 h1 a2 h2 a3 h3 a4 h4 a5 h5 a6 h6 a7 h7 hc x0 x1 x2 x3 xo5 xo6 = k1_pay4 x0 x1 x2 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, View.ld_unit_zero (S := S4000x128) hz, View.ld_unit_zero (S := S4000x1) hz, View.ld_unit_zero (S := S1x128) hz]

/-- A later point, the running sum: the block's sum added to what the point before left. -/
theorem piece_B_5 (c : Dev nD) (i : grid1.Coords) (a1 : Memref sig .tc .vmem S4000x128 .f32) (h1 : a1.IsWhole) (a2 : Memref sig .tc .vmem S4000x128 .f32) (h2 : a2.IsWhole) (a3 : Memref sig .tc .vmem S4000x1 .f32) (h3 : a3.IsWhole) (a4 : Memref sig .tc .vmem S1x128 .f32) (h4 : a4.IsWhole) (a5 : Memref sig .tc .vmem S4000x128 .f32) (h5 : a5.IsWhole) (a6 : Memref sig .tc .vmem S1x1 .f32) (h6 : a6.IsWhole) (a7 : Memref sig .tc .vmem S1x1 .f32) (h7 : a7.IsWhole) (hc : ¬cond1_0 i) (x0 x1 : Vec F S4000x128 .f32) (x2 : Vec F S4000x1 .f32) (x3 : Vec F S1x128 .f32) (xo5 xo6 : Vec F S1x1 .f32) :
    out1_B_5 c i a1 h1 a2 h2 a3 h3 a4 h4 a5 h5 a6 h6 a7 h7 hc x0 x1 x2 x3 xo5 xo6 = k1_pay6 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, View.ld_unit_zero (S := S4000x128) hz, View.ld_unit_zero (S := S4000x1) hz, View.ld_unit_zero (S := S1x128) hz, h6.read_unread, View.ld_unit_zero (S := S1x1) hz]

/-- A later point, the running sum of squares: the block's sum of squares added to what the point before left. -/
theorem piece_B_6 (c : Dev nD) (i : grid1.Coords) (a1 : Memref sig .tc .vmem S4000x128 .f32) (h1 : a1.IsWhole) (a2 : Memref sig .tc .vmem S4000x128 .f32) (h2 : a2.IsWhole) (a3 : Memref sig .tc .vmem S4000x1 .f32) (h3 : a3.IsWhole) (a4 : Memref sig .tc .vmem S1x128 .f32) (h4 : a4.IsWhole) (a5 : Memref sig .tc .vmem S4000x128 .f32) (h5 : a5.IsWhole) (a6 : Memref sig .tc .vmem S1x1 .f32) (h6 : a6.IsWhole) (a7 : Memref sig .tc .vmem S1x1 .f32) (h7 : a7.IsWhole) (hc : ¬cond1_0 i) (x0 x1 : Vec F S4000x128 .f32) (x2 : Vec F S4000x1 .f32) (x3 : Vec F S1x128 .f32) (xo5 xo6 : Vec F S1x1 .f32) :
    out1_B_6 c i a1 h1 a2 h2 a3 h3 a4 h4 a5 h5 a6 h6 a7 h7 hc x0 x1 x2 x3 xo5 xo6 = k1_pay1 (k1_pay5 x0 x1 x2 x3) xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, View.ld_unit_zero (S := S4000x128) hz, View.ld_unit_zero (S := S4000x1) hz, View.ld_unit_zero (S := S1x128) hz, h7.read_unread, View.ld_unit_zero (S := S1x1) hz]

/-! ## The body's arithmetic at an index, over the extended reals -/

/-- The rectifier's floor as the body writes it. -/
abbrev zf : EReal := Ideal.ofBits .f32 0x00000000#32

/-- The combined, rectified block at row `p`, channel `q`: neighbours' sum plus own row times the loop weight plus
    the bias, floored at zero. The loop weight is a column and the bias a row, each spread over the block. -/
theorem pay4_apply (x0 x1 : Vec Ideal S4000x128 .f32) (x2 : Vec Ideal S4000x1 .f32) (x3 : Vec Ideal S1x128 .f32)
    (p : Fin 4000) (q : Fin 128) :
    k1_pay4 x0 x1 x2 x3 (ix2 p q)
      = max (x0 (ix2 p q) + x1 (ix2 p q) * x2 (ix2 p (0 : Fin 1)) + x3 (ix2 (0 : Fin 1) q)) zf := by
  unfold k1_pay4
  simp only [shapeCast_self]
  show max (x0 (ix2 p q) + x1 (ix2 p q) * broadcastTo S4000x128 x2 broadcasts_S4000x1_S4000x128 (ix2 p q)
      + broadcastTo S4000x128 x3 broadcasts_S1x128_S4000x128 (ix2 p q)) zf = _
  rw [broadcastTo_apply x2 broadcasts_S4000x1_S4000x128 (ix2 p q) (ix2 p (0 : Fin 1))
      (fun a => by match a with | ⟨0, _⟩ => rfl | ⟨1, _⟩ => rfl),
    broadcastTo_apply x3 broadcasts_S1x128_S4000x128 (ix2 p q) (ix2 (0 : Fin 1) q)
      (fun a => by match a with | ⟨0, _⟩ => rfl | ⟨1, _⟩ => rfl)]

/-- Summing a block along its channels: row `r` of the result is the sum of that row's 128 entries. -/
theorem laneSum_apply (P : FVec Ideal S4000x128 .f32) (r : Fin 4000) :
    multiReduction (F := Ideal) .add [1] S4000 P 0x00000000#32 reduces_S4000x128_S4000 (.inl rfl) rfl (ix1 r)
      = ∑ l : Fin 128, P (ix2 r l) := by
  refine (Ideal.multiReduction_add_single P 0x00000000#32 reduces_S4000x128_S4000 (.inl rfl) rfl (ix1 r)).trans ?_
  exact Finset.sum_congr rfl fun l _ => congrArg P (funext fun a => by match a with | ⟨0, _⟩ => rfl | ⟨1, _⟩ => rfl)

/-- Summing a column along its rows: the one entry of the result is the sum of the 4000 entries. -/
theorem rowSum_apply (Q : FVec Ideal S4000x1 .f32) (j : S1.Idx) :
    multiReduction (F := Ideal) .add [0] S1 Q 0x00000000#32 reduces_S4000x1_S1 (.inl rfl) rfl j
      = ∑ r : Fin 4000, Q (ix2 r (0 : Fin 1)) := by
  refine (Ideal.multiReduction_add_single Q 0x00000000#32 reduces_S4000x1_S1 (.inl rfl) rfl j).trans ?_
  refine Finset.sum_congr rfl fun r _ => congrArg Q (funext fun a => ?_)
  match a with
  | ⟨0, _⟩ => rfl
  | ⟨1, _⟩ => exact Fin.ext (by have h0 : (j 0).val < 1 := (j 0).isLt; show (j 0).val = 0; omega)

/-- The block's total: lane sums, then the sum of those, as one number in a 1 × 1 array. -/
theorem blockTotal_apply (P : FVec Ideal S4000x128 .f32) (j : S1x1.Idx) :
    shapeCast S1x1 (multiReduction (F := Ideal) .add [0] S1
        (shapeCast S4000x1 (multiReduction (F := Ideal) .add [1] S4000 P 0x00000000#32 reduces_S4000x128_S4000 (.inl rfl) rfl)
          shapeCasts_S4000_S4000x1)
        0x00000000#32 reduces_S4000x1_S1 (.inl rfl) rfl) shapeCasts_S1_S1x1 j
      = ∑ r : Fin 4000, ∑ l : Fin 128, P (ix2 r l) := by
  refine (shapeCast_apply _ shapeCasts_S1_S1x1 j (ix1 (0 : Fin 1)) ?_).trans ?_
  · rw [Shape.rowMajor_val_two, Shape.rowMajor_val_one]
    have h0 : (j 0).val < 1 := (j 0).isLt; have h1 : (j 1).val < 1 := (j 1).isLt
    show (0 : Nat) = (j 0).val * 1 + (j 1).val
    omega
  refine (rowSum_apply _ _).trans (Finset.sum_congr rfl fun r _ => ?_)
  refine (shapeCast_apply _ shapeCasts_S4000_S4000x1 (ix2 r (0 : Fin 1)) (ix1 r) ?_).trans (laneSum_apply P r)
  rw [Shape.rowMajor_val_two, Shape.rowMajor_val_one]
  show r.val = r.val * 1 + 0
  omega

/-- The running sum after a point: what it held, plus the rectified block's total. -/
theorem pay6_apply (x0 x1 : Vec Ideal S4000x128 .f32) (x2 : Vec Ideal S4000x1 .f32) (x3 : Vec Ideal S1x128 .f32)
    (acc : Vec Ideal S1x1 .f32) (j : S1x1.Idx) :
    k1_pay6 x0 x1 x2 x3 acc j = acc j + ∑ r : Fin 4000, ∑ l : Fin 128, k1_pay4 x0 x1 x2 x3 (ix2 r l) := by
  unfold k1_pay6
  simp only [shapeCast_self]
  exact congrArg (acc j + ·) (blockTotal_apply (k1_pay4 x0 x1 x2 x3) j)

/-- The block's total of squares. -/
theorem pay5_apply (x0 x1 : Vec Ideal S4000x128 .f32) (x2 : Vec Ideal S4000x1 .f32) (x3 : Vec Ideal S1x128 .f32)
    (j : S1x1.Idx) :
    k1_pay5 x0 x1 x2 x3 j
      = ∑ r : Fin 4000, ∑ l : Fin 128, k1_pay4 x0 x1 x2 x3 (ix2 r l) * k1_pay4 x0 x1 x2 x3 (ix2 r l) := by
  unfold k1_pay5
  exact blockTotal_apply (mulf (k1_pay4 x0 x1 x2 x3) (k1_pay4 x0 x1 x2 x3)) j

/-- The running sum of squares after a point: what it held, plus the block's total of squares. -/
theorem pay1_apply (tot : FVec Ideal S1x1 .f32) (acc : Vec Ideal S1x1 .f32) (j : S1x1.Idx) :
    k1_pay1 tot acc j = acc j + tot j := by
  unfold k1_pay1
  simp only [shapeCast_self]
  rfl

/-- The reset value is zero. -/
theorem pay2_apply (j : S1x1.Idx) : k1_pay2 (F := Ideal) j = 0 := by
  unfold k1_pay2
  exact Ideal.ofBits_zero_f32

/-- So is the reset value of the sum of squares. -/
theorem pay3_apply (j : S1x1.Idx) : k1_pay3 (F := Ideal) j = 0 := by
  unfold k1_pay3
  exact Ideal.ofBits_zero_f32

/-! ## The region's arrays, blocks and rows -/

variable (V : (c : Dev nD) → (b : Ref sig .tc) → Buf (Elt Ideal) ((c : Thread nD τ).loc b))

/-- The combined, rectified array of the four arrays the second region was entered with. -/
abbrev xOf (c : Dev nD) : Cert.Spec.SNxH.Idx → EReal :=
  Cert.Spec.comb (V c main_v41) (V c main_v28) (V c main_v12) (V c main_v42) (Ideal.ofBits .f32 0x00000000#32)

/-- The four input blocks at a grid point: 4000 rows of the neighbours' sums, of the linear layer and of the loop
    weights, and the whole bias row. -/
abbrev ablk (c : Dev nD) (t : Fin cfg1.N) : Vec Ideal S4000x128 .f32 := iblk1 V c 0 t
abbrev hblk (c : Dev nD) (t : Fin cfg1.N) : Vec Ideal S4000x128 .f32 := iblk1 V c 1 t
abbrev sblk (c : Dev nD) (t : Fin cfg1.N) : Vec Ideal S4000x1 .f32 := iblk1 V c 2 t
abbrev bblk (c : Dev nD) (t : Fin cfg1.N) : Vec Ideal S1x128 .f32 := iblk1 V c 3 t

/-- 25 blocks of 4000 rows are the 100000 rows. -/
theorem rows : 25 * 4000 = 100000 := by norm_num

/-- Row `p` of block `t` is row `4000·t + p` of the array. -/
abbrev row (t : Fin cfg1.N) (p : Fin 4000) : Fin 100000 :=
  ⟨4000 * t.val + p.val, Cert.LibBlockSum.block_lt rows (lt_of_lt_of_eq t.isLt N_1) p.isLt⟩

/-- Where each window's block sits at point `t`: the row windows at block row `t`, the bias row and the two totals
    always at the one block they have. Decided over the 25 points. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- The neighbours' block read at (p, q) is the array at (4000·t + p, q). -/
theorem ablk_apply (c : Dev nD) (t : Fin cfg1.N) (p : Fin 4000) (q : Fin 128) :
    ablk V c t (ix2 p q) = V c main_v41 (ix2 (row t p) q) := by
  obtain ⟨⟨e0, e1⟩, -⟩ := idx_facts t
  show V c main_v41 (((cfg1.win 0).blk t).view.emb (ix2 p q)) = V c main_v41 (ix2 (row t p) q)
  refine congrArg (V c main_v41) (funext fun a => Fin.ext ?_)
  match a with
  | ⟨0, _⟩ => show win1_0.index t (0 : Fin 2) * 4000 + 1 * p.val = 4000 * t.val + p.val; rw [e0]; omega
  | ⟨1, _⟩ => show win1_0.index t (1 : Fin 2) * 128 + 1 * q.val = q.val; rw [e1]; omega

/-- The linear layer's block likewise. -/
theorem hblk_apply (c : Dev nD) (t : Fin cfg1.N) (p : Fin 4000) (q : Fin 128) :
    hblk V c t (ix2 p q) = V c main_v28 (ix2 (row t p) q) := by
  obtain ⟨-, ⟨e0, e1⟩, -⟩ := idx_facts t
  show V c main_v28 (((cfg1.win 1).blk t).view.emb (ix2 p q)) = V c main_v28 (ix2 (row t p) q)
  refine congrArg (V c main_v28) (funext fun a => Fin.ext ?_)
  match a with
  | ⟨0, _⟩ => show win1_1.index t (0 : Fin 2) * 4000 + 1 * p.val = 4000 * t.val + p.val; rw [e0]; omega
  | ⟨1, _⟩ => show win1_1.index t (1 : Fin 2) * 128 + 1 * q.val = q.val; rw [e1]; omega

/-- The loop weights' block is a column: (p, 0) is the array at (4000·t + p, 0). -/
theorem sblk_apply (c : Dev nD) (t : Fin cfg1.N) (p : Fin 4000) :
    sblk V c t (ix2 p (0 : Fin 1)) = V c main_v12 (ix2 (row t p) (0 : Fin 1)) := by
  obtain ⟨-, -, ⟨e0, e1⟩, -⟩ := idx_facts t
  show V c main_v12 (((cfg1.win 2).blk t).view.emb (ix2 p (0 : Fin 1))) = V c main_v12 (ix2 (row t p) (0 : Fin 1))
  refine congrArg (V c main_v12) (funext fun a => Fin.ext ?_)
  match a with
  | ⟨0, _⟩ => show win1_2.index t (0 : Fin 2) * 4000 + 1 * p.val = 4000 * t.val + p.val; rw [e0]; omega
  | ⟨1, _⟩ => show win1_2.index t (1 : Fin 2) * 1 + 1 * 0 = 0; rw [e1]

/-- The bias block is the whole bias row at every point. -/
theorem bblk_apply (c : Dev nD) (t : Fin cfg1.N) (q : Fin 128) :
    bblk V c t (ix2 (0 : Fin 1) q) = V c main_v42 (ix2 (0 : Fin 1) q) := by
  obtain ⟨-, -, -, ⟨e0, e1⟩, -⟩ := idx_facts t
  show V c main_v42 (((cfg1.win 3).blk t).view.emb (ix2 (0 : Fin 1) q)) = V c main_v42 (ix2 (0 : Fin 1) q)
  refine congrArg (V c main_v42) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- So the combined block of the four input blocks at point `t` is block `t` of the combined array. -/
theorem blk4_apply (c : Dev nD) (t : Fin cfg1.N) (p : Fin 4000) (q : Fin 128) :
    k1_pay4 (ablk V c t) (hblk V c t) (sblk V c t) (bblk V c t) (ix2 p q) = xOf V c (ix2 (row t p) q) := by
  refine (pay4_apply (ablk V c t) (hblk V c t) (sblk V c t) (bblk V c t) p q).trans ?_
  rw [ablk_apply, hblk_apply, sblk_apply, bblk_apply]
  rfl

/-! ## Rows and running totals -/

/-- The sum of a row of a node array. -/
def rowTot (x : Cert.Spec.SNxH.Idx → EReal) (r : Fin 100000) : EReal := ∑ j : Fin 128, x (ix2 r j)
/-- The sum of the squares of a row. -/
def rowSq (x : Cert.Spec.SNxH.Idx → EReal) (r : Fin 100000) : EReal := ∑ j : Fin 128, x (ix2 r j) * x (ix2 r j)

/-- The running sum after `n` blocks, and the running sum of squares. -/
abbrev acc5 (c : Dev nD) (n : ℕ) : EReal := Cert.LibBlockSum.blockAcc rows (rowTot (xOf V c)) n
abbrev acc6 (c : Dev nD) (n : ℕ) : EReal := Cert.LibBlockSum.blockAcc rows (rowSq (xOf V c)) n

/-- The total of the combined block at point `t` is the sum of the row sums of rows 4000·t … 4000·t + 3999. -/
theorem blockTot_eq (c : Dev nD) (t : Fin cfg1.N) :
    ∑ r : Fin 4000, ∑ l : Fin 128, k1_pay4 (ablk V c t) (hblk V c t) (sblk V c t) (bblk V c t) (ix2 r l)
      = ∑ r : Fin 4000, rowTot (xOf V c) (row t r) :=
  Finset.sum_congr rfl fun r _ => Finset.sum_congr rfl fun l _ => blk4_apply V c t r l

/-- Likewise the block's total of squares. -/
theorem blockSq_eq (c : Dev nD) (t : Fin cfg1.N) :
    ∑ r : Fin 4000, ∑ l : Fin 128, k1_pay4 (ablk V c t) (hblk V c t) (sblk V c t) (bblk V c t) (ix2 r l) * k1_pay4 (ablk V c t) (hblk V c t) (sblk V c t) (bblk V c t) (ix2 r l)
      = ∑ r : Fin 4000, rowSq (xOf V c) (row t r) :=
  Finset.sum_congr rfl fun r _ => Finset.sum_congr rfl fun l _ => by rw [blk4_apply V c t r l]

/-! ## What each point leaves, over the point's blocks -/

/-- After any point the rectified block's buffer holds the combined block of the point's four input blocks. -/
theorem out4_eq (c : Dev nD) (t : Fin cfg1.N) :
    (outsAt1 V c t.val t.isLt).1 = k1_pay4 (ablk V c t) (hblk V c t) (sblk V c t) (bblk V c t) := by
  by_cases h0 : t.val % 25 = 0
  · rw [outsAt1_A V c t h0]; dsimp only
    exact piece_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (ablk V c t) (hblk V c t) (sblk V c t) (bblk V c t)
  · rw [outsAt1_B V c t h0]; dsimp only
    exact piece_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (ablk V c t) (hblk V c t) (sblk V c t) (bblk V c t) (outsAt1 V c (t.val - 1) (Nat.lt_of_le_of_lt (Nat.sub_le _ _) t.isLt)).2.1 (outsAt1 V c (t.val - 1) (Nat.lt_of_le_of_lt (Nat.sub_le _ _) t.isLt)).2.2

/-- After the first point the running sum is the reset value plus the block's total. -/
theorem out5_A (c : Dev nD) (t : Fin cfg1.N) (h0 : t.val % 25 = 0) :
    (outsAt1 V c t.val t.isLt).2.1 = k1_pay6 (ablk V c t) (hblk V c t) (sblk V c t) (bblk V c t) (k1_pay2 (F := Ideal)) := by
  rw [outsAt1_A V c t h0]; dsimp only
  exact piece_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (ablk V c t) (hblk V c t) (sblk V c t) (bblk V c t)

/-- After the first point the running sum of squares is the reset value plus the block's total of squares. -/
theorem out6_A (c : Dev nD) (t : Fin cfg1.N) (h0 : t.val % 25 = 0) :
    (outsAt1 V c t.val t.isLt).2.2 = k1_pay1 (k1_pay5 (ablk V c t) (hblk V c t) (sblk V c t) (bblk V c t)) (k1_pay3 (F := Ideal)) := by
  rw [outsAt1_A V c t h0]; dsimp only
  exact piece_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (ablk V c t) (hblk V c t) (sblk V c t) (bblk V c t)

/-- After a later point the running sum is what the point before left plus the block's total. -/
theorem out5_B (c : Dev nD) (t : Fin cfg1.N) (h0 : ¬t.val % 25 = 0) :
    (outsAt1 V c t.val t.isLt).2.1 = k1_pay6 (ablk V c t) (hblk V c t) (sblk V c t) (bblk V c t) (outsAt1 V c (t.val - 1) (Nat.lt_of_le_of_lt (Nat.sub_le _ _) t.isLt)).2.1 := by
  rw [outsAt1_B V c t h0]; dsimp only
  exact piece_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (ablk V c t) (hblk V c t) (sblk V c t) (bblk V c t) (outsAt1 V c (t.val - 1) (Nat.lt_of_le_of_lt (Nat.sub_le _ _) t.isLt)).2.1 (outsAt1 V c (t.val - 1) (Nat.lt_of_le_of_lt (Nat.sub_le _ _) t.isLt)).2.2

/-- After a later point the running sum of squares is what the point before left plus the block's total of squares. -/
theorem out6_B (c : Dev nD) (t : Fin cfg1.N) (h0 : ¬t.val % 25 = 0) :
    (outsAt1 V c t.val t.isLt).2.2 = k1_pay1 (k1_pay5 (ablk V c t) (hblk V c t) (sblk V c t) (bblk V c t)) (outsAt1 V c (t.val - 1) (Nat.lt_of_le_of_lt (Nat.sub_le _ _) t.isLt)).2.2 := by
  rw [outsAt1_B V c t h0]; dsimp only
  exact piece_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (ablk V c t) (hblk V c t) (sblk V c t) (bblk V c t) (outsAt1 V c (t.val - 1) (Nat.lt_of_le_of_lt (Nat.sub_le _ _) t.isLt)).2.1 (outsAt1 V c (t.val - 1) (Nat.lt_of_le_of_lt (Nat.sub_le _ _) t.isLt)).2.2

/-! ## The running totals after each point -/

/-- After point `n` the two accumulators hold the running sum, and the running sum of squares, over the first
    `n + 1` blocks: at the first point zero plus block 0's totals, at a later one the point before's plus its own. -/
theorem outs_eq (c : Dev nD) : ∀ (n : ℕ) (h : n < cfg1.N),
    (outsAt1 V c n h).2.1 = (fun _ => acc5 V c (n + 1)) ∧ (outsAt1 V c n h).2.2 = (fun _ => acc6 V c (n + 1))
  | 0, h => by
    constructor
    · refine (out5_A V c ⟨0, h⟩ (Nat.zero_mod 25)).trans (funext fun j => ?_)
      refine (pay6_apply _ _ _ _ _ j).trans ?_
      rw [pay2_apply, zero_add, blockTot_eq]
      exact ((Cert.LibBlockSum.blockAcc_succ' rows (rowTot (xOf V c)) (by norm_num : 0 < 25)).trans
        (by rw [Cert.LibBlockSum.blockAcc_zero, zero_add])).symm
    · refine (out6_A V c ⟨0, h⟩ (Nat.zero_mod 25)).trans (funext fun j => ?_)
      refine (pay1_apply _ _ j).trans ?_
      rw [pay3_apply, zero_add, pay5_apply, blockSq_eq]
      exact ((Cert.LibBlockSum.blockAcc_succ' rows (rowSq (xOf V c)) (by norm_num : 0 < 25)).trans
        (by rw [Cert.LibBlockSum.blockAcc_zero, zero_add])).symm
  | n + 1, h => by
    have hN : cfg1.N = 25 := N_1
    have hlt : n + 1 < 25 := lt_of_lt_of_eq h hN
    have hB : ¬(⟨n + 1, h⟩ : Fin cfg1.N).val % 25 = 0 := by dsimp only; omega
    obtain ⟨ih5, ih6⟩ := outs_eq c n (Nat.lt_of_succ_lt h)
    constructor
    · refine (out5_B V c ⟨n + 1, h⟩ hB).trans (funext fun j => ?_)
      refine (pay6_apply _ _ _ _ _ j).trans ?_
      show (outsAt1 V c n _).2.1 j + _ = _
      rw [ih5, blockTot_eq]
      exact (Cert.LibBlockSum.blockAcc_succ' rows (rowTot (xOf V c)) hlt).symm
    · refine (out6_B V c ⟨n + 1, h⟩ hB).trans (funext fun j => ?_)
      refine (pay1_apply _ _ j).trans ?_
      show (outsAt1 V c n _).2.2 j + _ = _
      rw [ih6, pay5_apply, blockSq_eq]
      exact (Cert.LibBlockSum.blockAcc_succ' rows (rowSq (xOf V c)) hlt).symm

/-! ## The arrays after the run -/

/-- What point `t` writes back of the rectified array is block `t` of the combined array. -/
theorem flushed4_eq (c : Dev nD) (t : Fin cfg1.N) :
    (dat1 V c).flushed 4 t = ((cfg1.win 4).blk t).view.read (Elt Ideal) (xOf V c) := by
  show (cfg1.win 4).cut (grid1.coords t) ((dat1 V c).after 4 t) = _
  rw [after1_4, out4_eq]
  obtain ⟨-, -, -, -, ⟨e0, e1⟩, -⟩ := idx_facts t
  have key : ∀ j : S4000x128.Idx,
      k1_pay4 (ablk V c t) (hblk V c t) (sblk V c t) (bblk V c t) j = xOf V c (((cfg1.win 4).blk t).view.emb j) := by
    intro j
    obtain ⟨p, q, rfl⟩ : ∃ (p : Fin 4000) (q : Fin 128), j = ix2 p q := ⟨j 0, j 1, eq_ix2 j⟩
    refine (blk4_apply V c t p q).trans (congrArg (xOf V c) (funext fun a => Fin.ext ?_))
    match a with
    | ⟨0, _⟩ => show 4000 * t.val + p.val = win1_4.index t (0 : Fin 2) * 4000 + 1 * p.val; rw [e0]; omega
    | ⟨1, _⟩ => show q.val = win1_4.index t (1 : Fin 2) * 128 + 1 * q.val; rw [e1]; omega
  exact funext key

/-- Every entry of the rectified array lies in the block of the point its row belongs to. -/
theorem cover4 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by rw [show cfg1.N = 25 from N_1]; omega⟩, rfl⟩
  obtain ⟨-, -, -, -, ⟨e0, e1⟩, -⟩ := idx_facts t
  refine ⟨t, flush1_4 t, ?_⟩
  show i ∈ ((View.whole main_v43_0).slice (win1_4.rect t)).set
  rw [View.set_slice_whole, Rect.mem_set_unit]
  intro a
  match a with
  | ⟨0, _⟩ =>
    show win1_4.index t (0 : Fin 2) * 4000 ≤ (i 0).val ∧ (i 0).val < win1_4.index t (0 : Fin 2) * 4000 + 4000
    rw [e0, ht]; omega
  | ⟨1, _⟩ =>
    show win1_4.index t (1 : Fin 2) * 128 ≤ (i 1).val ∧ (i 1).val < win1_4.index t (1 : Fin 2) * 128 + 128
    rw [e1]; omega

theorem x_value (c : Dev nD) : (dat1 (F := Ideal) V c).arrAt 4 cfg1.N = xOf V c := by
  exact (dat1 V c).arrAt_eq_of_cover 4 (xOf V c) (fun t _ => flushed4_eq V c t) cover4

/-- The last of the 25 points. -/
abbrev tLast : Fin cfg1.N := ⟨24, by rw [show cfg1.N = 25 from N_1]; norm_num⟩

/-- The one entry of a 1 × 1 result lies in its one block, which the last point writes back. -/
theorem cover5 (i : S1x1.Idx) :
    ∃ t : Fin cfg1.N, (cfg1.win 5).flush t = true ∧ i ∈ ((cfg1.win 5).blk t).view.set := by
  have hi0 : (i 0).val < 1 := (i 0).isLt
  have hi1 : (i 1).val < 1 := (i 1).isLt
  obtain ⟨-, -, -, -, -, ⟨e0, e1⟩, -⟩ := idx_facts tLast
  refine ⟨tLast, (flush1_5 tLast).mpr rfl, ?_⟩
  show i ∈ ((View.whole main_v43_1).slice (win1_5.rect tLast)).set
  rw [View.set_slice_whole, Rect.mem_set_unit]
  intro a
  match a with
  | ⟨0, _⟩ =>
    show win1_5.index tLast (0 : Fin 2) * 1 ≤ (i 0).val ∧ (i 0).val < win1_5.index tLast (0 : Fin 2) * 1 + 1
    rw [e0]; omega
  | ⟨1, _⟩ =>
    show win1_5.index tLast (1 : Fin 2) * 1 ≤ (i 1).val ∧ (i 1).val < win1_5.index tLast (1 : Fin 2) * 1 + 1
    rw [e1]; omega

/-- The same for the sum of squares' 1 × 1 result. -/
theorem cover6 (i : S1x1.Idx) :
    ∃ t : Fin cfg1.N, (cfg1.win 6).flush t = true ∧ i ∈ ((cfg1.win 6).blk t).view.set := by
  have hi0 : (i 0).val < 1 := (i 0).isLt
  have hi1 : (i 1).val < 1 := (i 1).isLt
  obtain ⟨-, -, -, -, -, -, ⟨e0, e1⟩⟩ := idx_facts tLast
  refine ⟨tLast, (flush1_6 tLast).mpr rfl, ?_⟩
  show i ∈ ((View.whole main_v43_2).slice (win1_6.rect tLast)).set
  rw [View.set_slice_whole, Rect.mem_set_unit]
  intro a
  match a with
  | ⟨0, _⟩ =>
    show win1_6.index tLast (0 : Fin 2) * 1 ≤ (i 0).val ∧ (i 0).val < win1_6.index tLast (0 : Fin 2) * 1 + 1
    rw [e0]; omega
  | ⟨1, _⟩ =>
    show win1_6.index tLast (1 : Fin 2) * 1 ≤ (i 1).val ∧ (i 1).val < win1_6.index tLast (1 : Fin 2) * 1 + 1
    rw [e1]; omega

/-- The sum of the row sums is the sum of every entry. -/
theorem total_eq (x : Cert.Spec.SNxH.Idx → EReal) : ∑ r : Fin 100000, rowTot x r = Cert.Spec.total x := rfl
/-- The sum of the rows' sums of squares is the sum of every entry's square. -/
theorem totalSq_eq (x : Cert.Spec.SNxH.Idx → EReal) : ∑ r : Fin 100000, rowSq x r = Cert.Spec.totalSq x := rfl

theorem sum_value (c : Dev nD) : (dat1 (F := Ideal) V c).arrAt 5 cfg1.N = fun _ => Cert.Spec.total (xOf V c) := by
  have hlast : acc5 V c 25 = Cert.Spec.total (xOf V c) :=
    (Cert.LibBlockSum.blockAcc_last rows (rowTot (xOf V c))).trans (total_eq (xOf V c))
  generalize Cert.Spec.total (xOf V c) = z at hlast ⊢
  refine (dat1 V c).arrAt_eq_of_cover 5 (fun _ => z) (fun t hf => ?_) cover5
  have hN : cfg1.N = 25 := N_1
  have h24 : t.val = 24 := by have := (flush1_5 t).mp hf; have := t.isLt; omega
  have hy : acc5 V c (t.val + 1) = z := by rw [h24]; exact hlast
  show (cfg1.win 5).cut (grid1.coords t) ((dat1 V c).after 5 t) = _
  rw [after1_5, (outs_eq V c t.val t.isLt).1]
  generalize acc5 V c (t.val + 1) = y at hy
  subst hy
  rfl

theorem sumsq_value (c : Dev nD) : (dat1 (F := Ideal) V c).arrAt 6 cfg1.N = fun _ => Cert.Spec.totalSq (xOf V c) := by
  have hlast : acc6 V c 25 = Cert.Spec.totalSq (xOf V c) :=
    (Cert.LibBlockSum.blockAcc_last rows (rowSq (xOf V c))).trans (totalSq_eq (xOf V c))
  generalize Cert.Spec.totalSq (xOf V c) = z at hlast ⊢
  refine (dat1 V c).arrAt_eq_of_cover 6 (fun _ => z) (fun t hf => ?_) cover6
  have hN : cfg1.N = 25 := N_1
  have h24 : t.val = 24 := by have := (flush1_6 t).mp hf; have := t.isLt; omega
  have hy : acc6 V c (t.val + 1) = z := by rw [h24]; exact hlast
  show (cfg1.win 6).cut (grid1.coords t) ((dat1 V c).after 6 t) = _
  rw [after1_6, (outs_eq V c t.val t.isLt).2]
  generalize acc6 V c (t.val + 1) = y at hy
  subst hy
  rfl

end Cert.KernelIdeal.Reg1

end
-- ==== Proof.KReg2.lean ====
/-
  The pooled row after the third region.

  The region walks the 100000 rows of `x` in 25 blocks of 4000, in order.  Its output is ONE row of 128 channels whose
  single block is revisited at every point of the grid: at the first point the row is reset to zero; at every point
  channel `j` of the row gains the sum, over the block's 4000 rows `r`, of `(x[r, j] − μ) · ι · g[j] + β[j]` (the mean
  `μ` and the reciprocal deviation `ι` are 1 × 1 arrays, the scale `g` and the shift `β` rows, each read whole at every
  point); and the row is written back once, after the last point.

  So after point `t` channel `j` holds the running total of that summand over the first `t + 1` blocks of rows — by
  induction on the point, the first point starting from zero and every later one from what the point before left — and
  after the last point it holds the sum over all 100000 rows: the pooled row of the specification.  Only addition of
  extended reals is used (the column sum is exact there); nothing finite is asked of the arrays.
-/
import proofs.«170314_j33887291965745_1_alg».proof.Proof.Gen.KernelIdeal.Frame
import proofs.«170314_j33887291965745_1_alg».proof.Proof.Spec
import proofs.«170314_j33887291965745_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## What each case of the body leaves in the row's buffer -/

section Pieces
variable {F : FTy → Type} [FloatOps F]

/-- The zero offsets of a whole-buffer load or store. -/
theorem hz : (![0, 0] : Fin 2 → Nat) = fun _ => 0 := funext fun a => by fin_cases a <;> rfl

/-- A later point: the one store covers the row, and its payload is the update of what the buffer held (`xo`)
    by the block `x0` and the four whole operands, each load reading its whole buffer. -/
theorem piece_B (c : Dev nD) (i : grid2.Coords)
    (a1 : Memref sig .tc .vmem S4000x128 .f32) (h1 : a1.IsWhole) (a2 : Memref sig .tc .vmem S1x1 .f32) (h2 : a2.IsWhole)
    (a3 : Memref sig .tc .vmem S1x1 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hc : ¬cond2_0 i) (x0 : Vec F S4000x128 .f32) (x1 : Vec F S1x1 .f32) (x2 : Vec F S1x1 .f32)
    (x3 : Vec F S1x128 .f32) (x4 : Vec F S1x128 .f32) (xo : Vec F S1x128 .f32) :
    out2_B_5 c i a1 h1 a2 h2 a3 h3 a4 h4 a5 h5 a6 h6 hc x0 x1 x2 x3 x4 xo = k2_pay2 x0 x1 x2 x3 x4 xo := by
  unfold out2_B_5
  rw [View.read_writes_eq_canon _ _ _ (cover2_B_5 c i a1 h1 a2 h2 a3 h3 a4 h4 a5 h5 a6 h6 hc x0 x1 x2 x3 x4 xo)]
  unfold kernelRun2_B
  dsimp only
  sl_unfold_words
  rw [View.canon_unit_zero hz]
  simp only [View.readAt_eq_ld, h1.read_unread, h2.read_unread, h3.read_unread, h4.read_unread, h5.read_unread,
    h6.read_unread, View.ld_unit_zero (S := S4000x128) hz, View.ld_unit_zero (S := S1x1) hz,
    View.ld_unit_zero (S := S1x128) hz]

/-- The first point: the row is reset to the zero row, read back, and then updated; the later store covers. -/
theorem piece_A (c : Dev nD) (i : grid2.Coords)
    (a1 : Memref sig .tc .vmem S4000x128 .f32) (h1 : a1.IsWhole) (a2 : Memref sig .tc .vmem S1x1 .f32) (h2 : a2.IsWhole)
    (a3 : Memref sig .tc .vmem S1x1 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (hc : cond2_0 i) (x0 : Vec F S4000x128 .f32) (x1 : Vec F S1x1 .f32) (x2 : Vec F S1x1 .f32)
    (x3 : Vec F S1x128 .f32) (x4 : Vec F S1x128 .f32) :
    out2_A_5 c i a1 h1 a2 h2 a3 h3 a4 h4 a5 h5 a6 h6 hc x0 x1 x2 x3 x4 = k2_pay2 x0 x1 x2 x3 x4 (k2_pay1 (F := F)) := by
  unfold out2_A_5
  rw [View.read_writes_eq_canon _ _ _ (cover2_A_5 c i a1 h1 a2 h2 a3 h3 a4 h4 a5 h5 a6 h6 hc x0 x1 x2 x3 x4)]
  unfold kernelRun2_A
  dsimp only
  sl_unfold_words
  rw [View.canon_cons_unit_zero (S := S1x128) hz]
  simp only [View.readAt_eq_ld, h1.read_unread, h2.read_unread, h3.read_unread, h4.read_unread, h5.read_unread,
    View.ld_unit_zero (S := S4000x128) hz, View.ld_unit_zero (S := S1x1) hz,
    View.ld_unit_zero (S := S1x128) hz, View.readCov_unit_zero (S := S1x128) _ hz]

end Pieces

/-! ## The update at a channel, over the extended reals -/

section Payload

/-- A 1 × 1 array spread over the block reads its one entry everywhere. -/
theorem spread11 (x : Vec Ideal S1x1 .f32) (r : Fin 4000) (j : Fin 128) :
    broadcastTo S4000x128 x broadcasts_S1x1_S4000x128 (ix2 r j) = x (ix2 (0 : Fin 1) (0 : Fin 1)) :=
  broadcastTo_apply x broadcasts_S1x1_S4000x128 (ix2 r j) (ix2 (0 : Fin 1) (0 : Fin 1))
    (fun a => by match a with | ⟨0, _⟩ => rfl | ⟨1, _⟩ => rfl)

/-- A row spread over the block's rows reads the row's entry of the same channel. -/
theorem spreadRow (x : Vec Ideal S1x128 .f32) (r : Fin 4000) (j : Fin 128) :
    broadcastTo S4000x128 x broadcasts_S1x128_S4000x128 (ix2 r j) = x (ix2 (0 : Fin 1) j) :=
  broadcastTo_apply x broadcasts_S1x128_S4000x128 (ix2 r j) (ix2 (0 : Fin 1) j)
    (fun a => by match a with | ⟨0, _⟩ => rfl | ⟨1, _⟩ => rfl)

/-- The update at channel `j`: what the row held there plus the sum, over the block's 4000 rows, of the entry minus
    the mean, times the reciprocal deviation, times the channel's scale, plus the channel's shift.  The column sum
    is exact over the extended reals, and the two spread operands are read at their one entry or their row's. -/
theorem pay2_apply (x0 : Vec Ideal S4000x128 .f32) (x1 x2 : Vec Ideal S1x1 .f32) (x3 x4 acc : Vec Ideal S1x128 .f32)
    (j : Fin 128) :
    k2_pay2 (F := Ideal) x0 x1 x2 x3 x4 acc (ix2 (0 : Fin 1) j)
      = acc (ix2 (0 : Fin 1) j)
        + ∑ r : Fin 4000, ((x0 (ix2 r j) - x1 (ix2 (0 : Fin 1) (0 : Fin 1))) * x2 (ix2 (0 : Fin 1) (0 : Fin 1))
            * x3 (ix2 (0 : Fin 1) j) + x4 (ix2 (0 : Fin 1) j)) := by
  unfold k2_pay2
  dsimp only
  simp only [shapeCast_self]
  refine (addf_apply _ _ _).trans ?_
  refine congrArg (acc (ix2 (0 : Fin 1) j) + ·) ?_
  refine (shapeCast_addUnit_apply ![128] _ shapeCasts_S128_S1x128 (ix2 (0 : Fin 1) j)).trans ?_
  refine (Ideal.multiReduction_add_single _ _ reduces_S4000x128_S128 _ _ _).trans ?_
  refine Finset.sum_congr (s₁ := (Finset.univ : Finset (Fin 4000))) rfl (fun r _ => ?_)
  have e : reduces_S4000x128_S128.lift (fun a => ix2 (0 : Fin 1) j a.succ) r = ix2 (r : Fin 4000) j := by
    funext a; match a with | ⟨0, _⟩ => rfl | ⟨1, _⟩ => rfl
  refine (congrArg _ e).trans ?_
  show (x0 (ix2 (r : Fin 4000) j) - broadcastTo S4000x128 x1 broadcasts_S1x1_S4000x128 (ix2 (r : Fin 4000) j))
      * broadcastTo S4000x128 x2 broadcasts_S1x1_S4000x128 (ix2 (r : Fin 4000) j)
      * broadcastTo S4000x128 x3 broadcasts_S1x128_S4000x128 (ix2 (r : Fin 4000) j)
      + broadcastTo S4000x128 x4 broadcasts_S1x128_S4000x128 (ix2 (r : Fin 4000) j) = _
  rw [spread11 x1 r j, spread11 x2 r j, spreadRow x3 r j, spreadRow x4 r j]

end Payload

variable (V : (c : Dev nD) → (b : Ref sig .tc) → Buf (Elt Ideal) ((c : Thread nD τ).loc b))

/-! ## The blocks the body reads, as entries of the arrays -/

section Blocks

/-- 25 blocks of 4000 rows are the 100000 rows. -/
theorem rows : 25 * 4000 = 100000 := by norm_num

/-- The arrays as the region finds them, at their literal types. -/
abbrev xarr (c : Dev nD) : Vec Ideal S100000x128 .f32 := V c main_v43_0
abbrev muarr (c : Dev nD) : Vec Ideal S1x1 .f32 := V c main_v45
abbrev ivarr (c : Dev nD) : Vec Ideal S1x1 .f32 := V c main_v54
abbrev garr (c : Dev nD) : Vec Ideal S1x128 .f32 := V c main_v55
abbrev barr (c : Dev nD) : Vec Ideal S1x128 .f32 := V c main_v56

/-- The blocks the body reads at point `t`, at their literal types. -/
abbrev xblk (c : Dev nD) (t : Fin cfg2.N) : Vec Ideal S4000x128 .f32 := iblk2 V c 0 t
abbrev mublk (c : Dev nD) (t : Fin cfg2.N) : Vec Ideal S1x1 .f32 := iblk2 V c 1 t
abbrev ivblk (c : Dev nD) (t : Fin cfg2.N) : Vec Ideal S1x1 .f32 := iblk2 V c 2 t
abbrev gblk (c : Dev nD) (t : Fin cfg2.N) : Vec Ideal S1x128 .f32 := iblk2 V c 3 t
abbrev bblk (c : Dev nD) (t : Fin cfg2.N) : Vec Ideal S1x128 .f32 := iblk2 V c 4 t

/-- The windows' block indices at each point of the grid: the window on `x` moves one block of rows per point, every
    other window stays at its one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row `r` of block `t` is one of the 100000 rows. -/
theorem row_lt (t : Fin cfg2.N) (r : Fin 4000) : 4000 * t.val + r.val < 100000 := by
  have hN : t.val < 25 := lt_of_lt_of_eq t.isLt (show cfg2.N = 25 from N_2)
  have := r.isLt
  omega

/-- Row `r` of the block at point `t` is row `4000·t + r` of the array. -/
theorem xblk_apply (c : Dev nD) (t : Fin cfg2.N) (r : Fin 4000) (j : Fin 128) :
    xblk V c t (ix2 r j) = xarr V c (ix2 (⟨4000 * t.val + r.val, row_lt t r⟩ : Fin 100000) j) := by
  obtain ⟨e0, e1, -⟩ := idx_facts t
  show V c main_v43_0 (((cfg2.win 0).blk t).view.emb (ix2 r j)) = V c main_v43_0 _
  refine congrArg (V c main_v43_0) ?_
  funext a; apply Fin.ext
  match a with
  | ⟨0, _⟩ => show win2_0.index t (0 : Fin 2) * 4000 + 1 * r.val = 4000 * t.val + r.val; omega
  | ⟨1, _⟩ => show win2_0.index t (1 : Fin 2) * 128 + 1 * j.val = j.val; omega

/-- A window whose block is its whole array reads the array itself, at every point. -/
theorem mublk_apply (c : Dev nD) (t : Fin cfg2.N) :
    mublk V c t (ix2 (0 : Fin 1) (0 : Fin 1)) = muarr V c (ix2 (0 : Fin 1) (0 : Fin 1)) := by
  obtain ⟨-, -, e0, e1, -⟩ := idx_facts t
  show V c main_v45 (((cfg2.win 1).blk t).view.emb (ix2 (0 : Fin 1) (0 : Fin 1))) = V c main_v45 _
  refine congrArg (V c main_v45) ?_
  funext a; apply Fin.ext
  match a with
  | ⟨0, _⟩ => show win2_1.index t (0 : Fin 2) * 1 + 1 * 0 = 0; omega
  | ⟨1, _⟩ => show win2_1.index t (1 : Fin 2) * 1 + 1 * 0 = 0; omega

/-- The same for the reciprocal deviation. -/
theorem ivblk_apply (c : Dev nD) (t : Fin cfg2.N) :
    ivblk V c t (ix2 (0 : Fin 1) (0 : Fin 1)) = ivarr V c (ix2 (0 : Fin 1) (0 : Fin 1)) := by
  obtain ⟨-, -, -, -, e0, e1, -⟩ := idx_facts t
  show V c main_v54 (((cfg2.win 2).blk t).view.emb (ix2 (0 : Fin 1) (0 : Fin 1))) = V c main_v54 _
  refine congrArg (V c main_v54) ?_
  funext a; apply Fin.ext
  match a with
  | ⟨0, _⟩ => show win2_2.index t (0 : Fin 2) * 1 + 1 * 0 = 0; omega
  | ⟨1, _⟩ => show win2_2.index t (1 : Fin 2) * 1 + 1 * 0 = 0; omega

/-- The scale row's window is the whole row: channel `j` of its block is channel `j` of the row. -/
theorem gblk_apply (c : Dev nD) (t : Fin cfg2.N) (j : Fin 128) :
    gblk V c t (ix2 (0 : Fin 1) j) = garr V c (ix2 (0 : Fin 1) j) := by
  obtain ⟨-, -, -, -, -, -, e0, e1, -⟩ := idx_facts t
  show V c main_v55 (((cfg2.win 3).blk t).view.emb (ix2 (0 : Fin 1) j)) = V c main_v55 _
  refine congrArg (V c main_v55) ?_
  funext a; apply Fin.ext
  match a with
  | ⟨0, _⟩ => show win2_3.index t (0 : Fin 2) * 1 + 1 * 0 = 0; omega
  | ⟨1, _⟩ => show win2_3.index t (1 : Fin 2) * 128 + 1 * j.val = j.val; omega

/-- The same for the shift row. -/
theorem bblk_apply (c : Dev nD) (t : Fin cfg2.N) (j : Fin 128) :
    bblk V c t (ix2 (0 : Fin 1) j) = barr V c (ix2 (0 : Fin 1) j) := by
  obtain ⟨-, -, -, -, -, -, -, -, e0, e1, -⟩ := idx_facts t
  show V c main_v56 (((cfg2.win 4).blk t).view.emb (ix2 (0 : Fin 1) j)) = V c main_v56 _
  refine congrArg (V c main_v56) ?_
  funext a; apply Fin.ext
  match a with
  | ⟨0, _⟩ => show win2_4.index t (0 : Fin 2) * 1 + 1 * 0 = 0; omega
  | ⟨1, _⟩ => show win2_4.index t (1 : Fin 2) * 128 + 1 * j.val = j.val; omega

end Blocks

/-! ## The running total, point by point -/

section Invariant

/-- The summand of channel `j` at row `r`: the normalised, scaled and shifted entry. -/
abbrev term (c : Dev nD) (j : Fin 128) (r : Fin 100000) : EReal :=
  Cert.Spec.normAt (V c main_v43_0) (V c main_v45 (ix2 (0 : Fin 1) (0 : Fin 1))) (V c main_v54 (ix2 (0 : Fin 1) (0 : Fin 1)))
    (V c main_v55) (V c main_v56) r j

/-- The block's contribution to channel `j` at point `t`, read off the arrays. -/
theorem block_term (c : Dev nD) (t : Fin cfg2.N) (j : Fin 128) (r : Fin 4000) :
    (xblk V c t (ix2 r j) - mublk V c t (ix2 (0 : Fin 1) (0 : Fin 1))) * ivblk V c t (ix2 (0 : Fin 1) (0 : Fin 1))
        * gblk V c t (ix2 (0 : Fin 1) j) + bblk V c t (ix2 (0 : Fin 1) j)
      = term V c j ⟨4000 * t.val + r.val, row_lt t r⟩ := by
  rw [xblk_apply, mublk_apply, ivblk_apply, gblk_apply, bblk_apply]
  rfl

/-- The first point leaves, at channel `j`, zero plus its block's sum. -/
theorem step_A (c : Dev nD) (t : Fin cfg2.N) (h0 : t.val % 25 = 0) (j : Fin 128) :
    outsAt2 V c t.val t.isLt (ix2 (0 : Fin 1) j)
      = 0 + ∑ r : Fin 4000, term V c j ⟨4000 * t.val + r.val, row_lt t r⟩ := by
  rw [outsAt2_A V c t h0]
  refine (congrFun (piece_A (F := Ideal) c (grid2.coords t) (ms2_0 t) (hs2_0 t) (ms2_1 t) (hs2_1 t) (ms2_2 t) (hs2_2 t)
    (ms2_3 t) (hs2_3 t) (ms2_4 t) (hs2_4 t) (ms2_5 t) (hs2_5 t) ((hcond2_0 t).mpr h0)
    (xblk V c t) (mublk V c t) (ivblk V c t) (gblk V c t) (bblk V c t)) (ix2 (0 : Fin 1) j)).trans ?_
  refine (pay2_apply (xblk V c t) (mublk V c t) (ivblk V c t) (gblk V c t) (bblk V c t) (k2_pay1 (F := Ideal)) j).trans ?_
  refine congrArg₂ (· + ·) ?_ (Finset.sum_congr rfl fun r _ => block_term V c t j r)
  exact Ideal.ofBits_zero_f32

/-- A later point leaves, at channel `j`, what the point before left plus its block's sum. -/
theorem step_B (c : Dev nD) (t : Fin cfg2.N) (h0 : ¬t.val % 25 = 0) (j : Fin 128) :
    outsAt2 V c t.val t.isLt (ix2 (0 : Fin 1) j)
      = outsAt2 V c (t.val - 1) (Nat.lt_of_le_of_lt (Nat.sub_le _ _) t.isLt) (ix2 (0 : Fin 1) j)
        + ∑ r : Fin 4000, term V c j ⟨4000 * t.val + r.val, row_lt t r⟩ := by
  rw [outsAt2_B V c t h0]
  refine (congrFun (piece_B (F := Ideal) c (grid2.coords t) (ms2_0 t) (hs2_0 t) (ms2_1 t) (hs2_1 t) (ms2_2 t) (hs2_2 t)
    (ms2_3 t) (hs2_3 t) (ms2_4 t) (hs2_4 t) (ms2_5 t) (hs2_5 t) (fun h => h0 ((hcond2_0 t).mp h))
    (xblk V c t) (mublk V c t) (ivblk V c t) (gblk V c t) (bblk V c t)
    (outsAt2 V c (t.val - 1) (Nat.lt_of_le_of_lt (Nat.sub_le _ _) t.isLt))) (ix2 (0 : Fin 1) j)).trans ?_
  refine (pay2_apply (xblk V c t) (mublk V c t) (ivblk V c t) (gblk V c t) (bblk V c t)
    (outsAt2 V c (t.val - 1) (Nat.lt_of_le_of_lt (Nat.sub_le _ _) t.isLt)) j).trans ?_
  exact congrArg (_ + ·) (Finset.sum_congr rfl fun r _ => block_term V c t j r)

/-- After point `n` the row holds, at channel `j`, the running total over the first `n + 1` blocks of rows. -/
theorem acc_inv (c : Dev nD) (j : Fin 128) : ∀ (n : ℕ) (h : n < cfg2.N),
    outsAt2 V c n h (ix2 (0 : Fin 1) j) = Cert.LibBlockSum.blockAcc rows (term V c j) (n + 1)
  | 0, h => by
    rw [Cert.LibBlockSum.blockAcc_succ' rows (term V c j) (by norm_num : 0 < 25), Cert.LibBlockSum.blockAcc_zero]
    exact step_A V c ⟨0, h⟩ rfl j
  | n + 1, h => by
    have hN : n + 1 < 25 := lt_of_lt_of_eq h N_2
    have hB : ¬(⟨n + 1, h⟩ : Fin cfg2.N).val % 25 = 0 := by dsimp only; omega
    rw [Cert.LibBlockSum.blockAcc_succ' rows (term V c j) hN, ← acc_inv c j n (Nat.lt_of_succ_lt h)]
    exact step_B V c ⟨n + 1, h⟩ hB j

end Invariant

/-! ## The array after the region -/

section Final

/-- The pooled row of the arrays the region finds. -/
abbrev pooled (c : Dev nD) : Vec Ideal S1x128 .f32 :=
  Cert.Spec.pool (V c main_v43_0) (V c main_v45 (ix2 (0 : Fin 1) (0 : Fin 1))) (V c main_v54 (ix2 (0 : Fin 1) (0 : Fin 1)))
    (V c main_v55) (V c main_v56)

/-- Two rows of 128 channels are equal when they agree at every channel. -/
theorem row_ext (f g : Vec Ideal S1x128 .f32) (h : ∀ j : Fin 128, f (ix2 (0 : Fin 1) j) = g (ix2 (0 : Fin 1) j)) :
    f = g := by
  funext i
  obtain ⟨p, q, rfl⟩ : ∃ (p : Fin 1) (q : Fin 128), i = ix2 p q := ⟨i 0, i 1, eq_ix2 i⟩
  obtain rfl : p = 0 := Subsingleton.elim _ _
  exact h q

/-- The one write-back, after the last point, writes the pooled row: by then the running total has taken every
    block of rows, and the output's one block is its whole array. -/
theorem flushed_eq (c : Dev nD) (t : Fin cfg2.N) (hf : (cfg2.win 5).flush t = true) :
    (dat2 V c).flushed 5 t = ((cfg2.win 5).blk t).view.read (Elt Ideal) (pooled V c) := by
  have h24 : t.val % 25 = 24 := (flush2_5 t).mp hf
  have hN : t.val < 25 := lt_of_lt_of_eq t.isLt (show cfg2.N = 25 from N_2)
  obtain ⟨-, -, -, -, -, -, -, -, -, -, e0, e1⟩ := idx_facts t
  have hX : outsAt2 V c t.val t.isLt = pooled V c := row_ext _ _ fun j => by
    rw [acc_inv V c j t.val t.isLt, show t.val + 1 = 25 by omega, Cert.LibBlockSum.blockAcc_last]
    rfl
  have hz' : (fun a => win2_5.index t a * main_v57.ty.shape.size a) = fun _ => 0 := funext fun a => by
    match a with
    | ⟨0, _⟩ => show win2_5.index t (0 : Fin 2) * 1 = 0; omega
    | ⟨1, _⟩ => show win2_5.index t (1 : Fin 2) * 128 = 0; omega
  show (cfg2.win 5).cut (grid2.coords t) ((dat2 V c).after 5 t) = _
  rw [after2_5, hX]
  exact (Memref.read_access_unit_zero (Elt Ideal) main_v57 hz' (fun a => by rw [congrFun hz' a]; simp) (pooled V c)).symm

/-- An index of the row is in point `t`'s block iff each coordinate is in the block's range on its axis. -/
theorem mem_blk (t : Fin cfg2.N) (i : S1x128.Idx) :
    i ∈ ((cfg2.win 5).blk t).view.set
      ↔ ∀ a : Fin 2, win2_5.index t a * S1x128.size a ≤ (i a).val ∧ (i a).val < win2_5.index t a * S1x128.size a + S1x128.size a := by
  show i ∈ ((View.whole main_v57).slice (win2_5.rect t)).set ↔ _
  rw [View.set_slice_whole, Rect.mem_set_unit]
  exact Iff.rfl

/-- The last point writes back, and its block is the whole row. -/
theorem covered (i : S1x128.Idx) :
    ∃ t : Fin cfg2.N, (cfg2.win 5).flush t = true ∧ i ∈ ((cfg2.win 5).blk t).view.set := by
  have h24 : 24 < cfg2.N := by rw [show cfg2.N = 25 from N_2]; norm_num
  obtain ⟨-, -, -, -, -, -, -, -, -, -, e0, e1⟩ := idx_facts ⟨24, h24⟩
  refine ⟨⟨24, h24⟩, (flush2_5 _).mpr rfl, ?_⟩
  rw [mem_blk]
  intro a
  have h0 : (i 0).val < 1 := (i 0).isLt
  have h1 : (i 1).val < 128 := (i 1).isLt
  match a with
  | ⟨0, _⟩ => show win2_5.index ⟨24, h24⟩ (0 : Fin 2) * 1 ≤ (i 0).val ∧ (i 0).val < win2_5.index ⟨24, h24⟩ (0 : Fin 2) * 1 + 1; omega
  | ⟨1, _⟩ => show win2_5.index ⟨24, h24⟩ (1 : Fin 2) * 128 ≤ (i 1).val ∧ (i 1).val < win2_5.index ⟨24, h24⟩ (1 : Fin 2) * 128 + 128; omega

end Final

/-- After the region the output array holds the pooled row: its one block is revisited at every point, reset at the
    first, added to at each, and written back once, after the last. -/
theorem pooled_value (c : Dev nD) :
    (dat2 (F := Ideal) V c).arrAt 5 cfg2.N
      = Cert.Spec.pool (V c main_v43_0) (V c main_v45 (ix2 (0 : Fin 1) (0 : Fin 1))) (V c main_v54 (ix2 (0 : Fin 1) (0 : Fin 1)))
          (V c main_v55) (V c main_v56) := by
  exact (dat2 V c).arrAt_eq_of_cover 5 (pooled V c) (flushed_eq V c) (fun i => covered i)

end Cert.KernelIdeal.Reg2

end
-- ==== Proof.RTerms.lean ====
/-
  The host operations the program applies around its dense layers, named as functions.

  From the edge list (two rows of node numbers: sources and destinations) the program computes, in this order: the
  two rows as vectors; each node number made non-negative by adding the node count to a negative one; a node's
  degree, the count of edges that end at it plus one for its own loop; the reciprocal square root of the degree; an
  edge's weight, the product of that root at its two ends; and, from an array h of node rows, the sum over the
  edges that end at a node of the source's row times the edge's weight.  After the pooling the program applies a
  small head to the pooled row joined with the state row: a dense layer, the rectifier, a second dense layer, and
  the logarithm of the normalised exponentials.  Each is a definition over arrays at any float instance; nothing
  is proved about them here.
-/
import proofs.«170314_j33887291965745_1_alg».proof.Proof.Gen.ReferenceIdeal

noncomputable section

namespace Cert.ReferenceIdeal.Terms

open Cert.ReferenceIdeal Cert.ReferenceIdeal.Gen Idealize.ShloMosaic

variable {F : FTy → Type} [FloatOps F]

/-- The edges' source nodes: row 0 of the edge list, as a vector. -/
def srcOf (ei : IVec S2x1600000 32) : IVec S1600000 32 :=
  shapeCast S1600000 (extractStridedSlice S1x1600000 ![0, 0] ei slices_S2x1600000_S1x1600000_0_0) shapeCasts_S1x1600000_S1600000

/-- The edges' destination nodes: row 1 of the edge list, as a vector. -/
def dstOf (ei : IVec S2x1600000 32) : IVec S1600000 32 :=
  shapeCast S1600000 (extractStridedSlice S1x1600000 ![1, 0] ei slices_S2x1600000_S1x1600000_1_0) shapeCasts_S1x1600000_S1600000

/-- A node number below zero counts from the end: the node count is added to it. -/
def fixIdx (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

/-- A vector of node numbers as a one-column index array. -/
def colOf (x : IVec S1600000 32) : IVec S1600000x1 32 :=
  broadcastInDim S1600000x1 ![0] bcast_S1600000_S1600000x1_0 x

/-- The reciprocal square root of each node's degree (the edges ending at it, plus one). -/
def disOf (dst : IVec S1600000 32) : FVec F S100000 .f32 :=
  Host.rsqrt (addf
    (Host.scatterAdd scatter_S100000_S1600000x1_S1600000_n_0_0_1
      (broadcastInDim S100000 ![] bcast_S_S100000 (constant S_ .f32 0x00000000#32))
      (colOf dst)
      (broadcastInDim S1600000 ![] bcast_S_S1600000 (constant S_ .f32 0x3F800000#32)))
    (broadcastInDim S100000 ![] bcast_S_S100000 (constant S_ .f32 0x3F800000#32)))

/-- Each edge's weight: the degree roots at its source and at its destination, multiplied. -/
def normOf (src dst : IVec S1600000 32) : FVec F S1600000 .f32 :=
  mulf (Host.gather gather_S100000_S1600000x1_S1600000_n_0_n_n_0_1_1 (disOf (F := F) dst) (colOf (fixIdx src)))
    (Host.gather gather_S100000_S1600000x1_S1600000_n_0_n_n_0_1_1 (disOf (F := F) dst) (colOf (fixIdx dst)))

/-- The neighbours' sum: at each node, over the edges ending there, the source's row of `h` times the edge's weight. -/
def aggOf (src dst : IVec S1600000 32) (norm : FVec F S1600000 .f32) (h : FVec F S100000x128 .f32) : FVec F S100000x128 .f32 :=
  Host.scatterAdd scatter_S100000x128_S1600000x1_S1600000x128_1_0_0_1
    (broadcastInDim S100000x128 ![] bcast_S_S100000x128 (constant S_ .f32 0x00000000#32))
    (colOf dst)
    (mulf (Host.gather gather_S100000x128_S1600000x1_S1600000x128_1_0_n_n_0_1_1128 h (colOf (fixIdx src)))
      (broadcastInDim S1600000x128 ![0, 1] bcast_S1600000x1_S1600000x128_0_1
        (broadcastInDim S1600000x1 ![0] bcast_S1600000_S1600000x1_0 norm)))

/-- The first dense layer of the head on the pooled row joined with the state row, rectified. -/
def hiddenOf (p : FVec F S1x128 .f32) (esn : FVec F S1x500 .f32) (w1 : FVec F S628x128 .f32) (b1 : FVec F S128 .f32) :
    FVec F S1x128 .f32 :=
  maximumf
    (addf (Host.dotGeneral dot_S1x628_S628x128_S1x128_1_0_0_1_n_n none
        (concatenate S1x628 1 [⟨S1x128, p⟩, ⟨S1x500, esn⟩] concatenates_S1x128_S1x500_S1x628_d1) w1)
      (broadcastInDim S1x128 ![1] bcast_S128_S1x128_1 b1))
    (broadcastInDim S1x128 ![] bcast_S_S1x128 (constant S_ .f32 0x00000000#32))

/-- The second dense layer of the head. -/
def logitsOf (z : FVec F S1x128 .f32) (w2 : FVec F S128x16 .f32) (b2 : FVec F S16 .f32) : FVec F S1x16 .f32 :=
  addf (Host.dotGeneral dot_S1x128_S128x16_S1x16_1_0_0_1_n_n none z w2) (broadcastInDim S1x16 ![1] bcast_S16_S1x16_1 b2)

/-- The logits less their maximum. -/
def shiftedOf (l : FVec F S1x16 .f32) : FVec F S1x16 .f32 :=
  subf l (broadcastInDim S1x16 ![0, 1] bcast_S1x1_S1x16_0_1 (broadcastInDim S1x1 ![0] bcast_S1_S1x1_0
    (maximumf (broadcastInDim S1 ![] bcast_S_S1 (constant S_ .f32 0xFF800000#32))
      (Host.reduce FloatOps.maximumf l (constant S_ .f32 0xFF800000#32) reducesTo_S1x16_S1_d1 h_S_))))

/-- The logarithm of the normalised exponentials of the logits. -/
def logSoftmaxOf (l : FVec F S1x16 .f32) : FVec F S1x16 .f32 :=
  subf (shiftedOf l) (broadcastInDim S1x16 ![0, 1] bcast_S1x1_S1x16_0_1 (Host.log (broadcastInDim S1x1 ![0] bcast_S1_S1x1_0
    (Host.reduceAdd (Host.exp (shiftedOf l)) (constant S_ .f32 0x00000000#32) reducesTo_S1x16_S1_d1 h_S_))))

/-- The head: from the pooled row to the result. -/
def headOf (p : FVec F S1x128 .f32) (esn : FVec F S1x500 .f32) (w1 : FVec F S628x128 .f32) (b1 : FVec F S128 .f32)
    (w2 : FVec F S128x16 .f32) (b2 : FVec F S16 .f32) : FVec F S1x16 .f32 :=
  logSoftmaxOf (logitsOf (hiddenOf p esn w1 b1) w2 b2)

/-- The linear layer as one matrix product. -/
def linOf (f : FVec F S100000x2 .f32) (w : FVec F S2x128 .f32) : FVec F S100000x128 .f32 :=
  Host.dotGeneral dot_S100000x2_S2x128_S100000x128_1_0_0_1_n_n none f w

/-- A length-128 vector repeated down the 100000 rows. -/
def rowsOf (v : FVec F S128 .f32) : FVec F S100000x128 .f32 :=
  broadcastInDim S100000x128 ![0, 1] bcast_S1x128_S100000x128_0_1 (broadcastInDim S1x128 ![1] bcast_S128_S1x128_1 v)

/-- The combined, rectified array: neighbours' sum plus own row times the squared degree root plus the bias, floored at
    zero. -/
def combOf (a h : FVec F S100000x128 .f32) (dis : FVec F S100000 .f32) (gb : FVec F S128 .f32) : FVec F S100000x128 .f32 :=
  maximumf
    (addf (addf a (mulf h (broadcastInDim S100000x128 ![0, 1] bcast_S100000x1_S100000x128_0_1
        (broadcastInDim S100000x1 ![0] bcast_S100000_S100000x1_0 (mulf dis dis))))) (rowsOf gb))
    (broadcastInDim S100000x128 ![] bcast_S_S100000x128 (constant S_ .f32 0x00000000#32))

/-- The total of an array, from zero. -/
def sumOf (x : FVec F S100000x128 .f32) : FVec F S_ .f32 :=
  Host.reduceAdd x (constant S_ .f32 0x00000000#32) reducesTo_S100000x128_S_d0_1 h_S_

/-- The array less its mean. -/
def cenOf (x : FVec F S100000x128 .f32) : FVec F S100000x128 .f32 :=
  subf x (broadcastInDim S100000x128 ![] bcast_S_S100000x128 (Host.divf (sumOf x) (constant S_ .f32 0x4B435000#32)))

/-- The number of entries less the degrees of freedom taken off (none). -/
def cntOf : FVec F S_ .f32 := subf (constant S_ .f32 0x4B435000#32) (sitofp .f32 (constantI S_ 32 0#32))

/-- An array less its own mean once more, as the two-pass variance takes it. -/
def recOf (y : FVec F S100000x128 .f32) : FVec F S100000x128 .f32 :=
  subf y (broadcastInDim S100000x128 ![0, 1] bcast_S1x1_S100000x128_0_1
    (Host.divf (broadcastInDim S1x1 ![] bcast_S_S1x1 (sumOf y)) (broadcastInDim S1x1 ![] bcast_S_S1x1 (constant S_ .f32 0x4B435000#32))))

/-- The two-pass variance, chosen over a not-a-number filler when the count is positive. -/
def varOf (y : FVec F S100000x128 .f32) : FVec F S_ .f32 :=
  select (cmpf .ogt (cntOf (F := F)) (constant S_ .f32 0x00000000#32))
    (Host.divf (sumOf (mulf (recOf y) (recOf y))) (cntOf (F := F)))
    (id (constant S_ .f32 0x7FC00000#32))

/-- The deviation plus the small constant. -/
def devOf (y : FVec F S100000x128 .f32) : FVec F S_ .f32 :=
  addf (Host.sqrt (varOf y)) (constant S_ .f32 0x3727C5AC#32)

/-- The normalised, scaled and shifted array. -/
def normedOf (y : FVec F S100000x128 .f32) (lw lb : FVec F S128 .f32) : FVec F S100000x128 .f32 :=
  addf (mulf (Host.divf y (broadcastInDim S100000x128 ![] bcast_S_S100000x128 (devOf y))) (rowsOf lw)) (rowsOf lb)

/-- The pooled row: the column sums, as a row. -/
def pooledOf (z : FVec F S100000x128 .f32) : FVec F S1x128 .f32 :=
  broadcastInDim S1x128 ![1] bcast_S128_S1x128_1
    (Host.reduceAdd z (constant S_ .f32 0x00000000#32) reducesTo_S100000x128_S128_d0 h_S_)

end Cert.ReferenceIdeal.Terms

end
-- ==== Proof.Forms.lean ====
/-
  The pooled row, as each program computes it from the inputs.

  Both programs reduce the graph to one row of 128 numbers and apply the same head to it.  Here the two rows are
  written as functions of the six inputs they depend on: the node features f, the edge list e, the linear layer's
  weights w, the bias γ, and the scale and shift rows λ and β.

    • The tiled program: x = the combined, rectified array of the linear layer h = lin f w (entry by entry), its
      neighbours' sum, the loop weights and the bias; the two totals Σ x and Σ x²; the mean μ = Σx / n, the variance
      Σx² / n − μ², the reciprocal ι = 1 / (√variance + ε); the pooled row Σ_r ((x − μ) · ι · λ + β).
    • The array program: the same x from whole-array operations (the linear layer one matrix product); x less its
      mean; the two-pass variance of that; the quotient by (√variance + ε), scaled and shifted; the column sums.
-/
import proofs.«170314_j33887291965745_1_alg».proof.Proof.KTerms
import proofs.«170314_j33887291965745_1_alg».proof.Proof.RTerms
import proofs.«170314_j33887291965745_1_alg».proof.Proof.Spec

noncomputable section

namespace Cert.Forms

open Idealize.ShloMosaic Idealize.ShloMosaic.ValueIdx

/-- The tiled program's combined, rectified array. -/
def xK (f : FVec Ideal Cert.KernelIdeal.S100000x2 .f32) (e : IVec Cert.KernelIdeal.S2x1600000 32)
    (w : FVec Ideal Cert.KernelIdeal.S2x128 .f32) (γ : FVec Ideal Cert.KernelIdeal.S128 .f32) : Cert.Spec.SNxH.Idx → EReal :=
  Cert.Spec.comb
    (Cert.KernelIdeal.Terms.aggOf (F := Ideal) (Cert.KernelIdeal.Terms.srcOf e) (Cert.KernelIdeal.Terms.dstOf e)
      (Cert.KernelIdeal.Terms.normOf (Cert.KernelIdeal.Terms.srcOf e) (Cert.KernelIdeal.Terms.dstOf e)) (Cert.Spec.lin f w))
    (Cert.Spec.lin f w) (Cert.KernelIdeal.Terms.slOf (F := Ideal) (Cert.KernelIdeal.Terms.dstOf e))
    (Cert.KernelIdeal.Terms.rowOf (F := Ideal) γ) (Ideal.ofBits .f32 0x00000000#32)

/-- The tiled program's pooled row. -/
def pooledK (f : FVec Ideal Cert.KernelIdeal.S100000x2 .f32) (e : IVec Cert.KernelIdeal.S2x1600000 32)
    (w : FVec Ideal Cert.KernelIdeal.S2x128 .f32) (γ lw lb : FVec Ideal Cert.KernelIdeal.S128 .f32) :
    FVec Ideal Cert.KernelIdeal.S1x128 .f32 :=
  Cert.Spec.pool (xK f e w γ)
    (Cert.KernelIdeal.Terms.meanOf (F := Ideal) (fun _ => Cert.Spec.total (xK f e w γ)) (ix2 (0 : Fin 1) (0 : Fin 1)))
    (Cert.KernelIdeal.Terms.invOf (F := Ideal) (fun _ => Cert.Spec.total (xK f e w γ)) (fun _ => Cert.Spec.totalSq (xK f e w γ))
      (ix2 (0 : Fin 1) (0 : Fin 1)))
    (Cert.KernelIdeal.Terms.rowOf (F := Ideal) lw) (Cert.KernelIdeal.Terms.rowOf (F := Ideal) lb)

/-- The array program's combined, rectified array. -/
def xR (f : FVec Ideal Cert.ReferenceIdeal.S100000x2 .f32) (e : IVec Cert.ReferenceIdeal.S2x1600000 32)
    (w : FVec Ideal Cert.ReferenceIdeal.S2x128 .f32) (γ : FVec Ideal Cert.ReferenceIdeal.S128 .f32) :
    FVec Ideal Cert.ReferenceIdeal.S100000x128 .f32 :=
  Cert.ReferenceIdeal.Terms.combOf (F := Ideal)
    (Cert.ReferenceIdeal.Terms.aggOf (F := Ideal) (Cert.ReferenceIdeal.Terms.srcOf e) (Cert.ReferenceIdeal.Terms.dstOf e)
      (Cert.ReferenceIdeal.Terms.normOf (Cert.ReferenceIdeal.Terms.srcOf e) (Cert.ReferenceIdeal.Terms.dstOf e))
      (Cert.ReferenceIdeal.Terms.linOf f w))
    (Cert.ReferenceIdeal.Terms.linOf f w) (Cert.ReferenceIdeal.Terms.disOf (Cert.ReferenceIdeal.Terms.dstOf e)) γ

/-- The array program's pooled row. -/
def pooledR (f : FVec Ideal Cert.ReferenceIdeal.S100000x2 .f32) (e : IVec Cert.ReferenceIdeal.S2x1600000 32)
    (w : FVec Ideal Cert.ReferenceIdeal.S2x128 .f32) (γ lw lb : FVec Ideal Cert.ReferenceIdeal.S128 .f32) :
    FVec Ideal Cert.ReferenceIdeal.S1x128 .f32 :=
  Cert.ReferenceIdeal.Terms.pooledOf (F := Ideal)
    (Cert.ReferenceIdeal.Terms.normedOf (F := Ideal) (Cert.ReferenceIdeal.Terms.cenOf (F := Ideal) (xR f e w γ)) lw lb)

end Cert.Forms

end
-- ==== Proof.KHost.lean ====
import proofs.«170314_j33887291965745_1_alg».proof.Proof.KHostOps
import proofs.«170314_j33887291965745_1_alg».proof.Proof.KReg0
import proofs.«170314_j33887291965745_1_alg».proof.Proof.KReg1
import proofs.«170314_j33887291965745_1_alg».proof.Proof.KReg2
import proofs.«170314_j33887291965745_1_alg».proof.Proof.Forms
set_option maxRecDepth 16384

noncomputable section

namespace Cert.KernelIdeal.Host

open Cert.KernelIdeal Cert.KernelIdeal.Gen Cert.KernelIdeal.Terms Cert.KernelIdeal.HostOps
open Idealize.ShloMosaic Idealize.ShloMosaic.TcCoe Idealize.SL.Sem Idealize.ShloMosaic.StableHlo Idealize.ShloMosaic.ValueIdx

/-- Decides that no operation of a literal stretch writes a given buffer. -/
local macro "not_written" : tactic =>
  `(tactic| (refine List.forall_iff_forall_mem.mp ?_
             simp only [hostOps0, hostOps1, hostOps2, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg)

/-! ## A buffer nothing has written yet is at its launch contents -/

/-- At the first region's entry. -/
theorem k1 (c : Dev nD) (b : Ref sig .tc)
    (h0 : ∀ op ∈ (hostOps0 : List (HloOp τ sig (Elt Ideal))), Proc.devRef .tc b ∉ op.writes) :
    W1 m ρ c (Proc.devRef .tc b) = m ((c : Thread nD τ).loc b) :=
  (StableHlo.after_of_forall_not_mem (b := Proc.devRef .tc b) _ _ h0).trans rfl

/-- At the first region's exit. -/
theorem k2 (c : Dev nD) (b : Ref sig .tc) (n0 : ∀ w, Pipeline.arrRef spec0 w ≠ b)
    (h0 : ∀ op ∈ (hostOps0 : List (HloOp τ sig (Elt Ideal))), Proc.devRef .tc b ∉ op.writes) :
    W2 m ρ c (Proc.devRef .tc b) = m ((c : Thread nD τ).loc b) :=
  (W2_of_ne m ρ c b n0).trans (k1 m ρ c b h0)

/-- At the second region's entry. -/
theorem k3 (c : Dev nD) (b : Ref sig .tc) (n0 : ∀ w, Pipeline.arrRef spec0 w ≠ b)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes) :
    W3 m ρ c (Proc.devRef .tc b) = m ((c : Thread nD τ).loc b) :=
  (StableHlo.after_of_forall_not_mem (b := Proc.devRef .tc b) _ _ h1).trans (k2 m ρ c b n0 h0)

/-- At the second region's exit. -/
theorem k4 (c : Dev nD) (b : Ref sig .tc) (n0 : ∀ w, Pipeline.arrRef spec0 w ≠ b) (n1 : ∀ w, Pipeline.arrRef spec1 w ≠ b)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes) :
    W4 m ρ c (Proc.devRef .tc b) = m ((c : Thread nD τ).loc b) :=
  (W4_of_ne m ρ c b n1).trans (k3 m ρ c b n0 h0 h1)

/-- At the third region's exit. -/
theorem k6 (c : Dev nD) (b : Ref sig .tc) (n0 : ∀ w, Pipeline.arrRef spec0 w ≠ b) (n1 : ∀ w, Pipeline.arrRef spec1 w ≠ b)
    (n2 : ∀ w, Pipeline.arrRef spec2 w ≠ b)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (h2 : ∀ op ∈ (hostOps2 : List (HloOp τ sig (Elt Ideal))), Proc.devRef .tc b ∉ op.writes) :
    W6 m ρ c (Proc.devRef .tc b) = m ((c : Thread nD τ).loc b) :=
  (W6_of_ne m ρ c b n2).trans ((StableHlo.after_of_forall_not_mem (b := Proc.devRef .tc b) _ _ h2).trans (k4 m ρ c b n0 n1 h0 h1))

/-! ## The first region and the stretch before it -/

/-- The linear layer's array after the first region. -/
theorem w2_v28 (c : Dev nD) :
    W2 m ρ c (Proc.devRef .tc main_v28)
      = Cert.Spec.lin (m ((c : Thread nD τ).loc main_arg0)) (m ((c : Thread nD τ).loc main_arg3)) := by
  refine (W2_arr m ρ c 2).trans ((Cert.KernelIdeal.Reg0.value (V1 m ρ) c).trans ?_)
  rw [show V1 m ρ c main_arg0 = m ((c : Thread nD τ).loc main_arg0) from k1 m ρ c main_arg0 (by not_written),
    show V1 m ρ c main_arg3 = m ((c : Thread nD τ).loc main_arg3) from k1 m ρ c main_arg3 (by not_written)]

/-- The edges' sources after the first region. -/
theorem w2_v1 (c : Dev nD) : W2 m ρ c (Proc.devRef .tc main_v1) = srcOf (m ((c : Thread nD τ).loc main_arg1)) :=
  (W2_of_ne m ρ c main_v1 (by decide)).trans (h0_v1 (W0 m ρ c))

/-- The edges' destinations after the first region. -/
theorem w2_v3 (c : Dev nD) : W2 m ρ c (Proc.devRef .tc main_v3) = dstOf (m ((c : Thread nD τ).loc main_arg1)) :=
  (W2_of_ne m ρ c main_v3 (by decide)).trans (h0_v3 (W0 m ρ c))

/-- The loop weights after the first region. -/
theorem w2_v12 (c : Dev nD) :
    W2 m ρ c (Proc.devRef .tc main_v12) = slOf (F := Ideal) (dstOf (m ((c : Thread nD τ).loc main_arg1))) :=
  (W2_of_ne m ρ c main_v12 (by decide)).trans (h0_v12 (W0 m ρ c))

/-- The edge weights after the first region. -/
theorem w2_v27 (c : Dev nD) :
    W2 m ρ c (Proc.devRef .tc main_v27)
      = normOf (F := Ideal) (srcOf (m ((c : Thread nD τ).loc main_arg1))) (dstOf (m ((c : Thread nD τ).loc main_arg1))) :=
  (W2_of_ne m ρ c main_v27 (by decide)).trans (h0_v27 (W0 m ρ c))

/-! ## The second region and the stretch before it -/

/-- The combined, rectified array the second region computes, of the launch contents. -/
theorem xOf_eq (c : Dev nD) :
    Cert.KernelIdeal.Reg1.xOf (V3 m ρ) c
      = Cert.Forms.xK (m ((c : Thread nD τ).loc main_arg0)) (m ((c : Thread nD τ).loc main_arg1))
          (m ((c : Thread nD τ).loc main_arg3)) (m ((c : Thread nD τ).loc main_arg4)) := by
  have e41 : V3 m ρ c main_v41 = aggOf (F := Ideal) (srcOf (m ((c : Thread nD τ).loc main_arg1))) (dstOf (m ((c : Thread nD τ).loc main_arg1)))
      (normOf (F := Ideal) (srcOf (m ((c : Thread nD τ).loc main_arg1))) (dstOf (m ((c : Thread nD τ).loc main_arg1))))
      (Cert.Spec.lin (m ((c : Thread nD τ).loc main_arg0)) (m ((c : Thread nD τ).loc main_arg3))) := by
    refine (h1_v41 (W2 m ρ c)).trans ?_
    rw [w2_v1, w2_v3, w2_v27, w2_v28]
  have e28 : V3 m ρ c main_v28 = Cert.Spec.lin (m ((c : Thread nD τ).loc main_arg0)) (m ((c : Thread nD τ).loc main_arg3)) :=
    (StableHlo.after_of_forall_not_mem (b := Proc.devRef .tc main_v28) _ _ (by not_written)).trans (w2_v28 m ρ c)
  have e12 : V3 m ρ c main_v12 = slOf (F := Ideal) (dstOf (m ((c : Thread nD τ).loc main_arg1))) :=
    (StableHlo.after_of_forall_not_mem (b := Proc.devRef .tc main_v12) _ _ (by not_written)).trans (w2_v12 m ρ c)
  have e42 : V3 m ρ c main_v42 = rowOf (F := Ideal) (m ((c : Thread nD τ).loc main_arg4)) := by
    refine (h1_v42 (W2 m ρ c)).trans ?_
    rw [k2 m ρ c main_arg4 (by decide) (by not_written)]
  unfold Cert.KernelIdeal.Reg1.xOf Cert.Forms.xK
  rw [e41, e28, e12, e42]

/-! ## The totals, the third region, and the head -/

/-- The combined, rectified array after the second region. -/
theorem w4_x (c : Dev nD) :
    W4 m ρ c (Proc.devRef .tc main_v43_0)
      = Cert.Forms.xK (m ((c : Thread nD τ).loc main_arg0)) (m ((c : Thread nD τ).loc main_arg1))
          (m ((c : Thread nD τ).loc main_arg3)) (m ((c : Thread nD τ).loc main_arg4)) :=
  (W4_arr m ρ c 4).trans ((Cert.KernelIdeal.Reg1.x_value (V3 m ρ) c).trans (xOf_eq m ρ c))

/-- Its total after the second region. -/
theorem w4_s (c : Dev nD) :
    W4 m ρ c (Proc.devRef .tc main_v43_1)
      = fun _ => Cert.Spec.total (Cert.Forms.xK (m ((c : Thread nD τ).loc main_arg0)) (m ((c : Thread nD τ).loc main_arg1))
          (m ((c : Thread nD τ).loc main_arg3)) (m ((c : Thread nD τ).loc main_arg4))) :=
  (W4_arr m ρ c 5).trans ((Cert.KernelIdeal.Reg1.sum_value (V3 m ρ) c).trans (by rw [xOf_eq]))

/-- The total of its squares after the second region. -/
theorem w4_q (c : Dev nD) :
    W4 m ρ c (Proc.devRef .tc main_v43_2)
      = fun _ => Cert.Spec.totalSq (Cert.Forms.xK (m ((c : Thread nD τ).loc main_arg0)) (m ((c : Thread nD τ).loc main_arg1))
          (m ((c : Thread nD τ).loc main_arg3)) (m ((c : Thread nD τ).loc main_arg4))) :=
  (W4_arr m ρ c 6).trans ((Cert.KernelIdeal.Reg1.sumsq_value (V3 m ρ) c).trans (by rw [xOf_eq]))

/-- The pooled row after the third region. -/
theorem w6_v57 (c : Dev nD) :
    W6 m ρ c (Proc.devRef .tc main_v57)
      = Cert.Forms.pooledK (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) := by
  refine (W6_arr m ρ c 5).trans ((Cert.KernelIdeal.Reg2.pooled_value (V5 m ρ) c).trans ?_)
  have e0 : V5 m ρ c main_v43_0 = Cert.Forms.xK (m ((c : Thread nD τ).loc main_arg0)) (m ((c : Thread nD τ).loc main_arg1))
      (m ((c : Thread nD τ).loc main_arg3)) (m ((c : Thread nD τ).loc main_arg4)) :=
    (h2_v43_0 (W4 m ρ c)).trans (w4_x m ρ c)
  have e45 : V5 m ρ c main_v45 = meanOf (F := Ideal) (fun _ => Cert.Spec.total (Cert.Forms.xK (m ((c : Thread nD τ).loc main_arg0))
      (m ((c : Thread nD τ).loc main_arg1)) (m ((c : Thread nD τ).loc main_arg3)) (m ((c : Thread nD τ).loc main_arg4)))) :=
    (h2_v45 (W4 m ρ c)).trans (congrArg (meanOf (F := Ideal)) (w4_s m ρ c))
  have e54 : V5 m ρ c main_v54 = invOf (F := Ideal)
      (fun _ => Cert.Spec.total (Cert.Forms.xK (m ((c : Thread nD τ).loc main_arg0))
        (m ((c : Thread nD τ).loc main_arg1)) (m ((c : Thread nD τ).loc main_arg3)) (m ((c : Thread nD τ).loc main_arg4))))
      (fun _ => Cert.Spec.totalSq (Cert.Forms.xK (m ((c : Thread nD τ).loc main_arg0))
        (m ((c : Thread nD τ).loc main_arg1)) (m ((c : Thread nD τ).loc main_arg3)) (m ((c : Thread nD τ).loc main_arg4)))) :=
    (h2_v54 (W4 m ρ c)).trans (congrArg₂ (invOf (F := Ideal)) (w4_s m ρ c) (w4_q m ρ c))
  have e55 : V5 m ρ c main_v55 = rowOf (F := Ideal) (m ((c : Thread nD τ).loc main_arg5)) :=
    (h2_v55 (W4 m ρ c)).trans (by rw [k4 m ρ c main_arg5 (by decide) (by decide) (by not_written) (by not_written)])
  have e56 : V5 m ρ c main_v56 = rowOf (F := Ideal) (m ((c : Thread nD τ).loc main_arg6)) :=
    (h2_v56 (W4 m ρ c)).trans (by rw [k4 m ρ c main_arg6 (by decide) (by decide) (by not_written) (by not_written)])
  unfold Cert.Forms.pooledK
  rw [e0, e45, e54, e55, e56]

/-- The result buffer at the last boundary is the head applied to the pooled row of the launch contents. -/
theorem out_eq (c : Dev nD) :
    W10 (F := Ideal) m ρ c (Proc.devRef .tc main_v66)
      = headOf (F := Ideal)
          (Cert.Forms.pooledK (m ((c : Thread nD τ).loc main_arg0)) (m ((c : Thread nD τ).loc main_arg1)) (m ((c : Thread nD τ).loc main_arg3))
            (m ((c : Thread nD τ).loc main_arg4)) (m ((c : Thread nD τ).loc main_arg5)) (m ((c : Thread nD τ).loc main_arg6)))
          (m ((c : Thread nD τ).loc main_arg2)) (m ((c : Thread nD τ).loc main_arg7)) (m ((c : Thread nD τ).loc main_arg8))
          (m ((c : Thread nD τ).loc main_arg9)) (m ((c : Thread nD τ).loc main_arg10)) := by
  refine (tail_v66 (W6 m ρ c)).trans ?_
  rw [w6_v57,
    k6 m ρ c main_arg2 (by decide) (by decide) (by decide) (by not_written) (by not_written) (by not_written),
    k6 m ρ c main_arg7 (by decide) (by decide) (by decide) (by not_written) (by not_written) (by not_written),
    k6 m ρ c main_arg8 (by decide) (by decide) (by decide) (by not_written) (by not_written) (by not_written),
    k6 m ρ c main_arg9 (by decide) (by decide) (by decide) (by not_written) (by not_written) (by not_written),
    k6 m ρ c main_arg10 (by decide) (by decide) (by decide) (by not_written) (by not_written) (by not_written)]

end Cert.KernelIdeal.Host

end
-- ==== Proof.RefOps.lean ====
/- The reference program as a straight line of host operations. -/
import proofs.«170314_j33887291965745_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem

variable {F : FTy → Type} [FloatOps F]

/-- @main's 127 operations, in order. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg3 main_v4 ((fun l r => Host.dotGeneral dot_S100000x2_S2x128_S100000x128_1_0_0_1_n_n none l r) : (⟨S100000x2, .f32⟩ : BufTy).Contents (Elt F) → (⟨S2x128, .f32⟩ : BufTy).Contents (Elt F) → (⟨S100000x128, .f32⟩ : BufTy).Contents (Elt F)),
    StableHlo.nullary main_cst (constant S_ .f32 0x3F800000#32),
    StableHlo.unary main_cst main_v5 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_v1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_v1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v4 main_v32 main_v33 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v33 main_v35 main_v36 (mulf : (⟨S1600000x128, .f32⟩ : BufTy).Contents (Elt F) → (⟨S1600000x128, .f32⟩ : BufTy).Contents (Elt F) → (⟨S1600000x128, .f32⟩ : BufTy).Contents (Elt F)),
    StableHlo.nullary main_cst_7 (constant S_ .f32 0x00000000#32),
    StableHlo.unary main_cst_7 main_v37 (broadcastInDim S100000x128 ![] bcast_S_S100000x128 : (⟨S_, .f32⟩ : BufTy).Contents (Elt F) → (⟨S100000x128, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v11 main_v11 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x128 ![0, 1] bcast_S100000x1_S100000x128_0_1 : (⟨S100000x1, .f32⟩ : BufTy).Contents (Elt F) → (⟨S100000x128, .f32⟩ : BufTy).Contents (Elt F)),
    StableHlo.binary main_v4 main_v42 main_v43 (mulf : (⟨S100000x128, .f32⟩ : BufTy).Contents (Elt F) → (⟨S100000x128, .f32⟩ : BufTy).Contents (Elt F) → (⟨S100000x128, .f32⟩ : BufTy).Contents (Elt F)),
    StableHlo.binary main_v39 main_v43 main_v44 (addf : (⟨S100000x128, .f32⟩ : BufTy).Contents (Elt F) → (⟨S100000x128, .f32⟩ : BufTy).Contents (Elt F) → (⟨S100000x128, .f32⟩ : BufTy).Contents (Elt F)),
    StableHlo.unary main_arg4 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v47 : StableHlo.TRef sig ⟨S100000x128, .f32⟩) main_call0.v0 main_call0.v1 maximumf,
    StableHlo.nullary main_cst_8 (constant S_ .f32 0x00000000#32),
    StableHlo.binary main_v48 main_cst_8 main_v49 ((fun x v => Host.reduceAdd x v reducesTo_S100000x128_S_d0_1 h_S_) : (⟨S100000x128, .f32⟩ : BufTy).Contents (Elt F) → (⟨S_, .f32⟩ : BufTy).Contents (Elt F) → (⟨S_, .f32⟩ : BufTy).Contents (Elt F)),
    StableHlo.nullary main_cst_9 (constant S_ .f32 0x4B435000#32),
    StableHlo.binary main_v49 main_cst_9 main_v50 (Host.divf : (⟨S_, .f32⟩ : BufTy).Contents (Elt F) → (⟨S_, .f32⟩ : BufTy).Contents (Elt F) → (⟨S_, .f32⟩ : BufTy).Contents (Elt F)),
    StableHlo.unary main_v50 main_v51 (broadcastInDim S100000x128 ![] bcast_S_S100000x128 : (⟨S_, .f32⟩ : BufTy).Contents (Elt F) → (⟨S100000x128, .f32⟩ : BufTy).Contents (Elt F)),
    StableHlo.binary main_v48 main_v51 main_v52 (subf : (⟨S100000x128, .f32⟩ : BufTy).Contents (Elt F) → (⟨S100000x128, .f32⟩ : BufTy).Contents (Elt F) → (⟨S100000x128, .f32⟩ : BufTy).Contents (Elt F)),
    StableHlo.nullary main_c_10 (constantI S_ 32 0#32),
    StableHlo.TRef.nullary main_call1.cst (constant S_ .f32 0x00000000#32),
    StableHlo.TRef.binary (.of main_v52 : StableHlo.TRef sig ⟨S100000x128, .f32⟩) main_call1.cst main_call1.v0 (fun x v => Host.reduceAdd x v reducesTo_S100000x128_S_d0_1 h_S_),
    StableHlo.TRef.unary main_call1.v0 main_call1.v1 (broadcastInDim S1x1 ![] bcast_S_S1x1),
    StableHlo.TRef.nullary main_call1.cst_0 (constant S_ .f32 0x4B435000#32),
    StableHlo.TRef.unary main_call1.cst_0 main_call1.v2 (broadcastInDim S1x1 ![] bcast_S_S1x1),
    StableHlo.TRef.binary main_call1.v1 main_call1.v2 main_call1.v3 Host.divf,
    StableHlo.TRef.unary main_call1.v3 main_call1.v4 (broadcastInDim S100000x128 ![0, 1] bcast_S1x1_S100000x128_0_1),
    StableHlo.TRef.binary (.of main_v52 : StableHlo.TRef sig ⟨S100000x128, .f32⟩) main_call1.v4 main_call1.v5 subf,
    StableHlo.TRef.binary main_call1.v5 main_call1.v5 main_call1.v6 mulf,
    StableHlo.TRef.unary (.of main_c_10 : StableHlo.TRef sig ⟨S_, .i32⟩) main_call1.v7 (sitofp .f32),
    StableHlo.TRef.nullary main_call1.cst_1 (constant S_ .f32 0x4B435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S_d0_1 h_S_),
    StableHlo.TRef.binary main_call1.v9 main_call1.v8 main_call1.v10 Host.divf,
    StableHlo.TRef.nullary main_call1.cst_3 (constant S_ .f32 0x00000000#32),
    StableHlo.TRef.binary main_call1.v8 main_call1.cst_3 main_call1.v11 (cmpf .ogt),
    StableHlo.TRef.nullary main_call1.cst_4 (constant S_ .f32 0x7FC00000#32),
    StableHlo.TRef.unary main_call1.cst_4 main_call1.call0.v0 id,
    StableHlo.TRef.ternary main_call1.v11 main_call1.v10 main_call1.call0.v0 main_call1.call0.v1 select,
    StableHlo.unary main_v53 main_v54 (Host.sqrt : (⟨S_, .f32⟩ : BufTy).Contents (Elt F) → (⟨S_, .f32⟩ : BufTy).Contents (Elt F)),
    StableHlo.nullary main_cst_11 (constant S_ .f32 0x3727C5AC#32),
    StableHlo.binary main_v54 main_cst_11 main_v55 (addf : (⟨S_, .f32⟩ : BufTy).Contents (Elt F) → (⟨S_, .f32⟩ : BufTy).Contents (Elt F) → (⟨S_, .f32⟩ : BufTy).Contents (Elt F)),
    StableHlo.unary main_v55 main_v56 (broadcastInDim S100000x128 ![] bcast_S_S100000x128 : (⟨S_, .f32⟩ : BufTy).Contents (Elt F) → (⟨S100000x128, .f32⟩ : BufTy).Contents (Elt F)),
    StableHlo.binary main_v52 main_v56 main_v57 (Host.divf : (⟨S100000x128, .f32⟩ : BufTy).Contents (Elt F) → (⟨S100000x128, .f32⟩ : BufTy).Contents (Elt F) → (⟨S100000x128, .f32⟩ : BufTy).Contents (Elt F)),
    StableHlo.unary main_arg5 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg6 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x00000000#32),
    StableHlo.binary main_v63 main_cst_12 main_v64 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_v64 main_v65 (broadcastInDim S1x128 ![1] bcast_S128_S1x128_1 : (⟨S128, .f32⟩ : BufTy).Contents (Elt F) → (⟨S1x128, .f32⟩ : BufTy).Contents (Elt F)),
    StableHlo.binary main_v65 main_arg2 main_v66 ((fun a b => concatenate S1x628 1 [⟨S1x128, a⟩, ⟨S1x500, b⟩] concatenates_S1x128_S1x500_S1x628_d1) : (⟨S1x128, .f32⟩ : BufTy).Contents (Elt F) → (⟨S1x500, .f32⟩ : BufTy).Contents (Elt F) → (⟨S1x628, .f32⟩ : BufTy).Contents (Elt F)),
    StableHlo.binary main_v66 main_arg7 main_v67 ((fun l r => Host.dotGeneral dot_S1x628_S628x128_S1x128_1_0_0_1_n_n none l r) : (⟨S1x628, .f32⟩ : BufTy).Contents (Elt F) → (⟨S628x128, .f32⟩ : BufTy).Contents (Elt F) → (⟨S1x128, .f32⟩ : BufTy).Contents (Elt F)),
    StableHlo.unary main_arg8 main_v68 (broadcastInDim S1x128 ![1] bcast_S128_S1x128_1 : (⟨S128, .f32⟩ : BufTy).Contents (Elt F) → (⟨S1x128, .f32⟩ : BufTy).Contents (Elt F)),
    StableHlo.binary main_v67 main_v68 main_v69 (addf : (⟨S1x128, .f32⟩ : BufTy).Contents (Elt F) → (⟨S1x128, .f32⟩ : BufTy).Contents (Elt F) → (⟨S1x128, .f32⟩ : BufTy).Contents (Elt F)),
    StableHlo.TRef.nullary main_call2.cst (constant S_ .f32 0x00000000#32),
    StableHlo.TRef.unary main_call2.cst main_call2.v0 (broadcastInDim S1x128 ![] bcast_S_S1x128),
    StableHlo.TRef.binary (.of main_v69 : StableHlo.TRef sig ⟨S1x128, .f32⟩) main_call2.v0 main_call2.v1 maximumf,
    StableHlo.binary main_v70 main_arg9 main_v71 ((fun l r => Host.dotGeneral dot_S1x128_S128x16_S1x16_1_0_0_1_n_n none l r) : (⟨S1x128, .f32⟩ : BufTy).Contents (Elt F) → (⟨S128x16, .f32⟩ : BufTy).Contents (Elt F) → (⟨S1x16, .f32⟩ : BufTy).Contents (Elt F)),
    StableHlo.unary main_arg10 main_v72 (broadcastInDim S1x16 ![1] bcast_S16_S1x16_1 : (⟨S16, .f32⟩ : BufTy).Contents (Elt F) → (⟨S1x16, .f32⟩ : BufTy).Contents (Elt F)),
    StableHlo.binary main_v71 main_v72 main_v73 (addf : (⟨S1x16, .f32⟩ : BufTy).Contents (Elt F) → (⟨S1x16, .f32⟩ : BufTy).Contents (Elt F) → (⟨S1x16, .f32⟩ : BufTy).Contents (Elt F)),
    StableHlo.TRef.nullary main_call3.cst (constant S_ .f32 0xFF800000#32),
    StableHlo.TRef.binary (.of main_v73 : StableHlo.TRef sig ⟨S1x16, .f32⟩) main_call3.cst main_call3.v0 (fun x v => Host.reduce FloatOps.maximumf x v reducesTo_S1x16_S1_d1 h_S_),
    StableHlo.TRef.nullary main_call3.cst_0 (constant S_ .f32 0xFF800000#32),
    StableHlo.TRef.unary main_call3.cst_0 main_call3.v1 (broadcastInDim S1 ![] bcast_S_S1),
    StableHlo.TRef.binary main_call3.v1 main_call3.v0 main_call3.v2 maximumf,
    StableHlo.TRef.unary main_call3.v2 main_call3.v3 (broadcastInDim S1x1 ![0] bcast_S1_S1x1_0),
    StableHlo.TRef.unary main_call3.v3 main_call3.v4 (broadcastInDim S1x16 ![0, 1] bcast_S1x1_S1x16_0_1),
    StableHlo.TRef.binary (.of main_v73 : StableHlo.TRef sig ⟨S1x16, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S1x16_S1_d1 h_S_),
    StableHlo.TRef.unary main_call3.v7 main_call3.v8 (broadcastInDim S1x1 ![0] bcast_S1_S1x1_0),
    StableHlo.TRef.unary main_call3.v8 main_call3.v9 Host.log,
    StableHlo.TRef.unary main_call3.v9 main_call3.v10 (broadcastInDim S1x16 ![0, 1] bcast_S1x1_S1x16_0_1),
    StableHlo.TRef.binary main_call3.v5 main_call3.v10 main_call3.v11 subf ]

/-- Each touches TensorCore references only. -/
theorem ops_sub : (ops : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub ..,
    StableHlo.unary_bufs_sub .., StableHlo.nullary_bufs_sub .., StableHlo.unary_bufs_sub .., StableHlo.unary_bufs_sub .., StableHlo.ternary_bufs_sub .., StableHlo.nullary_bufs_sub ..,
    StableHlo.unary_bufs_sub .., StableHlo.binary_bufs_sub .., StableHlo.unary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.unary_bufs_sub .., StableHlo.unary_bufs_sub .., StableHlo.binary_bufs_sub .., StableHlo.nullary_bufs_sub .., StableHlo.unary_bufs_sub ..,
    StableHlo.unary_bufs_sub .., StableHlo.ternary_bufs_sub .., StableHlo.binary_bufs_sub .., StableHlo.unary_bufs_sub .., StableHlo.unary_bufs_sub .., StableHlo.binary_bufs_sub ..,
    StableHlo.binary_bufs_sub .., StableHlo.unary_bufs_sub .., StableHlo.unary_bufs_sub .., StableHlo.binary_bufs_sub .., StableHlo.nullary_bufs_sub .., StableHlo.unary_bufs_sub ..,
    StableHlo.binary_bufs_sub .., StableHlo.nullary_bufs_sub .., StableHlo.binary_bufs_sub .., StableHlo.nullary_bufs_sub .., StableHlo.binary_bufs_sub .., StableHlo.unary_bufs_sub ..,
    StableHlo.binary_bufs_sub .., StableHlo.nullary_bufs_sub .., StableHlo.nullary_bufs_sub .., StableHlo.binary_bufs_sub .., StableHlo.unary_bufs_sub .., StableHlo.nullary_bufs_sub ..,
    StableHlo.unary_bufs_sub .., StableHlo.binary_bufs_sub .., StableHlo.unary_bufs_sub .., StableHlo.binary_bufs_sub .., StableHlo.binary_bufs_sub .., StableHlo.unary_bufs_sub ..,
    StableHlo.nullary_bufs_sub .., StableHlo.binary_bufs_sub .., StableHlo.nullary_bufs_sub .., StableHlo.binary_bufs_sub .., StableHlo.binary_bufs_sub .., StableHlo.nullary_bufs_sub ..,
    StableHlo.binary_bufs_sub .., StableHlo.nullary_bufs_sub .., StableHlo.unary_bufs_sub .., StableHlo.ternary_bufs_sub .., StableHlo.unary_bufs_sub .., StableHlo.nullary_bufs_sub ..,
    StableHlo.binary_bufs_sub .., StableHlo.unary_bufs_sub .., StableHlo.binary_bufs_sub .., StableHlo.unary_bufs_sub .., StableHlo.unary_bufs_sub .., StableHlo.binary_bufs_sub ..,
    StableHlo.unary_bufs_sub .., StableHlo.unary_bufs_sub .., StableHlo.binary_bufs_sub .., StableHlo.nullary_bufs_sub .., StableHlo.binary_bufs_sub .., StableHlo.unary_bufs_sub ..,
    StableHlo.binary_bufs_sub .., StableHlo.binary_bufs_sub .., StableHlo.unary_bufs_sub .., StableHlo.binary_bufs_sub .., StableHlo.nullary_bufs_sub .., StableHlo.unary_bufs_sub ..,
    StableHlo.binary_bufs_sub .., StableHlo.binary_bufs_sub .., StableHlo.unary_bufs_sub .., StableHlo.binary_bufs_sub .., StableHlo.nullary_bufs_sub .., StableHlo.binary_bufs_sub ..,
    StableHlo.nullary_bufs_sub .., StableHlo.unary_bufs_sub .., StableHlo.binary_bufs_sub .., StableHlo.unary_bufs_sub .., StableHlo.unary_bufs_sub .., StableHlo.binary_bufs_sub ..,
    StableHlo.unary_bufs_sub .., StableHlo.nullary_bufs_sub .., StableHlo.binary_bufs_sub .., StableHlo.unary_bufs_sub .., StableHlo.unary_bufs_sub .., StableHlo.unary_bufs_sub ..,
    StableHlo.binary_bufs_sub ..⟩

end Cert.ReferenceIdeal.Ops

end
-- ==== Proof.RefRun.lean ====
/-
  The reference program runs to the end as a straight line of host operations.

  Its @main is 91 statements, four of them calls of outlined functions (the rectifier twice, the variance — which
  itself calls a choice between its value and a not-a-number filler —, and the logarithm of the normalised
  exponentials); with each call replaced by the callee's operations over that call's buffers the program is one list of
  127 operations.  From any memory with zero counters every weakly fair execution terminates, nothing faulting, with
  every buffer at the fold of those operations over the launch contents.
-/
import proofs.«170314_j33887291965745_1_alg».proof.Proof.RefOps

noncomputable section

namespace Cert.ReferenceIdeal.RefRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

set_option maxRecDepth 8192 in
set_option maxHeartbeats 4000000 in
/-- @main is that straight line: the two halves of @main and the outlined functions' bodies unfolded at their calls,
    both sides are one chain of steps once the sequencing is re-associated. -/
theorem main_eq (c : Dev nD) : main (F := F) c = seq ops := by
  simp only [main, main_part0, main_part1, fn_relu.body, fn_where.body, fn_var.body, fn_relu_0.body, fn_log_softmax.body,
    seq, bind_assoc, pure_bind]

/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide

set_option maxRecDepth 8192 in
set_option maxHeartbeats 4000000 in
/-- Every weakly fair execution of @main terminates, and every final state has each buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefReadOps.lean ====
/-
  The array program's operations, cut into three stretches.

  The first stretch ends at the combined, rectified array (the linear layer, the degree roots, the edge weights, the
  neighbours' sum, the loop term, the bias, the floor at zero).  The second goes from the array's total to the pooled
  row (the mean taken off, the two-pass variance, the quotient by the deviation, the scale and shift, the column sums).
  The third is the head (the join with the state row, the two dense layers, the rectifier between them, the logarithm of
  the normalised exponentials).  The three stretches in order are the whole list; the contents after a concatenation are
  the contents after its second part, started from the contents after its first.
-/
import proofs.«170314_j33887291965745_1_alg».proof.Proof.RefOps

noncomputable section

namespace Cert.ReferenceIdeal.RefRead

open Cert.ReferenceIdeal Cert.ReferenceIdeal.Gen Cert.ReferenceIdeal.Ops Idealize.ShloMosaic Idealize.ShloMosaic.TcCoe Idealize.SL.Sem
open Idealize.ShloMosaic.StableHlo

variable {F : FTy → Type} [FloatOps F]

/-- From the inputs to the combined, rectified array. -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg3 main_v4 ((fun l r => Host.dotGeneral dot_S100000x2_S2x128_S100000x128_1_0_0_1_n_n none l r) : (⟨S100000x2, .f32⟩ : BufTy).Contents (Elt F) → (⟨S2x128, .f32⟩ : BufTy).Contents (Elt F) → (⟨S100000x128, .f32⟩ : BufTy).Contents (Elt F)),
    StableHlo.nullary main_cst (constant S_ .f32 0x3F800000#32),
    StableHlo.unary main_cst main_v5 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_v1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_v1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v4 main_v32 main_v33 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v33 main_v35 main_v36 (mulf : (⟨S1600000x128, .f32⟩ : BufTy).Contents (Elt F) → (⟨S1600000x128, .f32⟩ : BufTy).Contents (Elt F) → (⟨S1600000x128, .f32⟩ : BufTy).Contents (Elt F)),
    StableHlo.nullary main_cst_7 (constant S_ .f32 0x00000000#32),
    StableHlo.unary main_cst_7 main_v37 (broadcastInDim S100000x128 ![] bcast_S_S100000x128 : (⟨S_, .f32⟩ : BufTy).Contents (Elt F) → (⟨S100000x128, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v11 main_v11 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x128 ![0, 1] bcast_S100000x1_S100000x128_0_1 : (⟨S100000x1, .f32⟩ : BufTy).Contents (Elt F) → (⟨S100000x128, .f32⟩ : BufTy).Contents (Elt F)),
    StableHlo.binary main_v4 main_v42 main_v43 (mulf : (⟨S100000x128, .f32⟩ : BufTy).Contents (Elt F) → (⟨S100000x128, .f32⟩ : BufTy).Contents (Elt F) → (⟨S100000x128, .f32⟩ : BufTy).Contents (Elt F)),
    StableHlo.binary main_v39 main_v43 main_v44 (addf : (⟨S100000x128, .f32⟩ : BufTy).Contents (Elt F) → (⟨S100000x128, .f32⟩ : BufTy).Contents (Elt F) → (⟨S100000x128, .f32⟩ : BufTy).Contents (Elt F)),
    StableHlo.unary main_arg4 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v47 : StableHlo.TRef sig ⟨S100000x128, .f32⟩) main_call0.v0 main_call0.v1 maximumf ]

/-- From the combined, rectified array to the pooled row. -/
abbrev opsB : List (HloOp τ sig (Elt F)) :=
  [ StableHlo.nullary main_cst_8 (constant S_ .f32 0x00000000#32),
    StableHlo.binary main_v48 main_cst_8 main_v49 ((fun x v => Host.reduceAdd x v reducesTo_S100000x128_S_d0_1 h_S_) : (⟨S100000x128, .f32⟩ : BufTy).Contents (Elt F) → (⟨S_, .f32⟩ : BufTy).Contents (Elt F) → (⟨S_, .f32⟩ : BufTy).Contents (Elt F)),
    StableHlo.nullary main_cst_9 (constant S_ .f32 0x4B435000#32),
    StableHlo.binary main_v49 main_cst_9 main_v50 (Host.divf : (⟨S_, .f32⟩ : BufTy).Contents (Elt F) → (⟨S_, .f32⟩ : BufTy).Contents (Elt F) → (⟨S_, .f32⟩ : BufTy).Contents (Elt F)),
    StableHlo.unary main_v50 main_v51 (broadcastInDim S100000x128 ![] bcast_S_S100000x128 : (⟨S_, .f32⟩ : BufTy).Contents (Elt F) → (⟨S100000x128, .f32⟩ : BufTy).Contents (Elt F)),
    StableHlo.binary main_v48 main_v51 main_v52 (subf : (⟨S100000x128, .f32⟩ : BufTy).Contents (Elt F) → (⟨S100000x128, .f32⟩ : BufTy).Contents (Elt F) → (⟨S100000x128, .f32⟩ : BufTy).Contents (Elt F)),
    StableHlo.nullary main_c_10 (constantI S_ 32 0#32),
    StableHlo.TRef.nullary main_call1.cst (constant S_ .f32 0x00000000#32),
    StableHlo.TRef.binary (.of main_v52 : StableHlo.TRef sig ⟨S100000x128, .f32⟩) main_call1.cst main_call1.v0 (fun x v => Host.reduceAdd x v reducesTo_S100000x128_S_d0_1 h_S_),
    StableHlo.TRef.unary main_call1.v0 main_call1.v1 (broadcastInDim S1x1 ![] bcast_S_S1x1),
    StableHlo.TRef.nullary main_call1.cst_0 (constant S_ .f32 0x4B435000#32),
    StableHlo.TRef.unary main_call1.cst_0 main_call1.v2 (broadcastInDim S1x1 ![] bcast_S_S1x1),
    StableHlo.TRef.binary main_call1.v1 main_call1.v2 main_call1.v3 Host.divf,
    StableHlo.TRef.unary main_call1.v3 main_call1.v4 (broadcastInDim S100000x128 ![0, 1] bcast_S1x1_S100000x128_0_1),
    StableHlo.TRef.binary (.of main_v52 : StableHlo.TRef sig ⟨S100000x128, .f32⟩) main_call1.v4 main_call1.v5 subf,
    StableHlo.TRef.binary main_call1.v5 main_call1.v5 main_call1.v6 mulf,
    StableHlo.TRef.unary (.of main_c_10 : StableHlo.TRef sig ⟨S_, .i32⟩) main_call1.v7 (sitofp .f32),
    StableHlo.TRef.nullary main_call1.cst_1 (constant S_ .f32 0x4B435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S_d0_1 h_S_),
    StableHlo.TRef.binary main_call1.v9 main_call1.v8 main_call1.v10 Host.divf,
    StableHlo.TRef.nullary main_call1.cst_3 (constant S_ .f32 0x00000000#32),
    StableHlo.TRef.binary main_call1.v8 main_call1.cst_3 main_call1.v11 (cmpf .ogt),
    StableHlo.TRef.nullary main_call1.cst_4 (constant S_ .f32 0x7FC00000#32),
    StableHlo.TRef.unary main_call1.cst_4 main_call1.call0.v0 id,
    StableHlo.TRef.ternary main_call1.v11 main_call1.v10 main_call1.call0.v0 main_call1.call0.v1 select,
    StableHlo.unary main_v53 main_v54 (Host.sqrt : (⟨S_, .f32⟩ : BufTy).Contents (Elt F) → (⟨S_, .f32⟩ : BufTy).Contents (Elt F)),
    StableHlo.nullary main_cst_11 (constant S_ .f32 0x3727C5AC#32),
    StableHlo.binary main_v54 main_cst_11 main_v55 (addf : (⟨S_, .f32⟩ : BufTy).Contents (Elt F) → (⟨S_, .f32⟩ : BufTy).Contents (Elt F) → (⟨S_, .f32⟩ : BufTy).Contents (Elt F)),
    StableHlo.unary main_v55 main_v56 (broadcastInDim S100000x128 ![] bcast_S_S100000x128 : (⟨S_, .f32⟩ : BufTy).Contents (Elt F) → (⟨S100000x128, .f32⟩ : BufTy).Contents (Elt F)),
    StableHlo.binary main_v52 main_v56 main_v57 (Host.divf : (⟨S100000x128, .f32⟩ : BufTy).Contents (Elt F) → (⟨S100000x128, .f32⟩ : BufTy).Contents (Elt F) → (⟨S100000x128, .f32⟩ : BufTy).Contents (Elt F)),
    StableHlo.unary main_arg5 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg6 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x00000000#32),
    StableHlo.binary main_v63 main_cst_12 main_v64 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_v64 main_v65 (broadcastInDim S1x128 ![1] bcast_S128_S1x128_1 : (⟨S128, .f32⟩ : BufTy).Contents (Elt F) → (⟨S1x128, .f32⟩ : BufTy).Contents (Elt F)) ]

/-- From the pooled row to the result: the head. -/
abbrev opsC : List (HloOp τ sig (Elt F)) :=
  [ StableHlo.binary main_v65 main_arg2 main_v66 ((fun a b => concatenate S1x628 1 [⟨S1x128, a⟩, ⟨S1x500, b⟩] concatenates_S1x128_S1x500_S1x628_d1) : (⟨S1x128, .f32⟩ : BufTy).Contents (Elt F) → (⟨S1x500, .f32⟩ : BufTy).Contents (Elt F) → (⟨S1x628, .f32⟩ : BufTy).Contents (Elt F)),
    StableHlo.binary main_v66 main_arg7 main_v67 ((fun l r => Host.dotGeneral dot_S1x628_S628x128_S1x128_1_0_0_1_n_n none l r) : (⟨S1x628, .f32⟩ : BufTy).Contents (Elt F) → (⟨S628x128, .f32⟩ : BufTy).Contents (Elt F) → (⟨S1x128, .f32⟩ : BufTy).Contents (Elt F)),
    StableHlo.unary main_arg8 main_v68 (broadcastInDim S1x128 ![1] bcast_S128_S1x128_1 : (⟨S128, .f32⟩ : BufTy).Contents (Elt F) → (⟨S1x128, .f32⟩ : BufTy).Contents (Elt F)),
    StableHlo.binary main_v67 main_v68 main_v69 (addf : (⟨S1x128, .f32⟩ : BufTy).Contents (Elt F) → (⟨S1x128, .f32⟩ : BufTy).Contents (Elt F) → (⟨S1x128, .f32⟩ : BufTy).Contents (Elt F)),
    StableHlo.TRef.nullary main_call2.cst (constant S_ .f32 0x00000000#32),
    StableHlo.TRef.unary main_call2.cst main_call2.v0 (broadcastInDim S1x128 ![] bcast_S_S1x128),
    StableHlo.TRef.binary (.of main_v69 : StableHlo.TRef sig ⟨S1x128, .f32⟩) main_call2.v0 main_call2.v1 maximumf,
    StableHlo.binary main_v70 main_arg9 main_v71 ((fun l r => Host.dotGeneral dot_S1x128_S128x16_S1x16_1_0_0_1_n_n none l r) : (⟨S1x128, .f32⟩ : BufTy).Contents (Elt F) → (⟨S128x16, .f32⟩ : BufTy).Contents (Elt F) → (⟨S1x16, .f32⟩ : BufTy).Contents (Elt F)),
    StableHlo.unary main_arg10 main_v72 (broadcastInDim S1x16 ![1] bcast_S16_S1x16_1 : (⟨S16, .f32⟩ : BufTy).Contents (Elt F) → (⟨S1x16, .f32⟩ : BufTy).Contents (Elt F)),
    StableHlo.binary main_v71 main_v72 main_v73 (addf : (⟨S1x16, .f32⟩ : BufTy).Contents (Elt F) → (⟨S1x16, .f32⟩ : BufTy).Contents (Elt F) → (⟨S1x16, .f32⟩ : BufTy).Contents (Elt F)),
    StableHlo.TRef.nullary main_call3.cst (constant S_ .f32 0xFF800000#32),
    StableHlo.TRef.binary (.of main_v73 : StableHlo.TRef sig ⟨S1x16, .f32⟩) main_call3.cst main_call3.v0 (fun x v => Host.reduce FloatOps.maximumf x v reducesTo_S1x16_S1_d1 h_S_),
    StableHlo.TRef.nullary main_call3.cst_0 (constant S_ .f32 0xFF800000#32),
    StableHlo.TRef.unary main_call3.cst_0 main_call3.v1 (broadcastInDim S1 ![] bcast_S_S1),
    StableHlo.TRef.binary main_call3.v1 main_call3.v0 main_call3.v2 maximumf,
    StableHlo.TRef.unary main_call3.v2 main_call3.v3 (broadcastInDim S1x1 ![0] bcast_S1_S1x1_0),
    StableHlo.TRef.unary main_call3.v3 main_call3.v4 (broadcastInDim S1x16 ![0, 1] bcast_S1x1_S1x16_0_1),
    StableHlo.TRef.binary (.of main_v73 : StableHlo.TRef sig ⟨S1x16, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S1x16_S1_d1 h_S_),
    StableHlo.TRef.unary main_call3.v7 main_call3.v8 (broadcastInDim S1x1 ![0] bcast_S1_S1x1_0),
    StableHlo.TRef.unary main_call3.v8 main_call3.v9 Host.log,
    StableHlo.TRef.unary main_call3.v9 main_call3.v10 (broadcastInDim S1x16 ![0, 1] bcast_S1x1_S1x16_0_1),
    StableHlo.TRef.binary main_call3.v5 main_call3.v10 main_call3.v11 subf ]

/-- The three stretches, in order, are the program's operations. -/
theorem ops_split : (ops : List (HloOp τ sig (Elt F))) = opsA ++ (opsB ++ opsC) := rfl

/-- The contents after a concatenation: the second part run from where the first part ends. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

end Cert.ReferenceIdeal.RefRead

end
-- ==== Proof.RefRead.lean ====
/-
  What the array program's operations leave in the result buffer and in the arguments.

  The operations are read in three stretches.  The first ends at the combined, rectified array: the linear layer as one
  matrix product, the degree roots from the edges' destinations, each edge's weight as the product of the roots at its
  two ends, the neighbours' sum of the weighted source rows, the own row times the squared root, the bias, the floor at
  zero.  The second ends at the pooled row: the array less its mean, its two-pass variance, the quotient by the
  deviation plus the small constant, the scale and shift rows, the column sums.  The third is the head on the pooled row
  joined with the state row.  Each stretch's result is the named function of what the stretch reads, no stretch writes an
  argument, and the contents after the whole list are the third stretch's from the second's from the first's; so the
  result buffer holds the head of the pooled row of the inputs, and every argument what it held.
-/
import proofs.«170314_j33887291965745_1_alg».proof.Proof.RefRun
import proofs.«170314_j33887291965745_1_alg».proof.Proof.Forms
import proofs.«170314_j33887291965745_1_alg».proof.Proof.RefReadOps

noncomputable section

namespace Cert.ReferenceIdeal.RefRead

open Cert.ReferenceIdeal Cert.ReferenceIdeal.Gen Cert.ReferenceIdeal.Ops Cert.ReferenceIdeal.Terms
open Idealize.ShloMosaic Idealize.ShloMosaic.TcCoe Idealize.SL.Sem Idealize.ShloMosaic.StableHlo

/-- A buffer that none of the listed operations writes keeps its contents. -/
local macro "kept" l:ident : tactic => `(tactic| (
  refine after_of_forall_not_mem (b := _) $l _ (List.forall_iff_forall_mem.mp ?_)
  simp only [$l:ident, List.Forall, nullary_writes, unary_writes, binary_writes, ternary_writes, reshape_writes, Finset.mem_singleton]
  repeat' apply And.intro
  all_goals exact devRef_ne_of_ne (by decide)))

section Stretches

variable {F : FTy → Type} [FloatOps F]

/-! ### The first stretch: the combined, rectified array -/

set_option maxHeartbeats 2000000 in
/-- After the first stretch the rectifier's result is the combined, rectified array of the inputs: the neighbours' sum
    of the linear layer's rows weighted by the degree roots at an edge's two ends, plus the own row times the squared
    degree root, plus the bias, floored at zero. -/
theorem A_out (V : Valuation τ sig (Elt F)) :
    after opsA V (Proc.devRef .tc main_v48)
      = combOf (F := F)
          (aggOf (F := F) (srcOf (V (Proc.devRef .tc main_arg1))) (dstOf (V (Proc.devRef .tc main_arg1)))
            (normOf (srcOf (V (Proc.devRef .tc main_arg1))) (dstOf (V (Proc.devRef .tc main_arg1))))
            (linOf (V (Proc.devRef .tc main_arg0)) (V (Proc.devRef .tc main_arg3))))
          (linOf (V (Proc.devRef .tc main_arg0)) (V (Proc.devRef .tc main_arg3)))
          (disOf (dstOf (V (Proc.devRef .tc main_arg1)))) (V (Proc.devRef .tc main_arg4)) := by
  after_results_simp
  rfl

/-- The first stretch writes no argument. -/
theorem A_keep (V : Valuation τ sig (Elt F)) :
    after opsA V (Proc.devRef .tc main_arg0) = V (Proc.devRef .tc main_arg0)
    ∧ after opsA V (Proc.devRef .tc main_arg1) = V (Proc.devRef .tc main_arg1)
    ∧ after opsA V (Proc.devRef .tc main_arg2) = V (Proc.devRef .tc main_arg2)
    ∧ after opsA V (Proc.devRef .tc main_arg3) = V (Proc.devRef .tc main_arg3)
    ∧ after opsA V (Proc.devRef .tc main_arg4) = V (Proc.devRef .tc main_arg4)
    ∧ after opsA V (Proc.devRef .tc main_arg5) = V (Proc.devRef .tc main_arg5)
    ∧ after opsA V (Proc.devRef .tc main_arg6) = V (Proc.devRef .tc main_arg6)
    ∧ after opsA V (Proc.devRef .tc main_arg7) = V (Proc.devRef .tc main_arg7)
    ∧ after opsA V (Proc.devRef .tc main_arg8) = V (Proc.devRef .tc main_arg8)
    ∧ after opsA V (Proc.devRef .tc main_arg9) = V (Proc.devRef .tc main_arg9)
    ∧ after opsA V (Proc.devRef .tc main_arg10) = V (Proc.devRef .tc main_arg10) := by
  refine ⟨?_, ?_, ?_, ?_, ?_, ?_, ?_, ?_, ?_, ?_, ?_⟩ <;> kept opsA

/-! ### The second stretch: the pooled row -/

/-- After the second stretch the pooled row is the column sums of the combined array less its mean, divided by its
    deviation plus the small constant, scaled and shifted. -/
theorem B_out (V : Valuation τ sig (Elt F)) :
    after opsB V (Proc.devRef .tc main_v65)
      = pooledOf (F := F) (normedOf (cenOf (V (Proc.devRef .tc main_v48))) (V (Proc.devRef .tc main_arg5))
          (V (Proc.devRef .tc main_arg6))) := by
  after_results_simp
  rfl

/-- The second stretch writes no argument. -/
theorem B_keep (V : Valuation τ sig (Elt F)) :
    after opsB V (Proc.devRef .tc main_arg0) = V (Proc.devRef .tc main_arg0)
    ∧ after opsB V (Proc.devRef .tc main_arg1) = V (Proc.devRef .tc main_arg1)
    ∧ after opsB V (Proc.devRef .tc main_arg2) = V (Proc.devRef .tc main_arg2)
    ∧ after opsB V (Proc.devRef .tc main_arg3) = V (Proc.devRef .tc main_arg3)
    ∧ after opsB V (Proc.devRef .tc main_arg4) = V (Proc.devRef .tc main_arg4)
    ∧ after opsB V (Proc.devRef .tc main_arg5) = V (Proc.devRef .tc main_arg5)
    ∧ after opsB V (Proc.devRef .tc main_arg6) = V (Proc.devRef .tc main_arg6)
    ∧ after opsB V (Proc.devRef .tc main_arg7) = V (Proc.devRef .tc main_arg7)
    ∧ after opsB V (Proc.devRef .tc main_arg8) = V (Proc.devRef .tc main_arg8)
    ∧ after opsB V (Proc.devRef .tc main_arg9) = V (Proc.devRef .tc main_arg9)
    ∧ after opsB V (Proc.devRef .tc main_arg10) = V (Proc.devRef .tc main_arg10) := by
  refine ⟨?_, ?_, ?_, ?_, ?_, ?_, ?_, ?_, ?_, ?_, ?_⟩ <;> kept opsB

/-! ### The third stretch: the head -/

/-- After the third stretch the result buffer is the head of the pooled row and the head's five inputs. -/
theorem C_out (V : Valuation τ sig (Elt F)) :
    after opsC V (Proc.devRef .tc main_v74)
      = headOf (F := F) (V (Proc.devRef .tc main_v65)) (V (Proc.devRef .tc main_arg2)) (V (Proc.devRef .tc main_arg7))
          (V (Proc.devRef .tc main_arg8)) (V (Proc.devRef .tc main_arg9)) (V (Proc.devRef .tc main_arg10)) := by
  after_results_simp
  rfl

/-- The third stretch writes no argument. -/
theorem C_keep (V : Valuation τ sig (Elt F)) :
    after opsC V (Proc.devRef .tc main_arg0) = V (Proc.devRef .tc main_arg0)
    ∧ after opsC V (Proc.devRef .tc main_arg1) = V (Proc.devRef .tc main_arg1)
    ∧ after opsC V (Proc.devRef .tc main_arg2) = V (Proc.devRef .tc main_arg2)
    ∧ after opsC V (Proc.devRef .tc main_arg3) = V (Proc.devRef .tc main_arg3)
    ∧ after opsC V (Proc.devRef .tc main_arg4) = V (Proc.devRef .tc main_arg4)
    ∧ after opsC V (Proc.devRef .tc main_arg5) = V (Proc.devRef .tc main_arg5)
    ∧ after opsC V (Proc.devRef .tc main_arg6) = V (Proc.devRef .tc main_arg6)
    ∧ after opsC V (Proc.devRef .tc main_arg7) = V (Proc.devRef .tc main_arg7)
    ∧ after opsC V (Proc.devRef .tc main_arg8) = V (Proc.devRef .tc main_arg8)
    ∧ after opsC V (Proc.devRef .tc main_arg9) = V (Proc.devRef .tc main_arg9)
    ∧ after opsC V (Proc.devRef .tc main_arg10) = V (Proc.devRef .tc main_arg10) := by
  refine ⟨?_, ?_, ?_, ?_, ?_, ?_, ?_, ?_, ?_, ?_, ?_⟩ <;> kept opsC

/-- The contents after the whole program: the three stretches one after the other. -/
theorem after_ops (V : Valuation τ sig (Elt F)) : after ops V = after opsC (after opsB (after opsA V)) := by
  rw [ops_split, after_append, after_append]

end Stretches

/-- The result buffer after the program's operations is the head applied to the pooled row of the inputs. -/
theorem out_eq (V : Valuation τ sig (Elt Ideal)) :
    after ops V (Proc.devRef .tc main_v74)
      = headOf (F := Ideal)
          (Cert.Forms.pooledR (V (Proc.devRef .tc main_arg0)) (V (Proc.devRef .tc main_arg1)) (V (Proc.devRef .tc main_arg3))
            (V (Proc.devRef .tc main_arg4)) (V (Proc.devRef .tc main_arg5)) (V (Proc.devRef .tc main_arg6)))
          (V (Proc.devRef .tc main_arg2)) (V (Proc.devRef .tc main_arg7)) (V (Proc.devRef .tc main_arg8))
          (V (Proc.devRef .tc main_arg9)) (V (Proc.devRef .tc main_arg10)) := by
  obtain ⟨-, -, a2, -, -, a5, a6, a7, a8, a9, a10⟩ := A_keep V
  obtain ⟨-, -, b2, -, -, b5, b6, b7, b8, b9, b10⟩ := B_keep (after opsA V)
  rw [after_ops, C_out, B_out, A_out, b2, b7, b8, b9, b10, a2, a5, a6, a7, a8, a9, a10]
  rfl

/-- No operation writes an argument. -/
theorem arg_eq (V : Valuation τ sig (Elt Ideal)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10) := by
  obtain ⟨a0, a1, a2, a3, a4, a5, a6, a7, a8, a9, a10⟩ := A_keep V
  obtain ⟨b0, b1, b2, b3, b4, b5, b6, b7, b8, b9, b10⟩ := B_keep (after opsA V)
  obtain ⟨c0, c1, c2, c3, c4, c5, c6, c7, c8, c9, c10⟩ := C_keep (after opsB (after opsA V))
  rw [after_ops]
  exact ⟨c0.trans (b0.trans a0), c1.trans (b1.trans a1), c2.trans (b2.trans a2), c3.trans (b3.trans a3),
    c4.trans (b4.trans a4), c5.trans (b5.trans a5), c6.trans (b6.trans a6), c7.trans (b7.trans a7),
    c8.trans (b8.trans a8), c9.trans (b9.trans a9), c10.trans (b10.trans a10)⟩

end Cert.ReferenceIdeal.RefRead

end
-- ==== Proof.BridgeX.lean ====
import proofs.«170314_j33887291965745_1_alg».proof.Proof.Forms
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.BridgeX

open Idealize.ShloMosaic Idealize.ShloMosaic.ValueIdx

/-! ## Layout operations read at an index

Four small readings at the literal shapes of this layer: a vector reshaped to a column or to a row, and a vector made a
column (a row) and stretched over the other axis. Each reads the vector at the one coordinate it depends on. -/

section Layout
variable {α : Type}

/-- A vector of 100000 numbers reshaped to a column, read at row `r`: the vector at `r`. -/
theorem colCast_apply (v : (⟨1, ![100000]⟩ : Shape).Idx → α)
    (h : (⟨1, ![100000]⟩ : Shape).ShapeCasts ⟨2, ![100000, 1]⟩) (r : Fin 100000) :
    shapeCast ⟨2, ![100000, 1]⟩ v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- A vector of 128 numbers reshaped to a row, read at column `j`: the vector at `j`. -/
theorem rowCast_apply (v : (⟨1, ![128]⟩ : Shape).Idx → α)
    (h : (⟨1, ![128]⟩ : Shape).ShapeCasts ⟨2, ![1, 128]⟩) (j : Fin 128) :
    shapeCast ⟨2, ![1, 128]⟩ v h (ix2 (0 : Fin 1) j) = v (ix1 j) :=
  shapeCast_apply v h (ix2 (0 : Fin 1) j) (ix1 j) (by
    rw [Shape.rowMajor_val_one, Shape.rowMajor_val_two]
    show j.val = 0 * 128 + j.val
    omega)

/-- A vector of 100000 numbers made a column and stretched over 128 columns, read at `(r, j)`: the vector at `r`. -/
theorem colStretch_apply (v : (⟨1, ![100000]⟩ : Shape).Idx → α)
    (h1 : (⟨1, ![100000]⟩ : Shape).BroadcastsInDim ⟨2, ![100000, 1]⟩ ![0])
    (h2 : (⟨2, ![100000, 1]⟩ : Shape).BroadcastsInDim ⟨2, ![100000, 128]⟩ ![0, 1]) (r : Fin 100000) (j : Fin 128) :
    broadcastInDim ⟨2, ![100000, 128]⟩ ![0, 1] h2 (broadcastInDim ⟨2, ![100000, 1]⟩ ![0] h1 v) (ix2 r j) = v (ix1 r) := by
  rw [broadcastInDim_apply ![0, 1] h2 _ (ix2 r j) (ix2 r (0 : Fin 1)) (fun a => by
    match a with
    | ⟨0, _⟩ => rfl
    | ⟨1, _⟩ => rfl)]
  exact broadcastInDim_apply ![0] h1 v (ix2 r (0 : Fin 1)) (ix1 r) (fun a => by
    match a with
    | ⟨0, _⟩ => rfl)

/-- A vector of 128 numbers made a row and stretched over 100000 rows, read at `(r, j)`: the vector at `j`. -/
theorem rowStretch_apply (v : (⟨1, ![128]⟩ : Shape).Idx → α)
    (h1 : (⟨1, ![128]⟩ : Shape).BroadcastsInDim ⟨2, ![1, 128]⟩ ![1])
    (h2 : (⟨2, ![1, 128]⟩ : Shape).BroadcastsInDim ⟨2, ![100000, 128]⟩ ![0, 1]) (r : Fin 100000) (j : Fin 128) :
    broadcastInDim ⟨2, ![100000, 128]⟩ ![0, 1] h2 (broadcastInDim ⟨2, ![1, 128]⟩ ![1] h1 v) (ix2 r j) = v (ix1 j) := by
  rw [broadcastInDim_apply ![0, 1] h2 _ (ix2 r j) (ix2 (0 : Fin 1) j) (fun a => by
    match a with
    | ⟨0, _⟩ => rfl
    | ⟨1, _⟩ => rfl)]
  exact broadcastInDim_apply ![1] h1 v (ix2 (0 : Fin 1) j) (ix1 j) (fun a => by
    match a with
    | ⟨0, _⟩ => rfl)

end Layout

/-! ## The shared operations

Both programs build the degree roots, the edge weights and the neighbours' sum by the same operations over shape and
dimension records that are the same literal values; each pair below is one function. The linear layer of the array
program is one matrix product whose contraction has the two input channels: written out, it is the two-term sum. -/

/-- The edges' source nodes: one vector in both programs. -/
theorem src_eq (e : IVec Cert.KernelIdeal.S2x1600000 32) :
    Cert.KernelIdeal.Terms.srcOf e = Cert.ReferenceIdeal.Terms.srcOf e := rfl

/-- The edges' destination nodes: one vector in both programs. -/
theorem dst_eq (e : IVec Cert.KernelIdeal.S2x1600000 32) :
    Cert.KernelIdeal.Terms.dstOf e = Cert.ReferenceIdeal.Terms.dstOf e := rfl

/-- The degree roots: one vector in both programs. -/
theorem dis_eq (d : IVec Cert.KernelIdeal.S1600000 32) :
    Cert.KernelIdeal.Terms.disOf (F := Ideal) d = Cert.ReferenceIdeal.Terms.disOf (F := Ideal) d := rfl

/-- The edge weights: one vector in both programs. -/
theorem norm_eq (s d : IVec Cert.KernelIdeal.S1600000 32) :
    Cert.KernelIdeal.Terms.normOf (F := Ideal) s d = Cert.ReferenceIdeal.Terms.normOf (F := Ideal) s d := rfl

/-- The neighbours' sum of an array of node rows: one array in both programs. -/
theorem agg_eq (s d : IVec Cert.KernelIdeal.S1600000 32) (n : FVec Ideal Cert.KernelIdeal.S1600000 .f32)
    (h : FVec Ideal Cert.KernelIdeal.S100000x128 .f32) :
    Cert.KernelIdeal.Terms.aggOf (F := Ideal) s d n h = Cert.ReferenceIdeal.Terms.aggOf (F := Ideal) s d n h := rfl

/-- The linear layer as one matrix product is the linear layer entry by entry: at row `r`, channel `j` the
    contraction runs over the two input channels, and its sum written out is `f[r,0]·w[0,j] + f[r,1]·w[1,j]`. -/
theorem lin_eq (f : FVec Ideal Cert.ReferenceIdeal.S100000x2 .f32) (w : FVec Ideal Cert.ReferenceIdeal.S2x128 .f32) :
    Cert.ReferenceIdeal.Terms.linOf (F := Ideal) f w = Cert.Spec.lin f w := by
  funext i
  obtain ⟨r, j, rfl⟩ : ∃ (r : Fin 100000) (j : Fin 128), i = ix2 r j := ⟨i 0, i 1, eq_ix2 i⟩
  have hd : Cert.ReferenceIdeal.dot_S100000x2_S2x128_S100000x128_1_0_0_1_n_n = DotDims.plain 100000 2 128 := rfl
  unfold Cert.ReferenceIdeal.Terms.linOf
  rw [hd]
  exact (StackMember.dotGeneral_plain_apply none f w r j).trans (Fin.sum_univ_two _)

/-! ## The combination entry by entry -/

/-- The combined, rectified array of the entry-by-entry definition, read at row `r`, channel `j`. -/
theorem comb_apply (a h : Cert.Spec.SNxH.Idx → EReal) (s : Cert.Spec.SNx1.Idx → EReal) (b : Cert.Spec.S1xH.Idx → EReal)
    (z : EReal) (r : Fin 100000) (j : Fin 128) :
    Cert.Spec.comb a h s b z (ix2 r j)
      = max (a (ix2 r j) + h (ix2 r j) * s (ix2 r (0 : Fin 1)) + b (ix2 (0 : Fin 1) j)) z := rfl

/-- The own-loop weight column at row `r`: the square of the node's degree root. -/
theorem slOf_apply (d : IVec Cert.KernelIdeal.S1600000 32) (r : Fin 100000) :
    Cert.KernelIdeal.Terms.slOf (F := Ideal) d (ix2 r (0 : Fin 1))
      = mulf (Cert.KernelIdeal.Terms.disOf (F := Ideal) d) (Cert.KernelIdeal.Terms.disOf (F := Ideal) d) (ix1 r) :=
  colCast_apply _ _ r

/-- The bias as a row, at channel `j`: the bias at `j`. -/
theorem rowOf_apply (v : FVec Ideal Cert.KernelIdeal.S128 .f32) (j : Fin 128) :
    Cert.KernelIdeal.Terms.rowOf (F := Ideal) v (ix2 (0 : Fin 1) j) = v (ix1 j) :=
  rowCast_apply _ _ j

/-- The whole-array combination read at row `r`, channel `j`: the pointwise operations read through, the stretched
    column is the squared degree root at `r`, the stretched row the bias at `j`. -/
theorem combOf_apply (a h : FVec Ideal Cert.ReferenceIdeal.S100000x128 .f32) (dis : FVec Ideal Cert.ReferenceIdeal.S100000 .f32)
    (gb : FVec Ideal Cert.ReferenceIdeal.S128 .f32) (r : Fin 100000) (j : Fin 128) :
    Cert.ReferenceIdeal.Terms.combOf (F := Ideal) a h dis gb (ix2 r j)
      = max (a (ix2 r j) + h (ix2 r j) * mulf dis dis (ix1 r) + gb (ix1 j)) (Ideal.ofBits .f32 0x00000000#32) := by
  unfold Cert.ReferenceIdeal.Terms.combOf Cert.ReferenceIdeal.Terms.rowsOf
  rw [maximumf_apply, addf_apply, addf_apply, mulf_apply, colStretch_apply, rowStretch_apply]
  rfl

/-- The two programs' combined, rectified arrays are one array. -/
theorem x_eq (f : FVec Ideal Cert.KernelIdeal.S100000x2 .f32) (e : IVec Cert.KernelIdeal.S2x1600000 32)
    (w : FVec Ideal Cert.KernelIdeal.S2x128 .f32) (γ : FVec Ideal Cert.KernelIdeal.S128 .f32) :
    Cert.Forms.xK f e w γ = Cert.Forms.xR f e w γ := by
  funext i
  obtain ⟨r, j, rfl⟩ : ∃ (r : Fin 100000) (j : Fin 128), i = ix2 r j := ⟨i 0, i 1, eq_ix2 i⟩
  unfold Cert.Forms.xK Cert.Forms.xR
  rw [comb_apply, slOf_apply, rowOf_apply, combOf_apply, lin_eq, src_eq, dst_eq, norm_eq, agg_eq, dis_eq]

/-- The two programs' heads are one function. -/
theorem head_eq (p : FVec Ideal Cert.KernelIdeal.S1x128 .f32) (esn : FVec Ideal Cert.KernelIdeal.S1x500 .f32)
    (w1 : FVec Ideal Cert.KernelIdeal.S628x128 .f32) (b1 : FVec Ideal Cert.KernelIdeal.S128 .f32)
    (w2 : FVec Ideal Cert.KernelIdeal.S128x16 .f32) (b2 : FVec Ideal Cert.KernelIdeal.S16 .f32) :
    Cert.KernelIdeal.Terms.headOf (F := Ideal) p esn w1 b1 w2 b2 = Cert.ReferenceIdeal.Terms.headOf (F := Ideal) p esn w1 b1 w2 b2 := rfl

end Cert.BridgeX

end
-- ==== Proof.LibReal.lean ====
/-
  Which array operations keep every entry a real number.

  At the ideal instance a float is an extended real: a real number, or one of the two infinities.  The
  arithmetic of the extended reals is the reals' arithmetic only away from the infinities, so a statement about
  a network's value has to know that no infinity arises on the way.  This file says of each array operation
  that it maps arrays of real entries to arrays of real entries: the pointwise sum, difference, product and
  maximum; the choice between two arrays; every re-indexing (repeating along new axes, recasting the shape,
  cutting a block out, taking rows by an index array); a constant whose bit pattern denotes a real; the
  quotient by nonzero reals; the reciprocal square root of positive reals; a sum along an axis; a matrix
  product; and the accumulation of rows into a table.  Each statement is generic in the shapes.
-/
import Idealize.ShloMosaic.PureOps.Ideal
import Idealize.ShloMosaic.PureOps.Ideal.Laws

noncomputable section

namespace Cert.LibReal

open Idealize.ShloMosaic

/-- Every entry of the array is a real number: neither infinity. -/
def AllReal {S : Shape} (a : S.Idx → EReal) : Prop := ∀ i, ∃ r : ℝ, a i = (r : EReal)

/-- Every entry of the array is a nonzero real number. -/
def AllNonzero {S : Shape} (a : S.Idx → EReal) : Prop := ∀ i, ∃ r : ℝ, r ≠ 0 ∧ a i = (r : EReal)

/-- Every entry of the array is a positive real number. -/
def AllPos {S : Shape} (a : S.Idx → EReal) : Prop := ∀ i, ∃ r : ℝ, 0 < r ∧ a i = (r : EReal)

/-- Positive reals are nonzero reals. -/
theorem AllPos.allNonzero {S : Shape} {a : S.Idx → EReal} (h : AllPos a) : AllNonzero a := fun i => by
  obtain ⟨r, hr, e⟩ := h i
  exact ⟨r, hr.ne', e⟩

/-- Nonzero reals are reals. -/
theorem AllNonzero.allReal {S : Shape} {a : S.Idx → EReal} (h : AllNonzero a) : AllReal a := fun i => by
  obtain ⟨r, _, e⟩ := h i
  exact ⟨r, e⟩

/-- Positive reals are reals. -/
theorem AllPos.allReal {S : Shape} {a : S.Idx → EReal} (h : AllPos a) : AllReal a := h.allNonzero.allReal

/-- A finite sum of reals, taken in the extended reals, is the real sum. -/
theorem coe_finset_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of extended reals each of which is a real number is a real number. -/
theorem exists_real_sum {ι : Type} (s : Finset ι) (f : ι → EReal) (h : ∀ k ∈ s, ∃ r : ℝ, f k = (r : EReal)) :
    ∃ r : ℝ, ∑ k ∈ s, f k = (r : EReal) := by
  classical
  choose! g hg using h
  exact ⟨∑ k ∈ s, g k, by rw [coe_finset_sum]; exact Finset.sum_congr rfl hg⟩

/-! ## Pointwise operations -/

section Pointwise
variable {S : Shape} {φ : FTy}

/-- The entrywise sum of two arrays of reals is an array of reals. -/
theorem addf_allReal {a b : FVec Ideal S φ} (ha : AllReal a) (hb : AllReal b) : AllReal (addf a b) := fun i => by
  obtain ⟨r, hr⟩ := ha i
  obtain ⟨t, ht⟩ := hb i
  exact ⟨r + t, by show a i + b i = _; rw [hr, ht, EReal.coe_add]⟩

/-- The entrywise difference of two arrays of reals is an array of reals. -/
theorem subf_allReal {a b : FVec Ideal S φ} (ha : AllReal a) (hb : AllReal b) : AllReal (subf a b) := fun i => by
  obtain ⟨r, hr⟩ := ha i
  obtain ⟨t, ht⟩ := hb i
  exact ⟨r - t, by show a i - b i = _; rw [hr, ht, EReal.coe_sub]⟩

/-- The entrywise product of two arrays of reals is an array of reals. -/
theorem mulf_allReal {a b : FVec Ideal S φ} (ha : AllReal a) (hb : AllReal b) : AllReal (mulf a b) := fun i => by
  obtain ⟨r, hr⟩ := ha i
  obtain ⟨t, ht⟩ := hb i
  exact ⟨r * t, by show a i * b i = _; rw [hr, ht, EReal.coe_mul]⟩

/-- The entrywise maximum of two arrays of reals is an array of reals: at each entry it is one of the two. -/
theorem maximumf_allReal {a b : FVec Ideal S φ} (ha : AllReal a) (hb : AllReal b) : AllReal (maximumf a b) := fun i => by
  show ∃ r : ℝ, max (a i) (b i) = (r : EReal)
  rcases le_total (a i) (b i) with h | h
  · rw [max_eq_right h]; exact hb i
  · rw [max_eq_left h]; exact ha i

/-- The entrywise maximum with an array of positive reals is positive when the other array is real. -/
theorem maximumf_allPos_right {a b : FVec Ideal S φ} (ha : AllReal a) (hb : AllPos b) : AllPos (maximumf a b) := fun i => by
  show ∃ r : ℝ, 0 < r ∧ max (a i) (b i) = (r : EReal)
  obtain ⟨r, hr⟩ := ha i
  obtain ⟨t, ht0, ht⟩ := hb i
  refine ⟨max r t, lt_max_of_lt_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- Choosing entry by entry between two arrays of reals gives an array of reals. -/
theorem select_allReal (p : IVec S 1) {a b : S.Idx → EReal} (ha : AllReal a) (hb : AllReal b) :
    AllReal (select p a b) := fun i => by
  show ∃ r : ℝ, (if p i = 1 then a i else b i) = (r : EReal)
  split
  · exact ha i
  · exact hb i

/-- The entrywise quotient of an array of reals by an array of nonzero reals is an array of reals. -/
theorem divf_allReal {a b : FVec Ideal S φ} (ha : AllReal a) (hb : AllNonzero b) :
    AllReal (Host.divf (F := Ideal) a b) := fun i => by
  obtain ⟨r, hr⟩ := ha i
  obtain ⟨t, ht0, ht⟩ := hb i
  refine ⟨r * (1 / t), ?_⟩
  show Ideal.div (a i) (b i) = _
  rw [hr, ht, Ideal.div_coe ht0, EReal.coe_mul]

/-- The entrywise reciprocal square root of an array of positive reals is an array of positive reals. -/
theorem rsqrt_allPos {a : FVec Ideal S φ} (ha : AllPos a) : AllPos (Host.rsqrt (F := Ideal) a) := fun i => by
  obtain ⟨r, hr0, hr⟩ := ha i
  refine ⟨(Real.sqrt r)⁻¹, inv_pos.mpr (Real.sqrt_pos.mpr hr0), ?_⟩
  show Ideal.rsqrt (a i) = _
  rw [hr, Ideal.rsqrt_coe, if_neg (not_lt.mpr hr0.le), if_neg hr0.ne']

/-- The entrywise reciprocal square root of an array of positive reals is an array of reals. -/
theorem rsqrt_allReal {a : FVec Ideal S φ} (ha : AllPos a) : AllReal (Host.rsqrt (F := Ideal) a) :=
  (rsqrt_allPos ha).allReal

/-- An array of reals that are at least zero plus an array of positive reals is an array of positive reals. -/
theorem addf_allPos_of_nonneg {a b : FVec Ideal S φ} (ha : ∀ i, ∃ r : ℝ, 0 ≤ r ∧ a i = (r : EReal)) (hb : AllPos b) :
    AllPos (addf a b) := fun i => by
  obtain ⟨r, hr0, hr⟩ := ha i
  obtain ⟨t, ht0, ht⟩ := hb i
  exact ⟨r + t, by linarith, by show a i + b i = _; rw [hr, ht, EReal.coe_add]⟩

end Pointwise

/-! ## Re-indexings: every entry of the result is an entry of the operand -/

section Layout
variable {S T : Shape}

/-- Reading an array of reals through any map of indices gives an array of reals. -/
theorem comp_allReal {a : S.Idx → EReal} (ha : AllReal a) (f : T.Idx → S.Idx) : AllReal (fun j => a (f j)) :=
  fun j => ha (f j)

/-- Repeating an array of reals along new axes gives an array of reals. -/
theorem broadcastInDim_allReal (dims : Fin S.rank → Fin T.rank) (h : S.BroadcastsInDim T dims) {a : S.Idx → EReal}
    (ha : AllReal a) : AllReal (broadcastInDim T dims h a) := fun _ => ha _

/-- Repeating an array of positive reals along new axes gives an array of positive reals. -/
theorem broadcastInDim_allPos (dims : Fin S.rank → Fin T.rank) (h : S.BroadcastsInDim T dims) {a : S.Idx → EReal}
    (ha : AllPos a) : AllPos (broadcastInDim T dims h a) := fun _ => ha _

/-- Repeating an array of nonzero reals along new axes gives an array of nonzero reals. -/
theorem broadcastInDim_allNonzero (dims : Fin S.rank → Fin T.rank) (h : S.BroadcastsInDim T dims) {a : S.Idx → EReal}
    (ha : AllNonzero a) : AllNonzero (broadcastInDim T dims h a) := fun _ => ha _

/-- The same entries of an array of reals under another shape are an array of reals. -/
theorem shapeCast_allReal (h : S.ShapeCasts T) {a : S.Idx → EReal} (ha : AllReal a) : AllReal (shapeCast T a h) :=
  fun _ => ha _

/-- A block cut out of an array of reals is an array of reals. -/
theorem extractStridedSlice_allReal (off : Fin S.rank → Nat) (h : S.Slices off T) {a : S.Idx → EReal} (ha : AllReal a) :
    AllReal (extractStridedSlice T off a h) := fun _ => ha _

/-- Rows, or any slices, taken out of an array of reals by an index array are an array of reals, whatever the
    indices: each entry taken is an entry of the operand. -/
theorem gather_allReal {SI : Shape} {w : Nat} (d : GatherDims S SI T) (idx : IVec SI w) {a : S.Idx → EReal}
    (ha : AllReal a) : AllReal (Host.gather d a idx) := fun _ => ha _

end Layout

/-! ## Constants -/

/-- A constant array whose bit pattern denotes a real number is an array of reals. -/
theorem constant_allReal (S : Shape) (φ : FTy) (w : BitVec φ.bits) {r : ℝ} (h : Ideal.ofBits φ w = (r : EReal)) :
    AllReal (constant (F := Ideal) S φ w) := fun _ => ⟨r, h⟩

/-- A constant array whose bit pattern denotes a positive real number is an array of positive reals. -/
theorem constant_allPos (S : Shape) (φ : FTy) (w : BitVec φ.bits) {r : ℝ} (hr : 0 < r) (h : Ideal.ofBits φ w = (r : EReal)) :
    AllPos (constant (F := Ideal) S φ w) := fun _ => ⟨r, hr, h⟩

/-- The single-precision pattern of `+0.0` denotes `0`. -/
theorem ofBits_zero : Ideal.ofBits .f32 0x00000000#32 = ((0 : ℝ) : EReal) := by
  simp [Ideal.ofBits, Ideal.ieee]

/-- The single-precision pattern of `1.0` (biased exponent 127, significand 1) denotes `1`. -/
theorem ofBits_one : Ideal.ofBits .f32 0x3F800000#32 = ((1 : ℝ) : EReal) := by
  simp [Ideal.ofBits, Ideal.ieee, -EReal.coe_mul]; norm_num

/-- The single-precision pattern `0x47435000` (biased exponent 142, significand `12800000 / 2^23`) denotes
    `12800000 / 2^8 = 50000`. -/
theorem ofBits_50000 : Ideal.ofBits .f32 0x47435000#32 = ((50000 : ℝ) : EReal) := by
  simp [Ideal.ofBits, Ideal.ieee, -EReal.coe_mul]; norm_num

/-- The single-precision pattern `0x3727C5AC` (biased exponent 110, significand `10995116 / 2^23`), the float
    nearest `10^-5`, denotes the rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- That rational is positive. -/
theorem eps_pos : (0 : ℝ) < 10995116 / 2 ^ 40 := by norm_num

/-! ## Finite sums: a sum along axes, a matrix product, an accumulation of updates -/

/-- A real number plus a finite sum of real numbers, taken in the extended reals, is a real number. -/
theorem exists_real_add_sum {ι : Type} (s : Finset ι) (c : EReal) (f : ι → EReal) (hc : ∃ r : ℝ, c = (r : EReal))
    (h : ∀ k ∈ s, ∃ r : ℝ, f k = (r : EReal)) : ∃ r : ℝ, c + ∑ k ∈ s, f k = (r : EReal) := by
  obtain ⟨r0, hr0⟩ := hc
  obtain ⟨r, hr⟩ := exists_real_sum s f h
  exact ⟨r0 + r, by rw [hr0, hr, EReal.coe_add]⟩

/-- The sum of an array of reals along any set of axes, started from a real initial value, is an array of reals:
    each entry is the initial value plus a finite sum of entries of the operand. -/
theorem reduceAdd_allReal {S T V : Shape} {φ : FTy} {axes : List (Fin S.rank)} {x : FVec Ideal S φ} {init : V.Idx → Ideal φ}
    (hx : AllReal x) (hinit : AllReal init) (h : S.ReducesTo axes T) (hv : 0 < V.numel) :
    AllReal (Host.reduceAdd (F := Ideal) x init h hv) := fun j => by
  show ∃ t : ℝ, Ideal.hostReduceAdd h x (init (Shape.Idx.first hv)) j = (t : EReal)
  unfold Ideal.hostReduceAdd
  exact exists_real_add_sum _ _ _ (hinit _) fun k _ => hx k

/-- The same for the sum a tiled program takes along axes of a block: each entry is a finite sum of entries of the
    operand. -/
theorem multiReduction_add_allReal {S T : Shape} {φ : FTy} {axes : List (Fin S.rank)} {x : FVec Ideal S φ} (hx : AllReal x)
    (acc : BitVec φ.bits) (h : S.Reduces axes T) (hφ : FKind.Formats φ) (hacc : acc = FKind.add.neutral φ hφ) :
    AllReal (multiReduction .add axes T x acc h hφ hacc) := fun j => by
  show ∃ t : ℝ, Ideal.reduceAdd h x j = (t : EReal)
  unfold Ideal.reduceAdd
  exact exists_real_sum _ _ fun k _ => hx k

/-- A product of two arrays of reals contracted over any axes is an array of reals: each entry is a finite sum of
    products of an entry of the one with an entry of the other. -/
theorem dotGeneral_allReal {SL SR SO : Shape} {φ₁ φ₂ : FTy} (d : DotDims SL SR SO) (prec : Option ContractPrecision)
    {l : FVec Ideal SL φ₁} {r : FVec Ideal SR φ₂} (hl : AllReal l) (hr : AllReal r) :
    AllReal (Host.dotGeneral (F := Ideal) d prec l r) := fun j => by
  show ∃ t : ℝ, FloatOps.dotGeneral d prec .single l r j = (t : EReal)
  rw [Ideal.dotGeneral_apply]
  refine exists_real_sum _ _ fun k _ => ?_
  obtain ⟨a, ha⟩ := hl (d.lhsIdx j k)
  obtain ⟨b, hb⟩ := hr (d.rhsIdx j k)
  exact ⟨a * b, by rw [ha, hb, EReal.coe_mul]⟩

/-- The same product added to an array of reals, as a tiled program accumulates it, is an array of reals. -/
theorem matmul_allReal {SL SR SO : Shape} {φ₁ φ₂ : FTy} (d : DotDims SL SR SO) (prec : Option ContractPrecision)
    {l : FVec Ideal SL φ₁} {r : FVec Ideal SR φ₂} {acc : FVec Ideal SO .f32} (hl : AllReal l) (hr : AllReal r)
    (hacc : AllReal acc) : AllReal (matmul (F := Ideal) d prec l r acc) := fun j => by
  show ∃ t : ℝ, FloatOps.matmul d prec l r acc j = (t : EReal)
  rw [Ideal.matmul_apply]
  refine exists_real_add_sum _ _ _ (hacc j) fun k _ => ?_
  obtain ⟨a, ha⟩ := hl (d.lhsIdx j k)
  obtain ⟨b, hb⟩ := hr (d.rhsIdx j k)
  exact ⟨a * b, by rw [ha, hb, EReal.coe_mul]⟩

/-- Accumulating an array of real updates into an array of reals at the places an index array names gives an array
    of reals, whatever the indices: each entry is the operand's entry plus the finite sum of the updates that
    land on it. -/
theorem scatterAdd_allReal {S SI SU : Shape} {φ : FTy} {w : Nat} (d : ScatterDims S SI SU) (idx : IVec SI w)
    {x : FVec Ideal S φ} {u : FVec Ideal SU φ} (hx : AllReal x) (hu : AllReal u) :
    AllReal (Host.scatterAdd (F := Ideal) d x idx u) := fun i => by
  show ∃ t : ℝ, Ideal.hostScatterAdd d x idx u i = (t : EReal)
  unfold Ideal.hostScatterAdd
  exact exists_real_add_sum _ _ _ (hx i) fun k _ => hu k

/-! ## Integers read as floats, and a choice whose condition is known -/

/-- A signed integer array read as floats is an array of reals: each entry is the integer itself. -/
theorem sitofp_allReal {S : Shape} {w : Nat} (φ : FTy) (x : IVec S w) : AllReal (sitofp (F := Ideal) φ x) :=
  fun i => ⟨((x i).toInt : ℝ), rfl⟩

/-- An unsigned integer array read as floats is an array of reals: each entry is the integer itself. -/
theorem uitofp_allReal {S : Shape} {w : Nat} (φ : FTy) (x : IVec S w) : AllReal (uitofp (F := Ideal) φ x) :=
  fun i => ⟨((x i).toNat : ℝ), rfl⟩

/-- The entrywise negative of an array of reals is an array of reals. -/
theorem negf_allReal {S : Shape} {φ : FTy} {a : FVec Ideal S φ} (ha : AllReal a) : AllReal (negf a) := fun i => by
  obtain ⟨r, hr⟩ := ha i
  exact ⟨-r, by show -(a i) = _; rw [hr, EReal.coe_neg]⟩

/-- Where the condition holds at every entry, the choice is its first array. -/
theorem select_of_true {S : Shape} {α : Type} {p : IVec S 1} (hp : ∀ i, p i = 1) (a b : S.Idx → α) : select p a b = a :=
  funext fun i => show (if p i = 1 then a i else b i) = a i from if_pos (hp i)

/-- Where the condition fails at every entry, the choice is its second array. -/
theorem select_of_false {S : Shape} {α : Type} {p : IVec S 1} (hp : ∀ i, p i ≠ 1) (a b : S.Idx → α) : select p a b = b :=
  funext fun i => show (if p i = 1 then a i else b i) = b i from if_neg (hp i)

/-- So such a choice is an array of reals as soon as its first array is, whatever the second holds. -/
theorem select_allReal_of_true {S : Shape} {p : IVec S 1} (hp : ∀ i, p i = 1) {a : S.Idx → EReal} (b : S.Idx → EReal)
    (ha : AllReal a) : AllReal (select p a b) := by
  rw [select_of_true hp]; exact ha

/-- The comparison `x > y` answers `1` at an entry where `y` is below `x`. -/
theorem cmpf_ogt_eq_one {S : Shape} {φ : FTy} {x y : FVec Ideal S φ} {i : S.Idx} (h : y i < x i) :
    cmpf (F := Ideal) .ogt x y i = 1 := by
  show BitVec.ofBool (decide (y i < x i)) = 1
  simp [h]

/-! ## Signs: arrays of reals that are at least zero -/

/-- Every entry of the array is a real number that is at least zero. -/
def AllNonneg {S : Shape} (a : S.Idx → EReal) : Prop := ∀ i, ∃ r : ℝ, 0 ≤ r ∧ a i = (r : EReal)

/-- Positive reals are at least zero. -/
theorem AllPos.allNonneg {S : Shape} {a : S.Idx → EReal} (h : AllPos a) : AllNonneg a := fun i => by
  obtain ⟨r, hr, e⟩ := h i
  exact ⟨r, hr.le, e⟩

/-- Reals that are at least zero are reals. -/
theorem AllNonneg.allReal {S : Shape} {a : S.Idx → EReal} (h : AllNonneg a) : AllReal a := fun i => by
  obtain ⟨r, _, e⟩ := h i
  exact ⟨r, e⟩

/-- A finite sum of extended reals each of which is a real at least zero is a real at least zero. -/
theorem exists_nonneg_sum {ι : Type} (s : Finset ι) (f : ι → EReal) (h : ∀ k ∈ s, ∃ r : ℝ, 0 ≤ r ∧ f k = (r : EReal)) :
    ∃ r : ℝ, 0 ≤ r ∧ ∑ k ∈ s, f k = (r : EReal) := by
  classical
  choose! g hg0 hg using h
  exact ⟨∑ k ∈ s, g k, Finset.sum_nonneg hg0, by rw [coe_finset_sum]; exact Finset.sum_congr rfl hg⟩

/-- A real at least zero plus such a sum is a real at least zero. -/
theorem exists_nonneg_add_sum {ι : Type} (s : Finset ι) (c : EReal) (f : ι → EReal)
    (hc : ∃ r : ℝ, 0 ≤ r ∧ c = (r : EReal)) (h : ∀ k ∈ s, ∃ r : ℝ, 0 ≤ r ∧ f k = (r : EReal)) :
    ∃ r : ℝ, 0 ≤ r ∧ c + ∑ k ∈ s, f k = (r : EReal) := by
  obtain ⟨r0, h0, hr0⟩ := hc
  obtain ⟨r, h1, hr⟩ := exists_nonneg_sum s f h
  exact ⟨r0 + r, add_nonneg h0 h1, by rw [hr0, hr, EReal.coe_add]⟩

section Signs
variable {S : Shape} {φ : FTy}

/-- A constant array whose bit pattern denotes a real at least zero is an array of such reals. -/
theorem constant_allNonneg (S : Shape) (φ : FTy) (w : BitVec φ.bits) {r : ℝ} (hr : 0 ≤ r)
    (h : Ideal.ofBits φ w = (r : EReal)) : AllNonneg (constant (F := Ideal) S φ w) := fun _ => ⟨r, hr, h⟩

/-- Repeating an array of reals at least zero along new axes gives an array of reals at least zero. -/
theorem broadcastInDim_allNonneg {T : Shape} (dims : Fin S.rank → Fin T.rank) (h : S.BroadcastsInDim T dims)
    {a : S.Idx → EReal} (ha : AllNonneg a) : AllNonneg (broadcastInDim T dims h a) := fun _ => ha _

/-- The sum of two arrays of reals at least zero is an array of reals at least zero. -/
theorem addf_allNonneg {a b : FVec Ideal S φ} (ha : AllNonneg a) (hb : AllNonneg b) : AllNonneg (addf a b) := fun i => by
  obtain ⟨r, hr0, hr⟩ := ha i
  obtain ⟨t, ht0, ht⟩ := hb i
  exact ⟨r + t, add_nonneg hr0 ht0, by show a i + b i = _; rw [hr, ht, EReal.coe_add]⟩

/-- The product of two arrays of reals at least zero is an array of reals at least zero. -/
theorem mulf_allNonneg {a b : FVec Ideal S φ} (ha : AllNonneg a) (hb : AllNonneg b) : AllNonneg (mulf a b) := fun i => by
  obtain ⟨r, hr0, hr⟩ := ha i
  obtain ⟨t, ht0, ht⟩ := hb i
  exact ⟨r * t, mul_nonneg hr0 ht0, by show a i * b i = _; rw [hr, ht, EReal.coe_mul]⟩

/-- The entrywise square of an array of reals is an array of reals at least zero. -/
theorem mulf_self_allNonneg {a : FVec Ideal S φ} (ha : AllReal a) : AllNonneg (mulf a a) := fun i => by
  obtain ⟨r, hr⟩ := ha i
  exact ⟨r * r, mul_self_nonneg r, by show a i * a i = _; rw [hr, EReal.coe_mul]⟩

/-- The entrywise maximum of an array of reals with an array of reals at least zero is at least zero: the rectifier
    `max x 0` among them. -/
theorem maximumf_allNonneg_right {a b : FVec Ideal S φ} (ha : AllReal a) (hb : AllNonneg b) :
    AllNonneg (maximumf a b) := fun i => by
  show ∃ r : ℝ, 0 ≤ r ∧ max (a i) (b i) = (r : EReal)
  obtain ⟨r, hr⟩ := ha i
  obtain ⟨t, ht0, ht⟩ := hb i
  refine ⟨max r t, le_max_of_le_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- The quotient of an array of reals at least zero by an array of positive reals is an array of reals at least
    zero. -/
theorem divf_allNonneg {a b : FVec Ideal S φ} (ha : AllNonneg a) (hb : AllPos b) :
    AllNonneg (Host.divf (F := Ideal) a b) := fun i => by
  obtain ⟨r, hr0, hr⟩ := ha i
  obtain ⟨t, ht0, ht⟩ := hb i
  refine ⟨r * (1 / t), mul_nonneg hr0 (one_div_pos.mpr ht0).le, ?_⟩
  show Ideal.div (a i) (b i) = _
  rw [hr, ht, Ideal.div_coe ht0.ne', EReal.coe_mul]

/-- The sum of an array of reals at least zero along any axes, started from a real at least zero, is an array of
    reals at least zero. -/
theorem reduceAdd_allNonneg {T V : Shape} {axes : List (Fin S.rank)} {x : FVec Ideal S φ} {init : V.Idx → Ideal φ}
    (hx : AllNonneg x) (hinit : AllNonneg init) (h : S.ReducesTo axes T) (hv : 0 < V.numel) :
    AllNonneg (Host.reduceAdd (F := Ideal) x init h hv) := fun j => by
  show ∃ t : ℝ, 0 ≤ t ∧ Ideal.hostReduceAdd h x (init (Shape.Idx.first hv)) j = (t : EReal)
  unfold Ideal.hostReduceAdd
  exact exists_nonneg_add_sum _ _ _ (hinit _) fun k _ => hx k

/-- Accumulating updates that are reals at least zero into an array of reals at least zero gives an array of reals
    at least zero, whatever the indices: a count of how many updates land on each entry among them. -/
theorem scatterAdd_allNonneg {SI SU : Shape} {w : Nat} (d : ScatterDims S SI SU) (idx : IVec SI w)
    {x : FVec Ideal S φ} {u : FVec Ideal SU φ} (hx : AllNonneg x) (hu : AllNonneg u) :
    AllNonneg (Host.scatterAdd (F := Ideal) d x idx u) := fun i => by
  show ∃ t : ℝ, 0 ≤ t ∧ Ideal.hostScatterAdd d x idx u i = (t : EReal)
  unfold Ideal.hostScatterAdd
  exact exists_nonneg_add_sum _ _ _ (hx i) fun k _ => hu k

end Signs

end Cert.LibReal

end
-- ==== Proof.BridgeReal.lean ====
/-
  Real numbers all the way: the array program's combined, rectified array has only real entries when its float
  inputs do, and the precondition says the float inputs do.

  The first half walks the term of the combined array from the outside in.  Every operation on the way is one of:
  an entrywise sum, product or maximum; a re-indexing; a constant that denotes zero or one; a matrix product; an
  accumulation of rows into a table; a reciprocal square root.  All but the last keep real entries real.  The
  reciprocal square root is taken of a node's degree: a count of edges (a sum of ones onto zero, so at least zero)
  plus one, so positive, and the reciprocal square root of a positive real is a positive real.

  The second half reads the precondition back.  It is a conjunction of ten tests, one per float input, each "every
  entry's absolute value is below plus infinity".  An extended real whose absolute value is below plus infinity
  is neither infinity: it is a real number.
-/
import proofs.«170314_j33887291965745_1_alg».proof.Proof.Forms
import proofs.«170314_j33887291965745_1_alg».proof.Proof.LibReal
import proofs.«170314_j33887291965745_1_alg».proof.Proof.Gen.Pre_finite_inputs
import Idealize.ShloMosaic.Lib.ReduceAll

noncomputable section

namespace Cert.BridgeReal

open Idealize.ShloMosaic Cert.LibReal

/-! ## The combined array has real entries -/

section Combined
open Cert.ReferenceIdeal Cert.ReferenceIdeal.Terms

/-- The degree root is positive: the degree is a count (ones summed onto zero) plus one. -/
theorem dis_pos (dst : IVec S1600000 32) : AllPos (disOf (F := Ideal) dst) := by
  unfold disOf
  refine rsqrt_allPos (addf_allPos_of_nonneg ?_ ?_)
  · exact scatterAdd_allNonneg _ _ (broadcastInDim_allNonneg _ _ (constant_allNonneg _ _ _ le_rfl ofBits_zero))
      (broadcastInDim_allNonneg _ _ (constant_allNonneg _ _ _ zero_le_one ofBits_one))
  · exact broadcastInDim_allPos _ _ (constant_allPos _ _ _ one_pos ofBits_one)

/-- An edge's weight, the product of the degree roots at its two ends, is real. -/
theorem norm_real (src dst : IVec S1600000 32) : AllReal (normOf (F := Ideal) src dst) := by
  unfold normOf
  exact mulf_allReal (gather_allReal _ _ (dis_pos dst).allReal) (gather_allReal _ _ (dis_pos dst).allReal)

/-- The linear layer of real features and real weights is real: each entry is a finite sum of products. -/
theorem lin_real (f : FVec Ideal S100000x2 .f32) (w : FVec Ideal S2x128 .f32) (hf : AllReal f) (hw : AllReal w) :
    AllReal (linOf (F := Ideal) f w) := by
  unfold linOf
  exact dotGeneral_allReal _ _ hf hw

/-- The neighbours' sum of real rows with real weights is real: zero plus a finite sum of products. -/
theorem agg_real (src dst : IVec S1600000 32) (norm : FVec Ideal S1600000 .f32) (h : FVec Ideal S100000x128 .f32)
    (hn : AllReal norm) (hh : AllReal h) : AllReal (aggOf (F := Ideal) src dst norm h) := by
  unfold aggOf
  exact scatterAdd_allReal _ _ (broadcastInDim_allReal _ _ (constant_allReal _ _ _ ofBits_zero))
    (mulf_allReal (gather_allReal _ _ hh) (broadcastInDim_allReal _ _ (broadcastInDim_allReal _ _ hn)))

/-- The combination of real arrays — neighbours' sum, own row times the squared root, bias — floored at zero is real. -/
theorem comb_real (a h : FVec Ideal S100000x128 .f32) (dis : FVec Ideal S100000 .f32) (gb : FVec Ideal S128 .f32)
    (ha : AllReal a) (hh : AllReal h) (hd : AllReal dis) (hg : AllReal gb) : AllReal (combOf (F := Ideal) a h dis gb) := by
  unfold combOf rowsOf
  refine maximumf_allReal (addf_allReal (addf_allReal ha (mulf_allReal hh ?_)) ?_) ?_
  · exact broadcastInDim_allReal _ _ (broadcastInDim_allReal _ _ (mulf_allReal hd hd))
  · exact broadcastInDim_allReal _ _ (broadcastInDim_allReal _ _ hg)
  · exact broadcastInDim_allReal _ _ (constant_allReal _ _ _ ofBits_zero)

end Combined

/-- With real features, weights and bias every entry of the combined, rectified array is a real number. -/
theorem x_real (f : FVec Ideal Cert.ReferenceIdeal.S100000x2 .f32) (e : IVec Cert.ReferenceIdeal.S2x1600000 32)
    (w : FVec Ideal Cert.ReferenceIdeal.S2x128 .f32) (γ : FVec Ideal Cert.ReferenceIdeal.S128 .f32)
    (hf : AllReal f) (hw : AllReal w) (hγ : AllReal γ) : AllReal (Cert.Forms.xR f e w γ) := by
  unfold Cert.Forms.xR
  exact comb_real _ _ _ _ (agg_real _ _ _ _ (norm_real _ _) (lin_real f w hf hw)) (lin_real f w hf hw)
    (dis_pos _).allReal hγ

/-! ## The precondition, read back -/

/-- The single-precision pattern with all exponent bits set and no significand bit denotes plus infinity. -/
theorem ofBits_inf : Ideal.ofBits .f32 0x7F800000#32 = (⊤ : EReal) := by
  simp [Ideal.ofBits, Ideal.ieee]

/-- An extended real whose absolute value, the larger of it and its negative, is below plus infinity is a real. -/
theorem real_of_abs_lt_top (x : EReal) (h : max x (-x) < ⊤) : ∃ r : ℝ, x = (r : EReal) := by
  induction x using EReal.rec with
  | bot => simp at h
  | coe r => exact ⟨r, rfl⟩
  | top => simp at h

/-- The rank-0 shape has one index. -/
instance : Subsingleton Cert.Pre_finite_inputs.S_.Idx := ⟨fun a b => funext fun d => d.elim0⟩

/-- An array every entry of which passes the test "absolute value below plus infinity" is an array of reals. -/
theorem allReal_of_abs_lt_inf {S : Shape}
    (hb : Cert.Pre_finite_inputs.S_.BroadcastsInDim S (![] : Fin 0 → Fin S.rank)) (a : FVec Ideal S .f32)
    (h : ∀ i, cmpf (F := Ideal) .olt (Host.absf a)
      (broadcastInDim S ![] hb (constant Cert.Pre_finite_inputs.S_ .f32 0x7F800000#32)) i = 1#1) : AllReal a := fun i => by
  have hi : BitVec.ofBool (decide (max (a i) (-(a i)) < Ideal.ofBits .f32 0x7F800000#32)) = 1#1 := h i
  rw [ofBits_inf] at hi
  have hd : decide (max (a i) (-(a i)) < (⊤ : EReal)) = true := by
    cases hb : decide (max (a i) (-(a i)) < (⊤ : EReal)) with
    | true => rfl
    | false => rw [hb] at hi; exact absurd hi (by decide)
  exact real_of_abs_lt_top (a i) (of_decide_eq_true hd)

/-- Under the precondition the float inputs the pooled row depends on hold real numbers. -/
theorem inputs_real (a0 : FVec Ideal Cert.Pre_finite_inputs.S100000x2 .f32) (a1 : IVec Cert.Pre_finite_inputs.S2x1600000 32)
    (a2 : FVec Ideal Cert.Pre_finite_inputs.S1x500 .f32) (a3 : FVec Ideal Cert.Pre_finite_inputs.S2x128 .f32)
    (a4 a5 a6 : FVec Ideal Cert.Pre_finite_inputs.S128 .f32) (a7 : FVec Ideal Cert.Pre_finite_inputs.S628x128 .f32)
    (a8 : FVec Ideal Cert.Pre_finite_inputs.S128 .f32) (a9 : FVec Ideal Cert.Pre_finite_inputs.S128x16 .f32)
    (a10 : FVec Ideal Cert.Pre_finite_inputs.S16 .f32)
    (h : Cert.Pre_finite_inputs.fn (F := Ideal) a0 a1 a2 a3 a4 a5 a6 a7 a8 a9 a10 = fun _ => 1#1) :
    AllReal a0 ∧ AllReal a3 ∧ AllReal a4 ∧ AllReal a5 ∧ AllReal a6 := by
  have h0 := congrFun h ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨h_0, _⟩, h_3⟩, h_4⟩, h_5⟩, h_6⟩, _⟩, _⟩, _⟩, _⟩ := h0
  exact ⟨allReal_of_abs_lt_inf _ a0 (Host.reduce_andi_all _ _ _ _ _ h_0),
    allReal_of_abs_lt_inf _ a3 (Host.reduce_andi_all _ _ _ _ _ h_3),
    allReal_of_abs_lt_inf _ a4 (Host.reduce_andi_all _ _ _ _ _ h_4),
    allReal_of_abs_lt_inf _ a5 (Host.reduce_andi_all _ _ _ _ _ h_5),
    allReal_of_abs_lt_inf _ a6 (Host.reduce_andi_all _ _ _ _ _ h_6)⟩

end Cert.BridgeReal

end
-- ==== Proof.Stats.lean ====
/-
  The variance of finitely many real numbers, taken two ways.

  Let x be real numbers indexed by a finite set of c elements, S their sum, μ = S / c their mean.
    • The centred numbers x − μ sum to zero (c · μ = S), so their own mean is zero.
    • Hence the mean of the squares of (x − μ) − mean (x − μ) is the mean of the squares of x − μ, which is
      Σ x² / c − μ² (expand the square: Σ (x − μ)² = Σ x² − 2 μ S + c μ²).
    • It is the mean of squares, so it is at least zero.
-/
import Mathlib.Algebra.BigOperators.Group.Finset.Basic
import Mathlib.Algebra.BigOperators.Ring.Finset
import Mathlib.Algebra.Order.BigOperators.Ring.Finset
import Mathlib.Data.Fintype.Card
import Mathlib.Data.Real.Basic
import Mathlib.Tactic.Ring
import Mathlib.Tactic.FieldSimp
import Mathlib.Tactic.Linarith

namespace Cert.Stats

open scoped BigOperators

variable {ι : Type} [Fintype ι]

/-- The numbers less their mean sum to zero. -/
theorem sum_centred (x : ι → ℝ) (c : ℝ) (hc : c = (Fintype.card ι : ℝ)) (h0 : c ≠ 0) :
    ∑ i, (x i - (∑ k, x k) / c) = 0 := by
  rw [Finset.sum_sub_distrib, Finset.sum_const, Finset.card_univ, nsmul_eq_mul, ← hc]
  field_simp
  ring

/-- The sum of the squares of the centred numbers: `Σ (x − μ)² = Σ x² − c μ²`. -/
theorem sum_sq_centred (x : ι → ℝ) (c : ℝ) (hc : c = (Fintype.card ι : ℝ)) (h0 : c ≠ 0) :
    ∑ i, (x i - (∑ k, x k) / c) * (x i - (∑ k, x k) / c)
      = ∑ i, x i * x i - c * (((∑ k, x k) / c) * ((∑ k, x k) / c)) := by
  have h : ∀ i, (x i - (∑ k, x k) / c) * (x i - (∑ k, x k) / c)
      = x i * x i - 2 * ((∑ k, x k) / c) * x i + ((∑ k, x k) / c) * ((∑ k, x k) / c) := fun i => by ring
  simp only [h]
  rw [Finset.sum_add_distrib, Finset.sum_sub_distrib, ← Finset.mul_sum, Finset.sum_const, Finset.card_univ,
    nsmul_eq_mul, ← hc]
  field_simp
  ring

/-- **The two-pass variance is the mean of the squares less the square of the mean.** -/
theorem two_pass (x : ι → ℝ) (c : ℝ) (hc : c = (Fintype.card ι : ℝ)) (h0 : c ≠ 0) :
    (∑ i, ((x i - (∑ k, x k) / c) - (∑ k, (x k - (∑ l, x l) / c)) / c)
          * ((x i - (∑ k, x k) / c) - (∑ k, (x k - (∑ l, x l) / c)) / c)) / c
      = (∑ i, x i * x i) / c - ((∑ i, x i) / c) * ((∑ i, x i) / c) := by
  rw [sum_centred x c hc h0]
  simp only [zero_div, sub_zero]
  rw [sum_sq_centred x c hc h0]
  field_simp

/-- The mean of the squares less the square of the mean is at least zero. -/
theorem var_nonneg (x : ι → ℝ) (c : ℝ) (hc : c = (Fintype.card ι : ℝ)) (h0 : 0 < c) :
    0 ≤ (∑ i, x i * x i) / c - ((∑ i, x i) / c) * ((∑ i, x i) / c) := by
  rw [← two_pass x c hc h0.ne']
  exact div_nonneg (Finset.sum_nonneg fun i _ => mul_self_nonneg _) h0.le

end Cert.Stats
-- ==== Proof.BridgePool.lean ====
import proofs.«170314_j33887291965745_1_alg».proof.Proof.Forms
import proofs.«170314_j33887291965745_1_alg».proof.Proof.LibReal
import proofs.«170314_j33887291965745_1_alg».proof.Proof.Stats
import Idealize.ShloMosaic.PureOps.Ideal.Laws
import Idealize.ShloMosaic.Lib.ValueIdx
import Idealize.ShloMosaic.Lib.ValueLayout
import Idealize.ShloMosaic.Lib.Pipeline.Value

noncomputable section

namespace Cert.BridgePool

open Idealize.ShloMosaic Idealize.ShloMosaic.ValueIdx Cert.LibReal

/-!
  The pooled row, taken two ways, over arrays of real numbers.

  Let x be a node array of n = 100000 · 128 = 12800000 real entries, S = Σ x its total, Q = Σ x² the total of its
  squares, μ = S / n its mean, and λ, β real scale and shift rows.

    • One way: the variance is Q / n − μ², the reciprocal ι = 1 / (√(Q / n − μ²) + ε), and the pooled row at channel
      q is Σ_r ((x[r, q] − μ) · ι · λ[q] + β[q]).
    • The other way: y = x − μ; the two-pass variance v of y, the mean of the squares of y − mean y, over the count
      n − 0 (positive, so the choice on the count takes the quotient); d = √v + ε; the pooled row at channel q is
      0 + Σ_r ((y[r, q] / d) · λ[q] + β[q]).

  They agree: y sums to zero, so v = Σ y² / n = Q / n − μ² (the two-pass identity); that is at least zero, so its
  root is the real root; ε > 0, so d is a positive real and a quotient by d is the product with 1 / d.

  The file reads every operation at an index over real entries: first the real scalars (count, mean, variance,
  deviation), then the array program's scalars, the layout operations (a row cast, a row repeated down the rows, a
  column sum), the tiled program's scalars, one entry each way, and the sum.
-/

/-- The index set of a node array: a row and a channel. -/
abbrev NI : Type := Cert.ReferenceIdeal.S100000x128.Idx

/-- The number of entries of a node array, 100000 · 128. -/
def cnt : ℝ := 12800000

theorem cnt_pos : (0 : ℝ) < cnt := by unfold cnt; norm_num

theorem card_NI : cnt = (Fintype.card NI : ℝ) := by
  rw [Fintype.card_congr (idxEquiv2 (n0 := 100000) (n1 := 128)), Fintype.card_prod, Fintype.card_fin, Fintype.card_fin]
  unfold cnt; norm_num

/-- The single-precision pattern `0x4B435000` (biased exponent 150, significand `12800000 / 2^23`) denotes 12800000. -/
theorem ofBits_cnt : Ideal.ofBits .f32 0x4B435000#32 = ((cnt : ℝ) : EReal) := by
  unfold cnt; simp [Ideal.ofBits, Ideal.ieee, -EReal.coe_mul]

/-- The small constant added to the deviation. -/
def eps : ℝ := 10995116 / 2 ^ 40

/-- The mean of the entries. -/
def muR (a : NI → ℝ) : ℝ := (∑ i, a i) / cnt

/-- The mean of the squares less the square of the mean. -/
def varR (a : NI → ℝ) : ℝ := (∑ i, a i * a i) / cnt - muR a * muR a

/-- The deviation plus the small constant. -/
def devR (a : NI → ℝ) : ℝ := Real.sqrt (varR a) + eps

theorem varR_nonneg (a : NI → ℝ) : 0 ≤ varR a := Cert.Stats.var_nonneg a cnt card_NI cnt_pos

theorem devR_pos (a : NI → ℝ) : 0 < devR a := add_pos_of_nonneg_of_pos (Real.sqrt_nonneg _) eps_pos

/-- The two-pass variance of the centred entries is the mean of the squares less the square of the mean. -/
theorem two_pass_cen (a : NI → ℝ) :
    (∑ i, ((a i - muR a) - muR (fun k => a k - muR a)) * ((a i - muR a) - muR (fun k => a k - muR a))) / cnt = varR a :=
  Cert.Stats.two_pass a cnt card_NI cnt_pos.ne'

/-! ## The array program's scalars over an array of reals -/

/-- The total of an array of reals is the real total. -/
theorem sumOf_coe (a : NI → ℝ) (j : Cert.ReferenceIdeal.S_.Idx) :
    Cert.ReferenceIdeal.Terms.sumOf (F := Ideal) (fun i => ((a i : ℝ) : EReal)) j = ((∑ i, a i : ℝ) : EReal) := by
  show Ideal.hostReduceAdd _ _ (Ideal.ofBits .f32 0x00000000#32) j = _
  rw [Ideal.hostReduceAdd_total _ (fun b => b.elim0), ofBits_zero, ← coe_finset_sum, ← EReal.coe_add, zero_add]

/-- An array of reals less its mean. -/
theorem cenOf_coe (a : NI → ℝ) :
    Cert.ReferenceIdeal.Terms.cenOf (F := Ideal) (fun i => ((a i : ℝ) : EReal)) = fun i => ((a i - muR a : ℝ) : EReal) := by
  funext i
  show ((a i : ℝ) : EReal) - Ideal.div (Cert.ReferenceIdeal.Terms.sumOf (F := Ideal) (fun i => ((a i : ℝ) : EReal)) _)
    (Ideal.ofBits .f32 0x4B435000#32) = _
  rw [sumOf_coe, ofBits_cnt, Ideal.div_coe cnt_pos.ne', ← EReal.coe_mul, ← EReal.coe_sub, muR, mul_one_div]

/-- The same once more, as the two-pass variance takes it. -/
theorem recOf_coe (a : NI → ℝ) :
    Cert.ReferenceIdeal.Terms.recOf (F := Ideal) (fun i => ((a i : ℝ) : EReal)) = fun i => ((a i - muR a : ℝ) : EReal) := by
  funext i
  show ((a i : ℝ) : EReal) - Ideal.div (Cert.ReferenceIdeal.Terms.sumOf (F := Ideal) (fun i => ((a i : ℝ) : EReal)) _)
    (Ideal.ofBits .f32 0x4B435000#32) = _
  rw [sumOf_coe, ofBits_cnt, Ideal.div_coe cnt_pos.ne', ← EReal.coe_mul, ← EReal.coe_sub, muR, mul_one_div]

/-- The entrywise square of an array of reals. -/
theorem mulf_self_coe (b : NI → ℝ) :
    mulf (F := Ideal) (φ := .f32) (fun i => ((b i : ℝ) : EReal)) (fun i => ((b i : ℝ) : EReal)) = fun i => ((b i * b i : ℝ) : EReal) :=
  funext fun i => (EReal.coe_mul _ _).symm

/-- The count: the number of entries less zero. -/
theorem cntOf_eq (j : Cert.ReferenceIdeal.S_.Idx) : Cert.ReferenceIdeal.Terms.cntOf (F := Ideal) j = ((cnt : ℝ) : EReal) := by
  show Ideal.ofBits .f32 0x4B435000#32 - (((0#32 : BitVec 32).toInt : ℝ) : EReal) = _
  rw [ofBits_cnt, ← EReal.coe_sub]
  simp

/-- The count is positive, so the choice takes the quotient. -/
theorem cnt_cond (j : Cert.ReferenceIdeal.S_.Idx) :
    cmpf (F := Ideal) .ogt (Cert.ReferenceIdeal.Terms.cntOf (F := Ideal)) (constant Cert.ReferenceIdeal.S_ .f32 0x00000000#32) j = 1 := by
  refine cmpf_ogt_eq_one ?_
  rw [cntOf_eq]
  show Ideal.ofBits .f32 0x00000000#32 < _
  rw [ofBits_zero]
  exact EReal.coe_lt_coe_iff.mpr cnt_pos

/-- The two-pass variance of an array of reals. -/
theorem varOf_coe (b : NI → ℝ) (j : Cert.ReferenceIdeal.S_.Idx) :
    Cert.ReferenceIdeal.Terms.varOf (F := Ideal) (fun i => ((b i : ℝ) : EReal)) j
      = (((∑ i, (b i - muR b) * (b i - muR b)) / cnt : ℝ) : EReal) := by
  unfold Cert.ReferenceIdeal.Terms.varOf
  rw [select_of_true cnt_cond]
  show Ideal.div (Cert.ReferenceIdeal.Terms.sumOf (F := Ideal) (mulf (Cert.ReferenceIdeal.Terms.recOf (F := Ideal) _)
    (Cert.ReferenceIdeal.Terms.recOf (F := Ideal) _)) _) (Cert.ReferenceIdeal.Terms.cntOf (F := Ideal) j) = _
  rw [recOf_coe, mulf_self_coe, sumOf_coe, cntOf_eq, Ideal.div_coe cnt_pos.ne', ← EReal.coe_mul, mul_one_div]

/-- The deviation plus the small constant, of an array of reals less its mean. -/
theorem devOf_cen (a : NI → ℝ) (j : Cert.ReferenceIdeal.S_.Idx) :
    Cert.ReferenceIdeal.Terms.devOf (F := Ideal) (fun i => ((a i - muR a : ℝ) : EReal)) j = ((devR a : ℝ) : EReal) := by
  show Ideal.sqrt (Cert.ReferenceIdeal.Terms.varOf (F := Ideal) (fun i => ((a i - muR a : ℝ) : EReal)) j)
    + Ideal.ofBits .f32 0x3727C5AC#32 = _
  rw [varOf_coe, two_pass_cen, Ideal.sqrt_coe, if_neg (not_lt.mpr (varR_nonneg a)), ofBits_eps, ← EReal.coe_add]
  rfl

/-! ## Layout operations read at an index -/

/-- A vector as a one-row array, read at channel `q`: the vector there. -/
theorem rowOf_apply (v : FVec Ideal Cert.KernelIdeal.S128 .f32) (q : Fin 128) :
    Cert.KernelIdeal.Terms.rowOf (F := Ideal) v (ix2 (0 : Fin 1) q) = v (ix1 q) := by
  unfold Cert.KernelIdeal.Terms.rowOf
  exact shapeCast_apply v _ (ix2 (0 : Fin 1) q) (ix1 q) (by
    rw [Shape.rowMajor_val_two, Shape.rowMajor_val_one]; show q.val = 0 * 128 + q.val; omega)

/-- A vector repeated down the rows, read at row `r`, channel `q`: the vector at `q`. -/
theorem rowsOf_apply (v : FVec Ideal Cert.ReferenceIdeal.S128 .f32) (r : Fin 100000) (q : Fin 128) :
    Cert.ReferenceIdeal.Terms.rowsOf (F := Ideal) v (ix2 r q) = v (ix1 q) := by
  unfold Cert.ReferenceIdeal.Terms.rowsOf
  rw [broadcastInDim_apply _ _ _ (ix2 r q) (ix2 (0 : Fin 1) q) (by
      intro a; match a with | ⟨0, _⟩ => rfl | ⟨1, _⟩ => rfl),
    broadcastInDim_apply _ _ _ (ix2 (0 : Fin 1) q) (ix1 q) (by
      intro a; match a with | ⟨0, _⟩ => rfl)]

/-- The column sums as a row, read at channel `q`: the sum of column `q` over the rows. -/
theorem pooledOf_apply (z : FVec Ideal Cert.ReferenceIdeal.S100000x128 .f32) (q : Fin 128) :
    Cert.ReferenceIdeal.Terms.pooledOf (F := Ideal) z (ix2 (0 : Fin 1) q) = ∑ r : Fin 100000, z (ix2 r q) := by
  unfold Cert.ReferenceIdeal.Terms.pooledOf
  rw [broadcastInDim_apply _ _ _ (ix2 (0 : Fin 1) q) (ix1 q) (by
      intro a; match a with | ⟨0, _⟩ => rfl)]
  show Ideal.hostReduceAdd _ z (Ideal.ofBits .f32 0x00000000#32) (ix1 q) = _
  rw [Ideal.hostReduceAdd_single _ (by decide : Cert.ReferenceIdeal.S100000x128.Reduces [0] Cert.ReferenceIdeal.S128),
    Ideal.ofBits_zero_f32, zero_add]
  refine Finset.sum_congr rfl fun r _ => congrArg z ?_
  funext a
  exact Fin.ext (by match a with | ⟨0, _⟩ => rfl | ⟨1, _⟩ => rfl)

/-! ## The tiled program's scalars over an array of reals -/

/-- The total of an array of reals is the real total. -/
theorem total_coe (a : NI → ℝ) : Cert.Spec.total (fun i => ((a i : ℝ) : EReal)) = ((∑ i, a i : ℝ) : EReal) := by
  unfold Cert.Spec.total
  rw [coe_finset_sum]
  exact (sum_idx2 (fun i : NI => ((a i : ℝ) : EReal))).symm

/-- The total of the squares of an array of reals is the real total of the squares. -/
theorem totalSq_coe (a : NI → ℝ) : Cert.Spec.totalSq (fun i => ((a i : ℝ) : EReal)) = ((∑ i, a i * a i : ℝ) : EReal) := by
  unfold Cert.Spec.totalSq
  simp only [← EReal.coe_mul]
  rw [coe_finset_sum]
  exact (sum_idx2 (fun i : NI => ((a i * a i : ℝ) : EReal))).symm

/-- The mean from a real total. -/
theorem meanOf_coe (S : ℝ) (i : Cert.KernelIdeal.S1x1.Idx) :
    Cert.KernelIdeal.Terms.meanOf (F := Ideal) (fun _ => ((S : ℝ) : EReal)) i = ((S / cnt : ℝ) : EReal) := by
  show Ideal.div ((S : ℝ) : EReal) (Ideal.ofBits .f32 0x4B435000#32) = _
  rw [ofBits_cnt, Ideal.div_coe cnt_pos.ne', ← EReal.coe_mul, mul_one_div]

/-- The variance from real totals: the mean of the squares less the square of the mean. -/
theorem varOfK_coe (S Q : ℝ) (i : Cert.KernelIdeal.S1x1.Idx) :
    Cert.KernelIdeal.Terms.varOf (F := Ideal) (fun _ => ((S : ℝ) : EReal)) (fun _ => ((Q : ℝ) : EReal)) i
      = ((Q / cnt - S / cnt * (S / cnt) : ℝ) : EReal) := by
  show Ideal.div ((Q : ℝ) : EReal) (Ideal.ofBits .f32 0x4B435000#32)
    - Cert.KernelIdeal.Terms.meanOf (F := Ideal) (fun _ => ((S : ℝ) : EReal)) i
      * Cert.KernelIdeal.Terms.meanOf (F := Ideal) (fun _ => ((S : ℝ) : EReal)) i = _
  rw [meanOf_coe, ofBits_cnt, Ideal.div_coe cnt_pos.ne', ← EReal.coe_mul, ← EReal.coe_mul, ← EReal.coe_sub, mul_one_div]

/-- The reciprocal of the deviation plus the small constant, from the real totals of an array. -/
theorem invOf_coe (a : NI → ℝ) (i : Cert.KernelIdeal.S1x1.Idx) :
    Cert.KernelIdeal.Terms.invOf (F := Ideal) (fun _ => ((∑ k, a k : ℝ) : EReal)) (fun _ => ((∑ k, a k * a k : ℝ) : EReal)) i
      = ((1 / devR a : ℝ) : EReal) := by
  show Ideal.div (Ideal.ofBits .f32 0x3F800000#32)
    (Ideal.sqrt (Cert.KernelIdeal.Terms.varOf (F := Ideal) (fun _ => ((∑ k, a k : ℝ) : EReal))
      (fun _ => ((∑ k, a k * a k : ℝ) : EReal)) i) + Ideal.ofBits .f32 0x3727C5AC#32) = _
  rw [varOfK_coe, ofBits_one, ofBits_eps]
  have hv : (∑ k, a k * a k) / cnt - (∑ k, a k) / cnt * ((∑ k, a k) / cnt) = varR a := rfl
  rw [hv, Ideal.sqrt_coe, if_neg (not_lt.mpr (varR_nonneg a)), ← EReal.coe_add]
  show Ideal.div ((1 : ℝ) : EReal) ((devR a : ℝ) : EReal) = _
  rw [Ideal.div_coe (devR_pos a).ne', ← EReal.coe_mul, one_mul]

/-! ## One entry of the normalised array, each way, and the pooled row -/

/-- The tiled program's entry: `(x − μ) · ι · λ + β` over reals. -/
theorem normAt_coe (a : NI → ℝ) (m t : ℝ) (lw lb : FVec Ideal Cert.KernelIdeal.S128 .f32)
    (lwr lbr : Cert.KernelIdeal.S128.Idx → ℝ) (hlw : ∀ k, lw k = ((lwr k : ℝ) : EReal)) (hlb : ∀ k, lb k = ((lbr k : ℝ) : EReal))
    (r : Fin 100000) (q : Fin 128) :
    Cert.Spec.normAt (fun i => ((a i : ℝ) : EReal)) ((m : ℝ) : EReal) ((t : ℝ) : EReal)
        (Cert.KernelIdeal.Terms.rowOf (F := Ideal) lw) (Cert.KernelIdeal.Terms.rowOf (F := Ideal) lb) r q
      = (((a (ix2 r q) - m) * t * lwr (ix1 q) + lbr (ix1 q) : ℝ) : EReal) := by
  unfold Cert.Spec.normAt
  rw [rowOf_apply, rowOf_apply, hlw, hlb, ← EReal.coe_sub, ← EReal.coe_mul, ← EReal.coe_mul, ← EReal.coe_add]

/-- The array program's entry: `((x − μ) / d) · λ + β` over reals, the quotient by `d` the product with `1 / d`. -/
theorem normedOf_apply (a : NI → ℝ) (lw lb : FVec Ideal Cert.ReferenceIdeal.S128 .f32)
    (lwr lbr : Cert.ReferenceIdeal.S128.Idx → ℝ) (hlw : ∀ k, lw k = ((lwr k : ℝ) : EReal)) (hlb : ∀ k, lb k = ((lbr k : ℝ) : EReal))
    (r : Fin 100000) (q : Fin 128) :
    Cert.ReferenceIdeal.Terms.normedOf (F := Ideal) (fun i => ((a i - muR a : ℝ) : EReal)) lw lb (ix2 r q)
      = (((a (ix2 r q) - muR a) * (1 / devR a) * lwr (ix1 q) + lbr (ix1 q) : ℝ) : EReal) := by
  show Ideal.div ((a (ix2 r q) - muR a : ℝ) : EReal)
      (Cert.ReferenceIdeal.Terms.devOf (F := Ideal) (fun i => ((a i - muR a : ℝ) : EReal)) _)
      * Cert.ReferenceIdeal.Terms.rowsOf (F := Ideal) lw (ix2 r q) + Cert.ReferenceIdeal.Terms.rowsOf (F := Ideal) lb (ix2 r q) = _
  rw [devOf_cen, rowsOf_apply, rowsOf_apply, hlw, hlb, Ideal.div_coe (devR_pos a).ne', ← EReal.coe_mul, ← EReal.coe_mul,
    ← EReal.coe_add]

/-- For an array of real entries and real scale and shift rows, the pooled row taken the tiled program's way (the
    totals, the variance as mean of squares less squared mean, the product with the reciprocal) is the pooled row
    taken the array program's way (centring, the two-pass variance, the quotient). -/
theorem pool_eq (x : FVec Ideal Cert.ReferenceIdeal.S100000x128 .f32) (lw lb : FVec Ideal Cert.ReferenceIdeal.S128 .f32)
    (hx : AllReal x) (hlw : AllReal lw) (hlb : AllReal lb) :
    Cert.Spec.pool x
        (Cert.KernelIdeal.Terms.meanOf (F := Ideal) (fun _ => Cert.Spec.total x) (ix2 (0 : Fin 1) (0 : Fin 1)))
        (Cert.KernelIdeal.Terms.invOf (F := Ideal) (fun _ => Cert.Spec.total x) (fun _ => Cert.Spec.totalSq x) (ix2 (0 : Fin 1) (0 : Fin 1)))
        (Cert.KernelIdeal.Terms.rowOf (F := Ideal) lw) (Cert.KernelIdeal.Terms.rowOf (F := Ideal) lb)
      = Cert.ReferenceIdeal.Terms.pooledOf (F := Ideal)
          (Cert.ReferenceIdeal.Terms.normedOf (F := Ideal) (Cert.ReferenceIdeal.Terms.cenOf (F := Ideal) x) lw lb) := by
  choose xr hxr using hx
  choose lwr hlwr using hlw
  choose lbr hlbr using hlb
  obtain rfl : x = fun i => ((xr i : ℝ) : EReal) := funext hxr
  funext i
  obtain ⟨p, q, rfl⟩ : ∃ (p : Fin 1) (q : Fin 128), i = ix2 p q := ⟨i 0, i 1, eq_ix2 i⟩
  obtain rfl : p = 0 := Subsingleton.elim _ _
  rw [total_coe, totalSq_coe, meanOf_coe, invOf_coe, cenOf_coe, pooledOf_apply]
  show Cert.Spec.poolAt _ _ _ _ _ q = _
  unfold Cert.Spec.poolAt
  refine Finset.sum_congr rfl fun r _ => ?_
  rw [normAt_coe xr _ _ lw lb lwr lbr hlwr hlbr, normedOf_apply xr lw lb lwr lbr hlwr hlbr]
  rfl

end Cert.BridgePool

end
-- ==== Proof.lean ====
/-
  A graph network's forward pass, tiled against whole-array: the two programs compute one function.

  Both programs take node features f [100000, 2], an edge list e [2, 1600000], a state row, the weights and bias of
  a linear layer, the scale and shift rows of a normalisation over the whole graph, and the weights of a two-layer
  head, and return the logarithm of the normalised exponentials of 16 logits.

    • Both build, by the same host operations, each node's degree root, each edge's weight and — from the linear
      layer h — the neighbours' sum.  The tiled program computes h = f·w in 25 blocks of 4000 rows as
      f[·,0]·w[0,·] + f[·,1]·w[1,·]; the array program as one matrix product.  A sum of two terms either way.
    • The combined, rectified array x = max (neighbours' sum + h · loop weight + bias) 0 is then the same array:
      the tiled program writes it block by block, and accumulates Σ x and Σ x² over the blocks.
    • The array program centres x by its mean μ, takes the two-pass variance of the centred array, divides by
      (√variance + ε), scales, shifts, and sums the columns.  The tiled program takes the variance as
      Σ x² / n − μ², multiplies by the reciprocal 1 / (√variance + ε), and accumulates the column sums over the
      blocks.  Over the reals these agree: the centred array has mean zero, so its two-pass variance is
      Σ (x − μ)² / n = Σ x² / n − μ² ≥ 0; and a quotient by a nonzero real is the product with its reciprocal.
      The precondition — every float input finite — makes every entry of x a real number (degrees are counts plus
      one, so their roots are positive reals; sums of finitely many reals are real), which is what carries the
      extended reals' arithmetic back to the reals'.
    • The pooled rows being one row, the common head returns one result.

  The three frames: the two kernel programs' by the generated frame certificates; the array program's is its run as
  a straight line of host operations with the result dropped.  The idealisation rewrote nothing, so `preserves`
  asks nothing.
-/
import proofs.«170314_j33887291965745_1_alg».proof.Defs
import proofs.«170314_j33887291965745_1_alg».proof.Proof.Gen.Kernel
import proofs.«170314_j33887291965745_1_alg».proof.Proof.Gen.Kernel.Frame
import proofs.«170314_j33887291965745_1_alg».proof.Proof.Gen.KernelIdeal
import proofs.«170314_j33887291965745_1_alg».proof.Proof.Gen.KernelIdeal.Frame
import proofs.«170314_j33887291965745_1_alg».proof.Proof.Gen.ReferenceIdeal
import proofs.«170314_j33887291965745_1_alg».proof.Proof.Gen.Pre_finite_inputs
import proofs.«170314_j33887291965745_1_alg».proof.Proof.KRun
import proofs.«170314_j33887291965745_1_alg».proof.Proof.KHost
import proofs.«170314_j33887291965745_1_alg».proof.Proof.RefRun
import proofs.«170314_j33887291965745_1_alg».proof.Proof.RefRead
import proofs.«170314_j33887291965745_1_alg».proof.Proof.BridgeX
import proofs.«170314_j33887291965745_1_alg».proof.Proof.BridgeReal
import proofs.«170314_j33887291965745_1_alg».proof.Proof.BridgePool
import Idealize.ShloMosaic.Adequacy
import Idealize.ShloMosaic.Init

noncomputable section

namespace Cert.Proof

open Idealize.ShloMosaic Idealize.ShloMosaic.TcCoe Idealize.SL.Sem

/-! ## The pooled rows are one row -/

/-- With real features, weights, bias, scale and shift, the tiled program's pooled row is the array program's. -/
theorem pooled_eq (f : FVec Ideal Cert.KernelIdeal.S100000x2 .f32) (e : IVec Cert.KernelIdeal.S2x1600000 32)
    (w : FVec Ideal Cert.KernelIdeal.S2x128 .f32) (γ lw lb : FVec Ideal Cert.KernelIdeal.S128 .f32)
    (hf : Cert.LibReal.AllReal f) (hw : Cert.LibReal.AllReal w) (hγ : Cert.LibReal.AllReal γ)
    (hlw : Cert.LibReal.AllReal lw) (hlb : Cert.LibReal.AllReal lb) :
    Cert.Forms.pooledK f e w γ lw lb = Cert.Forms.pooledR f e w γ lw lb := by
  unfold Cert.Forms.pooledK Cert.Forms.pooledR
  rw [Cert.BridgeX.x_eq f e w γ]
  exact Cert.BridgePool.pool_eq (Cert.Forms.xR f e w γ) lw lb (Cert.BridgeReal.x_real f e w γ hf hw hγ) hlw hlb

/-! ## The claims -/

theorem frame_k : Cert.frame_Kernel := fun m ρ _ => Cert.Kernel.Gen.frame m ρ

theorem frame_ki : Cert.frame_KernelIdeal := fun m ρ _ => Cert.KernelIdeal.Gen.frame m ρ

/-- The array program's frame: its run as a straight line, read at the arguments, which no operation writes. -/
theorem frame_ri : Cert.frame_ReferenceIdeal := fun m ρ _ =>
  (θ_run Cert.ReferenceIdeal.defs _ _).mono (fun _ h c =>
    have a := Cert.ReferenceIdeal.RefRead.arg_eq (StableHlo.launchContents m c)
    ⟨(h c Cert.ReferenceIdeal.main_arg0).trans a.1,
     (h c Cert.ReferenceIdeal.main_arg1).trans a.2.1,
     (h c Cert.ReferenceIdeal.main_arg2).trans a.2.2.1,
     (h c Cert.ReferenceIdeal.main_arg3).trans a.2.2.2.1,
     (h c Cert.ReferenceIdeal.main_arg4).trans a.2.2.2.2.1,
     (h c Cert.ReferenceIdeal.main_arg5).trans a.2.2.2.2.2.1,
     (h c Cert.ReferenceIdeal.main_arg6).trans a.2.2.2.2.2.2.1,
     (h c Cert.ReferenceIdeal.main_arg7).trans a.2.2.2.2.2.2.2.1,
     (h c Cert.ReferenceIdeal.main_arg8).trans a.2.2.2.2.2.2.2.2.1,
     (h c Cert.ReferenceIdeal.main_arg9).trans a.2.2.2.2.2.2.2.2.2.1,
     (h c Cert.ReferenceIdeal.main_arg10).trans a.2.2.2.2.2.2.2.2.2.2⟩)
    (Cert.ReferenceIdeal.RefRun.run_main (F := Ideal) m ρ)

theorem preserves : Cert.preserves_Kernel_KernelIdeal := trivial

/-- From memories agreeing on the arguments both programs end with the head of the one pooled row. -/
theorem algebraic : Cert.algebraic_KernelIdeal_ReferenceIdeal := by
  intro m ρ m' ρ' hpre hagree
  refine ⟨fun c => Cert.KernelIdeal.Terms.headOf (F := Ideal)
      (Cert.Forms.pooledK (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Host.out_eq m ρ c), (h c).2⟩)
      (Cert.KernelIdeal.Run.run_out (F := Ideal) m ρ)
  · refine (θ_run Cert.ReferenceIdeal.defs _ _).mono (fun _ h c => ?_) (Cert.ReferenceIdeal.RefRun.run_main (F := Ideal) m' ρ')
    have a := Cert.ReferenceIdeal.RefRead.arg_eq (StableHlo.launchContents m' c)
    refine ⟨?_, (h c Cert.ReferenceIdeal.main_arg0).trans a.1,
      (h c Cert.ReferenceIdeal.main_arg1).trans a.2.1,
      (h c Cert.ReferenceIdeal.main_arg2).trans a.2.2.1,
      (h c Cert.ReferenceIdeal.main_arg3).trans a.2.2.2.1,
      (h c Cert.ReferenceIdeal.main_arg4).trans a.2.2.2.2.1,
      (h c Cert.ReferenceIdeal.main_arg5).trans a.2.2.2.2.2.1,
      (h c Cert.ReferenceIdeal.main_arg6).trans a.2.2.2.2.2.2.1,
      (h c Cert.ReferenceIdeal.main_arg7).trans a.2.2.2.2.2.2.2.1,
      (h c Cert.ReferenceIdeal.main_arg8).trans a.2.2.2.2.2.2.2.2.1,
      (h c Cert.ReferenceIdeal.main_arg9).trans a.2.2.2.2.2.2.2.2.2.1,
      (h c Cert.ReferenceIdeal.main_arg10).trans a.2.2.2.2.2.2.2.2.2.2⟩
    obtain ⟨h0, h3, h4, h5, h6⟩ := Cert.BridgeReal.inputs_real _ _ _ _ _ _ _ _ _ _ _ (hpre c)
    refine (h c Cert.ReferenceIdeal.main_v74).trans ((Cert.ReferenceIdeal.RefRead.out_eq (StableHlo.launchContents m' c)).trans ?_)
    show Cert.ReferenceIdeal.Terms.headOf (F := Ideal)
        (Cert.Forms.pooledR (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10)) = _
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]
    rw [← pooled_eq _ _ _ _ _ _ h0 h3 h4 h5 h6]
    exact (Cert.BridgeX.head_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
